-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S2048x512 : Shape := ⟨2, ![2048, 512]⟩
abbrev S1000x2048 : Shape := ⟨2, ![1000, 2048]⟩
abbrev S32768 : Shape := ⟨1, ![32768]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S1000x2048 : S_.BroadcastsInDim S1000x2048 (![] : Fin 0 → Fin S1000x2048.rank)
  reducesTo_S1000x2048_S_d0_1 : S1000x2048.ReducesTo [0, 1] S_
  reducesTo_S_S_d : S_.ReducesTo [] S_
  bcast_S_S32768 : S_.BroadcastsInDim S32768 (![] : Fin 0 → Fin S32768.rank)
  reducesTo_S32768_S_d0 : S32768.ReducesTo [0] S_

variable [Facts]

def fn_part1 {F : FTy → Type} [FloatOps F] (main_arg3 : IVec S32768 32) (main_arg5 : FVec F S_ .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S_ .f32 := Host.absf main_arg5
  let main_cst_6 : FVec F S_ .f32 := constant S_ .f32 0x7F800000#32
  let main_v19 : IVec S_ 1 := cmpf .olt main_v18 main_cst_6
  let main_c_7 : IVec S_ 1 := constantI S_ 1 1#1
  let main_v20 : IVec S_ 1 := (fun x v => Host.reduce IntOp.andi x v reducesTo_S_S_d h_S_) main_v19 main_c_7
  let main_v21 : IVec S_ 1 := andi main_v17 main_v20
  let main_c_8 : IVec S_ 32 := constantI S_ 32 0#32
  let main_v22 : IVec S32768 32 := broadcastInDim S32768 ![] bcast_S_S32768 main_c_8
  let main_v23 : IVec S32768 1 := cmpi .sge main_arg3 main_v22
  let main_c_9 : IVec S_ 32 := constantI S_ 32 1000#32
  let main_v24 : IVec S32768 32 := broadcastInDim S32768 ![] bcast_S_S32768 main_c_9
  let main_v25 : IVec S32768 1 := cmpi .slt main_arg3 main_v24
  let main_v26 : IVec S32768 1 := andi main_v23 main_v25
  let main_c_10 : IVec S_ 1 := constantI S_ 1 1#1
  let main_v27 : IVec S_ 1 := (fun x v => Host.reduce IntOp.andi x v reducesTo_S32768_S_d0 h_S_) main_v26 main_c_10
  let main_v28 : IVec S_ 1 := andi main_v21 main_v27
  main_v28

def fn {F : FTy → Type} [FloatOps F] (main_arg0 : FVec F S32768x512 .f32) (main_arg1 : FVec F S2048x512 .f32) (main_arg2 : FVec F S1000x2048 .f32) (main_arg3 : IVec S32768 32) (main_arg4 : FVec F S_ .f32) (main_arg5 : FVec F S_ .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S1000x2048 .f32 := Host.absf main_arg2
  let main_cst_2 : FVec F S_ .f32 := constant S_ .f32 0x7F800000#32
  let main_v10 : FVec F S1000x2048 .f32 := broadcastInDim S1000x2048 ![] bcast_S_S1000x2048 main_cst_2
  let main_v11 : IVec S1000x2048 1 := cmpf .olt main_v9 main_v10
  let main_c_3 : IVec S_ 1 := constantI S_ 1 1#1
  let main_v12 : IVec S_ 1 := (fun x v => Host.reduce IntOp.andi x v reducesTo_S1000x2048_S_d0_1 h_S_) main_v11 main_c_3
  let main_v13 : IVec S_ 1 := andi main_v8 main_v12
  let main_v14 : FVec F S_ .f32 := Host.absf main_arg4
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg3 main_arg5 main_v13 main_v15 main_c_5
-- ==== Kernel.lean ====
abbrev S32768x512 : Shape := ⟨2, ![32768, 512]⟩
abbrev S2048x512 : Shape := ⟨2, ![2048, 512]⟩
abbrev S1000x2048 : Shape := ⟨2, ![1000, 2048]⟩
abbrev S32768 : Shape := ⟨1, ![32768]⟩
abbrev S_ : Shape := ⟨0, ![]⟩
abbrev S512x2048 : Shape := ⟨2, ![512, 2048]⟩
abbrev S2048x1000 : Shape := ⟨2, ![2048, 1000]⟩
abbrev S2048 : Shape := ⟨1, ![2048]⟩
abbrev S1x2048 : Shape := ⟨2, ![1, 2048]⟩
abbrev S32768x1 : Shape := ⟨2, ![32768, 1]⟩
abbrev S2x1x1 : Shape := ⟨3, ![2, 1, 1]⟩
abbrev S2x1x2048 : Shape := ⟨3, ![2, 1, 2048]⟩
abbrev S512x512 : Shape := ⟨2, ![512, 512]⟩
abbrev S512x1 : Shape := ⟨2, ![512, 1]⟩
abbrev S1x1x1 : Shape := ⟨3, ![1, 1, 1]⟩
abbrev S1x1x2048 : Shape := ⟨3, ![1, 1, 2048]⟩
abbrev S512 : Shape := ⟨1, ![512]⟩
abbrev S1 : Shape := ⟨1, ![1]⟩
abbrev S1x1 : Shape := ⟨2, ![1, 1]⟩
abbrev S512x1000 : Shape := ⟨2, ![512, 1000]⟩

abbrev nBuf : Space → Nat
  | .hbm => 36
  | .vmem => 13
  | .smem => 0
  | _ => 0

abbrev bufTy : (tb : Table) → Fin (tcTables nBuf tb) → BufTy
  | .hbm, ⟨0, _⟩ => ⟨S32768x512, .f32⟩
  | .hbm, ⟨1, _⟩ => ⟨S2048x512, .f32⟩
  | .hbm, ⟨2, _⟩ => ⟨S1000x2048, .f32⟩
  | .hbm, ⟨3, _⟩ => ⟨S32768, .i32⟩
  | .hbm, ⟨4, _⟩ => ⟨S_, .f32⟩
  | .hbm, ⟨5, _⟩ => ⟨S_, .f32⟩
  | .hbm, ⟨6, _⟩ => ⟨S512x2048, .f32⟩
  | .hbm, ⟨7, _⟩ => ⟨S512x2048, .bf16⟩
  | .hbm, ⟨8, _⟩ => ⟨S2048x1000, .f32⟩
  | .hbm, ⟨9, _⟩ => ⟨S2048x1000, .bf16⟩
  | .hbm, ⟨10, _⟩ => ⟨S2048x512, .f32⟩
  | .hbm, ⟨11, _⟩ => ⟨S_, .f32⟩
  | .hbm, ⟨12, _⟩ => ⟨S2048, .f32⟩
  | .hbm, ⟨13, _⟩ => ⟨S1x2048, .f32⟩
  | .hbm, ⟨14, _⟩ => ⟨S32768x1, .i32⟩
  | .hbm, ⟨15, _⟩ => ⟨S2x1x1, .f32⟩
  | .hbm, ⟨16, _⟩ => ⟨S2x1x1, .f32⟩
  | .hbm, ⟨17, _⟩ => ⟨S2x1x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x2048, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S1x2048, .f32⟩
  | .local _ .vmem, ⟨4, _⟩ => ⟨S2048x1000, .bf16⟩
  | .local _ .vmem, ⟨5, _⟩ => ⟨S512x1, .i32⟩
  | .local _ .vmem, ⟨6, _⟩ => ⟨S512x1, .i32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x2048, .f32⟩
  | .local _ .vmem, ⟨12, _⟩ => ⟨S1x1x2048, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_cst_6 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S2048x512_S512x2048_1_0 : S2048x512.Transposes [1, 0] S512x2048
  bitsLt_bf16_f32 : FTy.bits .bf16 < FTy.bits .f32
  transposes_S1000x2048_S2048x1000_1_0 : S1000x2048.Transposes [1, 0] S2048x1000
  reducesTo_S2048x512_S2048_d1 : S2048x512.ReducesTo [1] S2048
  h_S_ : 0 < S_.numel
  shapeCasts_S2048_S1x2048 : S2048.ShapeCasts S1x2048
  shapeCasts_S32768_S32768x1 : S32768.ShapeCasts S32768x1
  inb_S1x1x1_S1x1x1_0_0_0 : ∀ a, (![0, 0, 0] : Fin 3 → Nat) a + S1x1x1.size a ≤ S1x1x1.size a
  h_S1x1x1 : 0 < S1x1x1.numel
  inb_S1x1x2048_S1x1x2048_0_0_0 : ∀ a, (![0, 0, 0] : Fin 3 → Nat) a + S1x1x2048.size a ≤ S1x1x2048.size a
  h_S1x1x2048 : 0 < S1x1x2048.numel
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  reduces_S512x2048_S2048 : S512x2048.Reduces [0] S2048
  shapeCasts_S1x1x2048_S1x1x2048 : S1x1x2048.ShapeCasts S1x1x2048
  shapeCasts_S1x2048_S1x1x2048 : S1x2048.ShapeCasts S1x1x2048
  reduces_S512x2048_S512 : S512x2048.Reduces [1] S512
  shapeCasts_S1x1x1_S1x1x1 : S1x1x1.ShapeCasts S1x1x1
  reduces_S512x1_S1 : S512x1.Reduces [0] S1
  shapeCasts_S1_S1x1 : S1.ShapeCasts S1x1
  shapeCasts_S1x1_S1x1x1 : S1x1.ShapeCasts S1x1x1
  inb_S2048x1000_S2048x1000_0_0 : ∀ a, (![0, 0] : Fin 2 → Nat) a + S2048x1000.size a ≤ S2048x1000.size a
  h_S2048x1000 : 0 < S2048x1000.numel
  shapeCasts_S2048x1000_S2048x1000 : S2048x1000.ShapeCasts S2048x1000
  reduces_S512x1000_S512 : S512x1000.Reduces [1] S512
  broadcasts_S512x1_S512x1000 : S512x1.Broadcasts S512x1000
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1000_d1_w32 : S512x1000.Iotas .tc 32 [1]
  reducesTo_S2x1x1_S_d0_1_2 : S2x1x1.ReducesTo [0, 1, 2] S_
  reducesTo_S2x1x2048_S1x2048_d0 : S2x1x2048.ReducesTo [0] S1x2048
  reducesTo_S1x2048_S_d0_1 : S1x2048.ReducesTo [0, 1] S_
  dot_S512x512_S512x2048_S512x2048_1_0_0_1_n_n_wf : DotDims.WF S512x512 S512x2048 S512x2048 [1] [0] [0] [1] [] []
  dot_S512x2048_S2048x1000_S512x1000_1_0_0_1_n_n_wf : DotDims.WF S512x2048 S2048x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1000.size a ≤ S2048x1000.size a
  hwx0_3 : ∀ i : grid0.Coords, EltTy.bits .bf16 = 32 ∨ (Rect.block (s := S2048x1000) S2048x1000.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S32768x1.size a
  hwx0_4 : ∀ i : grid0.Coords, EltTy.bits .i32 = 32 ∨ (Rect.block (s := S32768x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2048.size a ≤ S2x1x2048.size a
  hwx0_7 : ∀ i : grid0.Coords, EltTy.bits .f32 = 32 ∨ (Rect.block (s := S2x1x2048) S1x1x2048.size (cc0_transform_7 i) (hinb0_7 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x1000_S512x1000_1_0_0_1_n_n : DotDims S512x2048 S2048x1000 S512x1000 where
  lhsContracting := [1]
  rhsContracting := [0]
  lhsNonContracting := [0]
  rhsNonContracting := [1]
  lhsBatch := []
  rhsBatch := []
  wf := dot_S512x2048_S2048x1000_S512x1000_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S1x1x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_2) S1x1x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x512 : Shape := ⟨2, ![32768, 512]⟩
abbrev S2048x512 : Shape := ⟨2, ![2048, 512]⟩
abbrev S1000x2048 : Shape := ⟨2, ![1000, 2048]⟩
abbrev S32768 : Shape := ⟨1, ![32768]⟩
abbrev S_ : Shape := ⟨0, ![]⟩
abbrev S32768x1 : Shape := ⟨2, ![32768, 1]⟩
abbrev S2048 : Shape := ⟨1, ![2048]⟩
abbrev S1x2048 : Shape := ⟨2, ![1, 2048]⟩
abbrev S32768x2048 : Shape := ⟨2, ![32768, 2048]⟩
abbrev S512x2048 : Shape := ⟨2, ![512, 2048]⟩
abbrev S2048x1000 : Shape := ⟨2, ![2048, 1000]⟩
abbrev S32768x1000 : Shape := ⟨2, ![32768, 1000]⟩
abbrev S32768x1x1 : Shape := ⟨3, ![32768, 1, 1]⟩
abbrev S1 : Shape := ⟨1, ![1]⟩
abbrev S1x1x1 : Shape := ⟨3, ![1, 1, 1]⟩

abbrev nBuf : Space → Nat
  | .hbm => 88
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S2048x512, .f32⟩
  | .hbm, ⟨2, _⟩ => ⟨S1000x2048, .f32⟩
  | .hbm, ⟨3, _⟩ => ⟨S32768, .i32⟩
  | .hbm, ⟨4, _⟩ => ⟨S_, .f32⟩
  | .hbm, ⟨5, _⟩ => ⟨S_, .f32⟩
  | .hbm, ⟨6, _⟩ => ⟨S32768x512, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S2048x512, .f32⟩
  | .hbm, ⟨11, _⟩ => ⟨S_, .f32⟩
  | .hbm, ⟨12, _⟩ => ⟨S2048, .f32⟩
  | .hbm, ⟨13, _⟩ => ⟨S1x2048, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S512x2048, .f32⟩
  | .hbm, ⟨18, _⟩ => ⟨S32768x2048, .f32⟩
  | .hbm, ⟨19, _⟩ => ⟨S_, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S_, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S2048x1000, .f32⟩
  | .hbm, ⟨28, _⟩ => ⟨S32768x1000, .f32⟩
  | .hbm, ⟨29, _⟩ => ⟨S_, .f32⟩
  | .hbm, ⟨30, _⟩ => ⟨S32768, .f32⟩
  | .hbm, ⟨31, _⟩ => ⟨S_, .f32⟩
  | .hbm, ⟨32, _⟩ => ⟨S32768, .f32⟩
  | .hbm, ⟨33, _⟩ => ⟨S32768, .f32⟩
  | .hbm, ⟨34, _⟩ => ⟨S32768x1, .f32⟩
  | .hbm, ⟨35, _⟩ => ⟨S32768x1000, .f32⟩
  | .hbm, ⟨36, _⟩ => ⟨S32768x1000, .f32⟩
  | .hbm, ⟨37, _⟩ => ⟨S32768x1000, .f32⟩
  | .hbm, ⟨38, _⟩ => ⟨S_, .f32⟩
  | .hbm, ⟨39, _⟩ => ⟨S32768, .f32⟩
  | .hbm, ⟨40, _⟩ => ⟨S32768x1, .f32⟩
  | .hbm, ⟨41, _⟩ => ⟨S32768x1, .f32⟩
  | .hbm, ⟨42, _⟩ => ⟨S32768x1000, .f32⟩
  | .hbm, ⟨43, _⟩ => ⟨S32768x1000, .f32⟩
  | .hbm, ⟨44, _⟩ => ⟨S32768x1, .i32⟩
  | .hbm, ⟨45, _⟩ => ⟨S_, .i32⟩
  | .hbm, ⟨46, _⟩ => ⟨S32768x1, .i32⟩
  | .hbm, ⟨47, _⟩ => ⟨S32768x1, .i1⟩
  | .hbm, ⟨48, _⟩ => ⟨S_, .i32⟩
  | .hbm, ⟨49, _⟩ => ⟨S32768x1, .i32⟩
  | .hbm, ⟨50, _⟩ => ⟨S32768x1, .i32⟩
  | .hbm, ⟨51, _⟩ => ⟨S32768x1, .i32⟩
  | .hbm, ⟨52, _⟩ => ⟨S32768x1x1, .i32⟩
  | .hbm, ⟨53, _⟩ => ⟨S1, .i32⟩
  | .hbm, ⟨54, _⟩ => ⟨S_, .i32⟩
  | .hbm, ⟨55, _⟩ => ⟨S32768x1x1, .i32⟩
  | .hbm, ⟨56, _⟩ => ⟨S32768x1x1, .i1⟩
  | .hbm, ⟨57, _⟩ => ⟨S1x1x1, .i32⟩
  | .hbm, ⟨58, _⟩ => ⟨S32768x1x1, .i32⟩
  | .hbm, ⟨59, _⟩ => ⟨S32768x1x1, .i1⟩
  | .hbm, ⟨60, _⟩ => ⟨S32768x1x1, .i1⟩
  | .hbm, ⟨61, _⟩ => ⟨S_, .i1⟩
  | .hbm, ⟨62, _⟩ => ⟨S32768x1, .i1⟩
  | .hbm, ⟨63, _⟩ => ⟨S32768x1, .f32⟩
  | .hbm, ⟨64, _⟩ => ⟨S_, .f32⟩
  | .hbm, ⟨65, _⟩ => ⟨S32768x1, .f32⟩
  | .hbm, ⟨66, _⟩ => ⟨S32768x1, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S2048, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S32768, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_call0_cst_0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_cst_1 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_v19 : Ref sig .tc := ⟨.hbm, 43, rfl⟩
abbrev main_v20 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_cst : Ref sig .tc := ⟨.hbm, 64, rfl⟩
abbrev main_call1_v14 : Ref sig .tc := ⟨.hbm, 65, rfl⟩
abbrev main_v21 : Ref sig .tc := ⟨.hbm, 66, rfl⟩
abbrev main_cst_3 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_v25 : Ref sig .tc := ⟨.hbm, 73, rfl⟩
abbrev main_cst_6 : Ref sig .tc := ⟨.hbm, 74, rfl⟩
abbrev main_v26 : Ref sig .tc := ⟨.hbm, 75, rfl⟩
abbrev main_cst_7 : Ref sig .tc := ⟨.hbm, 76, rfl⟩
abbrev main_v27 : Ref sig .tc := ⟨.hbm, 77, rfl⟩
abbrev main_cst_8 : Ref sig .tc := ⟨.hbm, 78, rfl⟩
abbrev main_v28 : Ref sig .tc := ⟨.hbm, 79, rfl⟩
abbrev main_cst_9 : Ref sig .tc := ⟨.hbm, 80, rfl⟩
abbrev main_v29 : Ref sig .tc := ⟨.hbm, 81, rfl⟩
abbrev main_cst_10 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩

abbrev nD : Nat := 1
abbrev τ : Topo := Topo.v7x

variable {F : FTy → Type} [FloatOps F]

class Facts₀ : Prop where
  reducesTo_S32768x512_S32768_d1 : S32768x512.ReducesTo [1] S32768
  h_S_ : 0 < S_.numel
  bcast_S32768_S32768x1_0 : S32768.BroadcastsInDim S32768x1 (![0] : Fin 1 → Fin S32768x1.rank)
  reducesTo_S2048x512_S2048_d1 : S2048x512.ReducesTo [1] S2048
  bcast_S2048_S1x2048_1 : S2048.BroadcastsInDim S1x2048 (![1] : Fin 1 → Fin S1x2048.rank)
  bcast_S32768x1_S32768x2048_0_1 : S32768x1.BroadcastsInDim S32768x2048 (![0, 1] : Fin 2 → Fin S32768x2048.rank)
  bcast_S1x2048_S32768x2048_0_1 : S1x2048.BroadcastsInDim S32768x2048 (![0, 1] : Fin 2 → Fin S32768x2048.rank)
  transposes_S2048x512_S512x2048_1_0 : S2048x512.Transposes [1, 0] S512x2048
  bcast_S_S32768x2048 : S_.BroadcastsInDim S32768x2048 (![] : Fin 0 → Fin S32768x2048.rank)
  transposes_S1000x2048_S2048x1000_1_0 : S1000x2048.Transposes [1, 0] S2048x1000
  reducesTo_S32768x1000_S32768_d1 : S32768x1000.ReducesTo [1] S32768
  bcast_S_S32768 : S_.BroadcastsInDim S32768 (![] : Fin 0 → Fin S32768.rank)
  bcast_S32768x1_S32768x1000_0_1 : S32768x1.BroadcastsInDim S32768x1000 (![0, 1] : Fin 2 → Fin S32768x1000.rank)
  bcast_S_S32768x1 : S_.BroadcastsInDim S32768x1 (![] : Fin 0 → Fin S32768x1.rank)
  shapeCasts_S32768x1_S32768x1x1 : S32768x1.ShapeCasts S32768x1x1
  bcast_S_S32768x1x1 : S_.BroadcastsInDim S32768x1x1 (![] : Fin 0 → Fin S32768x1x1.rank)
  bcast_S1_S1x1x1_2 : S1.BroadcastsInDim S1x1x1 (![2] : Fin 1 → Fin S1x1x1.rank)
  bcast_S1x1x1_S32768x1x1_0_1_2 : S1x1x1.BroadcastsInDim S32768x1x1 (![0, 1, 2] : Fin 3 → Fin S32768x1x1.rank)
  reducesTo_S32768x1x1_S32768x1_d2 : S32768x1x1.ReducesTo [2] S32768x1
  reducesTo_S32768x1_S_d0_1 : S32768x1.ReducesTo [0, 1] S_
  reducesTo_S32768x2048_S2048_d0 : S32768x2048.ReducesTo [0] S2048
  reducesTo_S2048_S_d0 : S2048.ReducesTo [0] S_
  reducesTo_S32768x2048_S32768_d1 : S32768x2048.ReducesTo [1] S32768
  reducesTo_S32768_S_d0 : S32768.ReducesTo [0] S_
  dot_S32768x512_S512x2048_S32768x2048_1_0_0_1_n_n_wf : DotDims.WF S32768x512 S512x2048 S32768x2048 [1] [0] [0] [1] [] []
  dot_S32768x2048_S2048x1000_S32768x1000_1_0_0_1_n_n_wf : DotDims.WF S32768x2048 S2048x1000 S32768x1000 [1] [0] [0] [1] [] []
  gather_S32768x1000_S32768x1x1_S32768x1_n_1_0_0_1_2_11_wf : GatherDims.WF S32768x1000 S32768x1x1 S32768x1 [] [1] [0] [1] [0] 2 ![1, 1]

variable [Facts₀]

def dot_S32768x512_S512x2048_S32768x2048_1_0_0_1_n_n : DotDims S32768x512 S512x2048 S32768x2048 where
  lhsContracting := [1]
  rhsContracting := [0]
  lhsNonContracting := [0]
  rhsNonContracting := [1]
  lhsBatch := []
  rhsBatch := []
  wf := dot_S32768x512_S512x2048_S32768x2048_1_0_0_1_n_n_wf
def dot_S32768x2048_S2048x1000_S32768x1000_1_0_0_1_n_n : DotDims S32768x2048 S2048x1000 S32768x1000 where
  lhsContracting := [1]
  rhsContracting := [0]
  lhsNonContracting := [0]
  rhsNonContracting := [1]
  lhsBatch := []
  rhsBatch := []
  wf := dot_S32768x2048_S2048x1000_S32768x1000_1_0_0_1_n_n_wf
def gather_S32768x1000_S32768x1x1_S32768x1_n_1_0_0_1_2_11 : GatherDims S32768x1000 S32768x1x1 S32768x1 where
  offsetDims := []
  collapsedSliceDims := [1]
  operandBatchingDims := [0]
  startIndicesBatchingDims := [0]
  startIndexMap := [1]
  indexVectorDim := 2
  sliceSizes := ![1, 1]
  wf := gather_S32768x1000_S32768x1x1_S32768x1_n_1_0_0_1_2_11_wf

class Facts : Prop extends Facts₀ where

variable [Facts]
-- ==== Proof.KPieces.lean ====
/-
  What one run of the kernel body leaves in the three carried output blocks, as pure terms of what it loaded.
  At a tile that starts a half (case A) the body first stores the neutral values (zero, zero, +∞) and reads them back;
  at every other tile (case B) it reads what the tile before left. In both it leaves
    class sum   : the value read + (0 - the tile's sum of picked log-probabilities)
    row-min sum : the value read + the tile's sum of row minima
    column min  : the lane-wise minimum of the value read and the tile's column minimum.
-/
import proofs.«418528_j74517682585681_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

/-- The all-zero offsets of a rank-3 block, as a constant function. -/
theorem hz3 : (![0, 0, 0] : Fin 3 → Nat) = fun _ => 0 := funext fun a => by fin_cases a <;> rfl

/-- The all-zero offsets of a rank-2 block, as a constant function. -/
theorem hz2 : (![0, 0] : Fin 2 → Nat) = fun _ => 0 := funext fun a => by fin_cases a <;> rfl

/-- Case A, class sum: the stored zero, read back, plus the tile's term. -/
theorem out_A_5 (c : Dev nD) (i : grid0.Coords) (arg2 : Memref sig .tc .vmem S512x512 .f32) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S2048x1000 .bf16) (harg5 : arg5.IsWhole) (arg6 : Memref sig .tc .vmem S512x1 .i32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x2048 .f32) (harg9 : arg9.IsWhole) (hc0 : cond0_0 i)
    (x0 : Vec F S512x512 .f32) (x1 : Vec F S512x2048 .bf16) (x2 : Vec F S1x2048 .f32) (x3 : Vec F S2048x1000 .bf16) (x4 : Vec F S512x1 .i32) :
    out0_A_5 c i arg2 harg2 arg3 harg3 arg4 harg4 arg5 harg5 arg6 harg6 arg7 harg7 arg8 harg8 arg9 harg9 hc0 x0 x1 x2 x3 x4 = k0_pay9 (k0_pay4 x0 x1 x2) x3 x4 (k0_pay1 (F := F)) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1x1) hz3]
  simp only [View.readCov_unit_zero (S := S1x1x1) _ hz3, View.readCov_unit_zero (S := S1x1x2048) _ hz3, View.readAt_eq_ld, harg2.read_unread, harg3.read_unread, harg4.read_unread, harg5.read_unread, harg6.read_unread, harg7.read_unread, harg8.read_unread, harg9.read_unread,
    View.ld_unit_zero (S := S512x512) hz2, View.ld_unit_zero (S := S512x2048) hz2, View.ld_unit_zero (S := S1x2048) hz2, View.ld_unit_zero (S := S2048x1000) hz2, View.ld_unit_zero (S := S512x1) hz2,
    View.ld_unit_zero (S := S1x1x1) hz3, View.ld_unit_zero (S := S1x1x2048) hz3]

/-- Case A, sum of row minima: the stored zero, read back, plus the tile's sum. -/
theorem out_A_6 (c : Dev nD) (i : grid0.Coords) (arg2 : Memref sig .tc .vmem S512x512 .f32) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S2048x1000 .bf16) (harg5 : arg5.IsWhole) (arg6 : Memref sig .tc .vmem S512x1 .i32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x2048 .f32) (harg9 : arg9.IsWhole) (hc0 : cond0_0 i)
    (x0 : Vec F S512x512 .f32) (x1 : Vec F S512x2048 .bf16) (x2 : Vec F S1x2048 .f32) (x3 : Vec F S2048x1000 .bf16) (x4 : Vec F S512x1 .i32) :
    out0_A_6 c i arg2 harg2 arg3 harg3 arg4 harg4 arg5 harg5 arg6 harg6 arg7 harg7 arg8 harg8 arg9 harg9 hc0 x0 x1 x2 x3 x4 = k0_pay8 (k0_pay6 x0 x1 x2) (k0_pay7 (k0_pay2 (F := F))) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1x1) hz3]
  simp only [View.readCov_unit_zero (S := S1x1x1) _ hz3, View.readCov_unit_zero (S := S1x1x2048) _ hz3, View.readAt_eq_ld, harg2.read_unread, harg3.read_unread, harg4.read_unread, harg5.read_unread, harg6.read_unread, harg7.read_unread, harg8.read_unread, harg9.read_unread,
    View.ld_unit_zero (S := S512x512) hz2, View.ld_unit_zero (S := S512x2048) hz2, View.ld_unit_zero (S := S1x2048) hz2, View.ld_unit_zero (S := S2048x1000) hz2, View.ld_unit_zero (S := S512x1) hz2,
    View.ld_unit_zero (S := S1x1x1) hz3, View.ld_unit_zero (S := S1x1x2048) hz3]

/-- Case A, column minimum: the stored +∞, read back, against the tile's column minimum. -/
theorem out_A_7 (c : Dev nD) (i : grid0.Coords) (arg2 : Memref sig .tc .vmem S512x512 .f32) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S2048x1000 .bf16) (harg5 : arg5.IsWhole) (arg6 : Memref sig .tc .vmem S512x1 .i32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x2048 .f32) (harg9 : arg9.IsWhole) (hc0 : cond0_0 i)
    (x0 : Vec F S512x512 .f32) (x1 : Vec F S512x2048 .bf16) (x2 : Vec F S1x2048 .f32) (x3 : Vec F S2048x1000 .bf16) (x4 : Vec F S512x1 .i32) :
    out0_A_7 c i arg2 harg2 arg3 harg3 arg4 harg4 arg5 harg5 arg6 harg6 arg7 harg7 arg8 harg8 arg9 harg9 hc0 x0 x1 x2 x3 x4 = k0_pay5 x0 x1 x2 (k0_pay3 (F := F)) := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1x2048) hz3]
  simp only [View.readCov_unit_zero (S := S1x1x1) _ hz3, View.readCov_unit_zero (S := S1x1x2048) _ hz3, View.readAt_eq_ld, harg2.read_unread, harg3.read_unread, harg4.read_unread, harg5.read_unread, harg6.read_unread, harg7.read_unread, harg8.read_unread, harg9.read_unread,
    View.ld_unit_zero (S := S512x512) hz2, View.ld_unit_zero (S := S512x2048) hz2, View.ld_unit_zero (S := S1x2048) hz2, View.ld_unit_zero (S := S2048x1000) hz2, View.ld_unit_zero (S := S512x1) hz2,
    View.ld_unit_zero (S := S1x1x1) hz3, View.ld_unit_zero (S := S1x1x2048) hz3]

/-- Case B, class sum: what the tile before left, plus the tile's term. -/
theorem out_B_5 (c : Dev nD) (i : grid0.Coords) (arg2 : Memref sig .tc .vmem S512x512 .f32) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S2048x1000 .bf16) (harg5 : arg5.IsWhole) (arg6 : Memref sig .tc .vmem S512x1 .i32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x2048 .f32) (harg9 : arg9.IsWhole) (hc0 : ¬cond0_0 i)
    (x0 : Vec F S512x512 .f32) (x1 : Vec F S512x2048 .bf16) (x2 : Vec F S1x2048 .f32) (x3 : Vec F S2048x1000 .bf16) (x4 : Vec F S512x1 .i32) (xo5 : Vec F S1x1x1 .f32) (xo6 : Vec F S1x1x1 .f32) (xo7 : Vec F S1x1x2048 .f32) :
    out0_B_5 c i arg2 harg2 arg3 harg3 arg4 harg4 arg5 harg5 arg6 harg6 arg7 harg7 arg8 harg8 arg9 harg9 hc0 x0 x1 x2 x3 x4 xo5 xo6 xo7 = k0_pay9 (k0_pay4 x0 x1 x2) x3 x4 xo5 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xo5 xo6 xo7)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread,
    View.ld_unit_zero (S := S512x512) hz2, View.ld_unit_zero (S := S512x2048) hz2, View.ld_unit_zero (S := S1x2048) hz2, View.ld_unit_zero (S := S2048x1000) hz2, View.ld_unit_zero (S := S512x1) hz2,
    View.ld_unit_zero (S := S1x1x1) hz3, View.ld_unit_zero (S := S1x1x2048) hz3]

/-- Case B, sum of row minima: what the tile before left, plus the tile's sum. -/
theorem out_B_6 (c : Dev nD) (i : grid0.Coords) (arg2 : Memref sig .tc .vmem S512x512 .f32) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S2048x1000 .bf16) (harg5 : arg5.IsWhole) (arg6 : Memref sig .tc .vmem S512x1 .i32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x2048 .f32) (harg9 : arg9.IsWhole) (hc0 : ¬cond0_0 i)
    (x0 : Vec F S512x512 .f32) (x1 : Vec F S512x2048 .bf16) (x2 : Vec F S1x2048 .f32) (x3 : Vec F S2048x1000 .bf16) (x4 : Vec F S512x1 .i32) (xo5 : Vec F S1x1x1 .f32) (xo6 : Vec F S1x1x1 .f32) (xo7 : Vec F S1x1x2048 .f32) :
    out0_B_6 c i arg2 harg2 arg3 harg3 arg4 harg4 arg5 harg5 arg6 harg6 arg7 harg7 arg8 harg8 arg9 harg9 hc0 x0 x1 x2 x3 x4 xo5 xo6 xo7 = k0_pay8 (k0_pay6 x0 x1 x2) (k0_pay7 xo6) := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 xo5 xo6 xo7)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread,
    View.ld_unit_zero (S := S512x512) hz2, View.ld_unit_zero (S := S512x2048) hz2, View.ld_unit_zero (S := S1x2048) hz2, View.ld_unit_zero (S := S2048x1000) hz2, View.ld_unit_zero (S := S512x1) hz2,
    View.ld_unit_zero (S := S1x1x1) hz3, View.ld_unit_zero (S := S1x1x2048) hz3]

/-- Case B, column minimum: what the tile before left, against the tile's column minimum. -/
theorem out_B_7 (c : Dev nD) (i : grid0.Coords) (arg2 : Memref sig .tc .vmem S512x512 .f32) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S2048x1000 .bf16) (harg5 : arg5.IsWhole) (arg6 : Memref sig .tc .vmem S512x1 .i32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x2048 .f32) (harg9 : arg9.IsWhole) (hc0 : ¬cond0_0 i)
    (x0 : Vec F S512x512 .f32) (x1 : Vec F S512x2048 .bf16) (x2 : Vec F S1x2048 .f32) (x3 : Vec F S2048x1000 .bf16) (x4 : Vec F S512x1 .i32) (xo5 : Vec F S1x1x1 .f32) (xo6 : Vec F S1x1x1 .f32) (xo7 : Vec F S1x1x2048 .f32) :
    out0_B_7 c i arg2 harg2 arg3 harg3 arg4 harg4 arg5 harg5 arg6 harg6 arg7 harg7 arg8 harg8 arg9 harg9 hc0 x0 x1 x2 x3 x4 xo5 xo6 xo7 = k0_pay5 x0 x1 x2 xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 xo5 xo6 xo7)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread,
    View.ld_unit_zero (S := S512x512) hz2, View.ld_unit_zero (S := S512x2048) hz2, View.ld_unit_zero (S := S1x2048) hz2, View.ld_unit_zero (S := S2048x1000) hz2, View.ld_unit_zero (S := S512x1) hz2,
    View.ld_unit_zero (S := S1x1x1) hz3, View.ld_unit_zero (S := S1x1x2048) hz3]

end Cert.KernelIdeal.Pieces

end
-- ==== Proof.Spec.lean ====
/-
  The mathematics of the prototype classifier's loss, as functions of the argument arrays over the extended reals.

  For a sample row i (of 32768), a prototype m (of 2048) and a class c (of 1000):
    dist i m   = sqrt (max ((|x_i|^2 + |p_m|^2) - 2 * <x_i, p_m>) 0)        the Euclidean distance, through one product
    logit i c  = sum over m of dist i m * w_c,m
    logp i c   = (logit i c - top_i) - log (sum over c' of exp (logit i c' - top_i)),  top_i the row's maximum
    picked i   = the log-probability of row i's label: the sum over c of (logp i c where c is the label, else 0)
  and the loss is  -(sum_i picked i) / 32768 + l1 * (sum_m min_i dist i m) / 2048 + l2 * (sum_i min_m dist i m) / 32768.

  The kernel walks the rows in 64 tiles of 512, tile t holding rows 512 t .. 512 t + 511; tiles 0..31 accumulate into
  one triple of running values and tiles 32..63 into another (a reset at t = 0 and t = 32), and the two triples are
  joined afterwards. 'acc…' below are those running values, 'kernelResult' the loss so computed, 'refResult' the loss
  computed over all rows at once.
-/
import Idealize.ShloMosaic.PureOps.Ideal
import Idealize.ShloMosaic.Lib.ValueIdx

noncomputable section

open scoped BigOperators

namespace Cert.Spec

open Idealize.ShloMosaic Idealize.ShloMosaic.ValueIdx

/-- The f32 words the two programs share, read as extended reals. -/
abbrev zero : EReal := Ideal.ofBits .f32 0x00000000#32
abbrev two : EReal := Ideal.ofBits .f32 0x40000000#32
abbrev posInf : EReal := Ideal.ofBits .f32 0x7F800000#32
abbrev negInf : EReal := Ideal.ofBits .f32 0xFF800000#32
abbrev n32768 : EReal := Ideal.ofBits .f32 0x47000000#32
abbrev n2048 : EReal := Ideal.ofBits .f32 0x45000000#32

/-! ## One row of logits -/

/-- A row's maximum, folded from -∞. -/
def rowTop (r : Fin 1000 → EReal) : EReal := (Finset.univ : Finset (Fin 1000)).fold max negInf r

/-- The log-softmax of a row at class c: the entry less the row's maximum, less the log of the sum of the exponentials
    of all entries less the maximum. -/
def rowLogp (r : Fin 1000 → EReal) (c : Fin 1000) : EReal :=
  (r c - rowTop r) - Ideal.log (∑ c' : Fin 1000, Ideal.exp (r c' - rowTop r))

/-- The log-probability of the class whose number is the word y, as a sum over the classes in which only that class's
    term is not zero (zero when y is the number of no class). -/
def rowPick (r : Fin 1000 → EReal) (y : BitVec 32) : EReal :=
  ∑ c : Fin 1000, if BitVec.ofNat 32 c.val = y then rowLogp r c else zero

section Arrays

variable (X : (⟨2, ![32768, 512]⟩ : Shape).Idx → EReal) (P : (⟨2, ![2048, 512]⟩ : Shape).Idx → EReal)
  (W : (⟨2, ![1000, 2048]⟩ : Shape).Idx → EReal) (Y : (⟨1, ![32768]⟩ : Shape).Idx → BitVec 32)

/-- |x_i|^2. -/
def sqX (i : Fin 32768) : EReal := ∑ k : Fin 512, X (ix2 i k) * X (ix2 i k)
/-- |p_m|^2. -/
def sqP (m : Fin 2048) : EReal := ∑ k : Fin 512, P (ix2 m k) * P (ix2 m k)
/-- <x_i, p_m>. -/
def dotXP (i : Fin 32768) (m : Fin 2048) : EReal := ∑ k : Fin 512, X (ix2 i k) * P (ix2 m k)
/-- The distance of sample i to prototype m. -/
def dist (i : Fin 32768) (m : Fin 2048) : EReal :=
  Ideal.sqrt (max ((sqX X i + sqP P m) - two * dotXP X P i m) zero)
/-- The logit of sample i for class c. -/
def logit (i : Fin 32768) (c : Fin 1000) : EReal := ∑ m : Fin 2048, dist X P i m * W (ix2 c m)
/-- The log-probability of sample i's label. -/
def picked (i : Fin 32768) : EReal := rowPick (logit X P W i) (Y (ix1 i))
/-- Sample i's distance to its nearest prototype, folded from +∞. -/
def rowMin (i : Fin 32768) : EReal := (Finset.univ : Finset (Fin 2048)).fold min posInf (fun m => dist X P i m)
/-- Prototype m's distance to its nearest sample, folded from +∞. -/
def colMin (m : Fin 2048) : EReal := (Finset.univ : Finset (Fin 32768)).fold min posInf (fun i => dist X P i m)

/-! ## The tiles -/

/-- Row r of tile t. -/
def rowOf (t : Fin 64) (r : Fin 512) : Fin 32768 := ⟨t.val * 512 + r.val, by have := t.isLt; have := r.isLt; omega⟩

/-- What tile t adds to the class sum: zero less the sum of its rows' picked log-probabilities. -/
def tileClass (t : Fin 64) : EReal := zero - ∑ r : Fin 512, picked X P W Y (rowOf t r)
/-- What tile t adds to the sum of row minima. -/
def tileR2 (t : Fin 64) : EReal := ∑ r : Fin 512, rowMin X P (rowOf t r)
/-- Tile t's column minimum at prototype m, folded from +∞. -/
def tileR1 (t : Fin 64) (m : Fin 2048) : EReal :=
  (Finset.univ : Finset (Fin 512)).fold min posInf (fun r => dist X P (rowOf t r) m)

/-- The same three at a natural number (zero, or +∞ for the minimum, past the last tile: never read there). -/
def tileClassN (t : ℕ) : EReal := if h : t < 64 then tileClass X P W Y ⟨t, h⟩ else 0
def tileR2N (t : ℕ) : EReal := if h : t < 64 then tileR2 X P ⟨t, h⟩ else 0
def tileR1N (t : ℕ) (m : Fin 2048) : EReal := if h : t < 64 then tileR1 X P ⟨t, h⟩ m else ⊤

/-- The running class sum after tile n: reset to zero before the tiles 0 and 32. -/
def accClass : ℕ → EReal
  | 0 => zero + tileClassN X P W Y 0
  | n + 1 => if (n + 1) % 32 = 0 then zero + tileClassN X P W Y (n + 1) else accClass n + tileClassN X P W Y (n + 1)
/-- The running sum of row minima after tile n. -/
def accR2 : ℕ → EReal
  | 0 => zero + tileR2N X P 0
  | n + 1 => if (n + 1) % 32 = 0 then zero + tileR2N X P (n + 1) else accR2 n + tileR2N X P (n + 1)
/-- The running column minimum after tile n, at prototype m: reset to +∞ before the tiles 0 and 32. -/
def accR1 (m : Fin 2048) : ℕ → EReal
  | 0 => min posInf (tileR1N X P 0 m)
  | n + 1 => if (n + 1) % 32 = 0 then min posInf (tileR1N X P (n + 1) m) else min (accR1 m n) (tileR1N X P (n + 1) m)

/-- The loss as the kernel's program computes it: the two halves' running values joined, divided, weighted, added. -/
def kernelResult (l1 l2 : EReal) : EReal :=
  (Ideal.div (zero + ∑ cc : Fin 2, accClass X P W Y (32 * cc.val + 31)) n32768
      + l1 * Ideal.div (zero + ∑ m : Fin 2048,
          (Finset.univ : Finset (Fin 2)).fold min posInf (fun cc => accR1 X P m (32 * cc.val + 31))) n2048)
    + l2 * Ideal.div (zero + ∑ cc : Fin 2, accR2 X P (32 * cc.val + 31)) n32768

/-- The loss over all rows at once. -/
def refResult (l1 l2 : EReal) : EReal :=
  (-(Ideal.div (zero + ∑ i : Fin 32768, picked X P W Y i) n32768)
      + l1 * Ideal.div (zero + ∑ m : Fin 2048, colMin X P m) n2048)
    + l2 * Ideal.div (zero + ∑ i : Fin 32768, rowMin X P i) n32768

end Arrays

end Cert.Spec

end
-- ==== Proof.LibSoftmaxRows.lean ====
/-
  Softmax along the rows of a rank-two array, as a vector program spells it, read at an index.

  For an array `s` of shape [a, b] the program takes each row's maximum by a reduction over the second axis from -∞
  (and joins the result with -∞ once more, which changes nothing), views the [a] vector of maxima as an [a, 1] column
  and broadcasts the column across the row, subtracts, exponentiates, sums each row of exponentials from 0 the same
  way, broadcasts the sums, and divides.  At the ideal values every one of these is the textbook operation on the
  extended reals, so entry (i, j) of the result is

      exp (s i j - M i) / ∑ j', exp (s i j' - M i),     M i = max (-∞) (max over j of s i j),

  with the maximum a fold of `max` over the row's coordinates and the quotient the extended reals' `Ideal.div`.
  The two column forms of a layout operation that the reading needs — an [a] vector viewed as [a, 1], an [a, 1]
  column broadcast to [a, b] — are stated first; then a row reduction over the second axis at row `i`; then the
  composite.  Nothing here depends on a particular kernel: shapes are generic in `a` and `b`.
-/
import Idealize.ShloMosaic.PureOps.Ideal.Laws
import Idealize.ShloMosaic.Lib.ValueIdx
import Idealize.ShloMosaic.Lib.Pipeline.Value

noncomputable section

namespace Cert.Lib.SoftmaxRows

open Idealize.ShloMosaic Idealize.ShloMosaic.ValueIdx

variable {α : Type} {a b : ℕ}

/-! ## Two column forms of a layout operation -/

/-- An [a] vector viewed as an [a, 1] column reads, at (i, u), the vector at i: both have row-major position i. -/
theorem colCast_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast across [a, b] reads, at (i, j), the column at (i, 0). -/
theorem colBroadcast_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ fun c => match c with
    | ⟨0, _⟩ => by
        show i.val = if a = 1 then 0 else i.val
        have := i.isLt
        split_ifs <;> omega
    | ⟨1, _⟩ => by
        show (0 : ℕ) = if (1 : ℕ) = 1 then 0 else j.val
        rw [if_pos rfl]

/-! ## A reduction over the second axis, at row i -/

/-- Row i's index with the column coordinate j put back is (i, j). -/
theorem lift_row (h : (⟨2, ![a, b]⟩ : Shape).Reduces [1] ⟨1, ![a]⟩) (i : Fin a) (j : Fin b) :
    h.lift (ix1 i) j = ix2 i j :=
  funext fun c => Fin.ext (by match c with | ⟨0, _⟩ => rfl | ⟨1, _⟩ => rfl)

variable {φ : FTy}

/-- A maximum-reduction over the second axis is, at row i, the fold of `max` from the accumulator's value over the
    row's entries. -/
theorem rowMax_apply (s : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ s acc h hφ hacc (ix1 i)
      = (Finset.univ : Finset (Fin b)).fold max (Ideal.ofBits φ acc) (fun j => s (ix2 i j)) := by
  rw [Ideal.multiReduction_maximumf_single]
  have e : (s ∘ h.lift (ix1 i)) = fun j : Fin b => s (ix2 i j) := funext fun j => congrArg s (lift_row h i j)
  rw [e]
  rfl

/-- A sum-reduction over the second axis is, at row i, the sum of the row's entries. -/
theorem rowSum_apply (s : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ s acc h hφ hacc (ix1 i) = ∑ j : Fin b, s (ix2 i j) := by
  rw [Ideal.multiReduction_add_single]
  exact Finset.sum_congr rfl fun j _ => congrArg s (lift_row h i j)

/-! ## The same row maximum as a host reduction over the last axis of a rank-three array -/

/-- Row (p, i)'s index with the last coordinate j put back is (p, i, j). -/
theorem lift_row3 {c : ℕ} (h : (⟨3, ![a, b, c]⟩ : Shape).Reduces [2] ⟨2, ![a, b]⟩) (p : Fin a) (i : Fin b) (j : Fin c) :
    h.lift (ix2 p i) j = ix3 p i j :=
  funext fun d => Fin.ext (by match d with | ⟨0, _⟩ => rfl | ⟨1, _⟩ => rfl | ⟨2, _⟩ => rfl)

/-- A host reduction by `max` over the last axis is, at (p, i), the fold of `max` from the initial value over the
    entries (p, i, ·). -/
theorem hostRowMax_apply {c : ℕ} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (i : Fin b) :
    Host.reduce (FloatOps.maximumf (F := Ideal) (φ := φ)) x init h' hu (ix2 p i)
      = (Finset.univ : Finset (Fin c)).fold max (init (Shape.Idx.first hu)) (fun j => x (ix3 p i j)) := by
  refine (Host.reduce_eq_fold_single (FloatOps.maximumf (F := Ideal) (φ := φ)) x init h' h hu (ix2 p i)).trans ?_
  have e : (x ∘ h.lift (ix2 p i)) = fun j : Fin c => x (ix3 p i j) := funext fun j => congrArg x (lift_row3 h p i j)
  rw [e]
  rfl

/-! ## The composite -/

/-- The f32 pattern of -∞, which every maximum here starts from. -/
abbrev negInf : EReal := Ideal.ofBits .f32 0xFF800000#32

/-- A row's maximum as the program takes it: the fold of `max` from -∞ over the row, joined with -∞ once more. -/
def rowTop (r : Fin b → EReal) : EReal := max negInf ((Finset.univ : Finset (Fin b)).fold max negInf r)

/-- A row's softmax weight at column j: the exponential of the entry less the row's maximum, over the sum of the
    row's such exponentials (the extended reals' quotient). -/
def rowWeight (r : Fin b → EReal) (j : Fin b) : EReal :=
  Ideal.div (Ideal.exp (r j - rowTop r)) (∑ j' : Fin b, Ideal.exp (r j' - rowTop r))

section Program
variable (s : FVec Ideal ⟨2, ![a, b]⟩ .f32) (hr : (⟨2, ![a, b]⟩ : Shape).Reduces [1] ⟨1, ![a]⟩)
  (hc : (⟨1, ![a]⟩ : Shape).ShapeCasts ⟨2, ![a, 1]⟩) (hb : (⟨2, ![a, 1]⟩ : Shape).Broadcasts ⟨2, ![a, b]⟩)

/-- The vector of row maxima, in the program's operations. -/
def rowTopVec : FVec Ideal ⟨1, ![a]⟩ .f32 :=
  maximumf (broadcast ⟨1, ![a]⟩ (Scalar.ofBits .f32 0xFF800000#32))
    (multiReduction .maximumf [1] ⟨1, ![a]⟩ s 0xFF800000#32 hr (.inl rfl) rfl)

/-- The exponentials of the entries less their row's maximum, in the program's operations. -/
def expRows : FVec Ideal ⟨2, ![a, b]⟩ .f32 :=
  exp (subf s (broadcastTo ⟨2, ![a, b]⟩ (shapeCast ⟨2, ![a, 1]⟩ (rowTopVec s hr) hc) hb))

/-- Softmax along the rows, in the program's operations. -/
def softmaxRows : FVec Ideal ⟨2, ![a, b]⟩ .f32 :=
  divf (expRows s hr hc hb)
    (broadcastTo ⟨2, ![a, b]⟩ (shapeCast ⟨2, ![a, 1]⟩
      (multiReduction .add [1] ⟨1, ![a]⟩ (expRows s hr hc hb) 0x00000000#32 hr (.inl rfl) rfl) hc) hb)

theorem rowTopVec_apply (i : Fin a) : rowTopVec s hr (ix1 i) = rowTop fun j => s (ix2 i j) := by
  unfold rowTopVec rowTop
  exact congrArg (max negInf) (rowMax_apply s 0xFF800000#32 hr (.inl rfl) rfl i)

theorem expRows_apply (i : Fin a) (j : Fin b) :
    expRows s hr hc hb (ix2 i j) = Ideal.exp (s (ix2 i j) - rowTop fun j' => s (ix2 i j')) := by
  unfold expRows
  show Ideal.exp (s (ix2 i j) - broadcastTo ⟨2, ![a, b]⟩ (shapeCast ⟨2, ![a, 1]⟩ (rowTopVec s hr) hc) hb (ix2 i j)) = _
  rw [colBroadcast_apply, colCast_apply, rowTopVec_apply]

/-- Entry (i, j) of the program's softmax is row i's weight at column j. -/
theorem softmaxRows_apply (i : Fin a) (j : Fin b) :
    softmaxRows s hr hc hb (ix2 i j) = rowWeight (fun j' => s (ix2 i j')) j := by
  unfold softmaxRows rowWeight
  rw [divf_apply, colBroadcast_apply, colCast_apply]
  refine congrArg₂ Ideal.div (expRows_apply s hr hc hb i j) ?_
  refine (rowSum_apply (expRows s hr hc hb) 0x00000000#32 hr (.inl rfl) rfl i).trans ?_
  exact Finset.sum_congr rfl fun j' _ => expRows_apply s hr hc hb i j'

end Program

end Cert.Lib.SoftmaxRows

end
-- ==== Proof.LibRowTile.lean ====
/-
  A row tile of a matrix product is the product of the row tile.

  For a plain two-dimensional contraction (left operand [rows, K] contracted on its second axis, right operand
  [K, n] on its first, no batch axes) the result element at (r, c) is the sum over k of lhs (r, k) * rhs (k, c).
  So if a tile [m, K] of a taller left operand [M, K] holds, on its row r, the taller operand's row i, then the
  tile's product at (r, c) and the whole product at (i, c) are the same sum. The two contractions are given by
  their own dimension records, whose contraction index types differ; both sums are re-indexed over Fin K.
-/
import Idealize.ShloMosaic.PureOps.Ideal.Laws
import Idealize.ShloMosaic.Lib.ValueIdx

open scoped BigOperators

namespace Cert.Lib

open Idealize.ShloMosaic Idealize.ShloMosaic.ValueIdx

/-- A coordinate of an index depends on the axis only through the axis's number. -/
theorem idx_val_congr {s : Shape} (j : s.Idx) {p q : Nat} (hp : p < s.rank) (hq : q < s.rank) (h : p = q) :
    (j ⟨p, hp⟩).val = (j ⟨q, hq⟩).val := by subst h; rfl

section Axes

variable {sl sr so : Shape} (d : DotDims sl sr so)

/-- With no batch axes and one free axis a on the left, the left operand's index on a is the result index's
    first coordinate. -/
theorem lhsIdx_val_of_free {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; simp
  have hmem : a ∈ d.lhsNonContracting := by rw [hn]; simp
  unfold DotDims.lhsIdx
  rw [dif_neg hnb, dif_pos hmem]
  simp only [Fin.val_cast]
  exact idx_val_congr j _ _ (by simp [hb, hn])

/-- With no batch axes, one free axis on the left and one free axis a on the right, the right operand's index on
    a is the result index's second coordinate. -/
theorem rhsIdx_val_of_free {a : Fin sr.rank} {al : Fin sl.rank} (hlb : d.lhsBatch = []) (hln : d.lhsNonContracting = [al])
    (hb : d.rhsBatch = []) (hn : d.rhsNonContracting = [a])
    (j : so.Idx) (k : d.contr.Idx) (h1 : 1 < so.rank) : (d.rhsIdx j k a).val = (j ⟨1, h1⟩).val := by
  have hnb : a ∉ d.rhsBatch := by rw [hb]; simp
  have hmem : a ∈ d.rhsNonContracting := by rw [hn]; simp
  unfold DotDims.rhsIdx
  rw [dif_neg hnb, dif_pos hmem]
  simp only [Fin.val_cast]
  exact idx_val_congr j _ _ (by simp [hlb, hln, hn])

end Axes

/-- The dimension numbers of a plain product [rows, K] · [K, n]: contract the left operand's second axis with the
    right operand's first; the free axes are the left's first and the right's second; no batch axes. -/
structure IsPlain {a K n : Nat} (d : DotDims ⟨2, ![a, K]⟩ ⟨2, ![K, n]⟩ ⟨2, ![a, n]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []
  rank : d.contr.rank = 1
  size : d.contr.size ⟨0, by omega⟩ = K

section Plain

variable {a K n : Nat} {d : DotDims ⟨2, ![a, K]⟩ ⟨2, ![K, n]⟩ ⟨2, ![a, n]⟩}

/-- The left operand is read at (row of the result, k). -/
theorem IsPlain.lhsIdx_eq (h : IsPlain d) (j : (⟨2, ![a, n]⟩ : Shape).Idx) (k : Fin K) :
    d.lhsIdx j ((contrEquiv1 d K h.rank h.size).symm k) = ix2 (j 0) k := by
  funext ax; apply Fin.ext
  match ax with
  | ⟨0, _⟩ => exact lhsIdx_val_of_free d (a := (0 : Fin 2)) h.lb h.ln j _ Nat.zero_lt_two
  | ⟨1, _⟩ =>
    exact (d.lhsIdx_val_of_single (cl := (1 : Fin 2)) h.lc j _).trans (contrEquiv1_symm_val d K h.rank h.size k)

/-- The right operand is read at (k, column of the result). -/
theorem IsPlain.rhsIdx_eq (h : IsPlain d) (j : (⟨2, ![a, n]⟩ : Shape).Idx) (k : Fin K) :
    d.rhsIdx j ((contrEquiv1 d K h.rank h.size).symm k) = ix2 k (j 1) := by
  funext ax; apply Fin.ext
  match ax with
  | ⟨0, _⟩ =>
    exact (d.rhsIdx_val_of_single (cr := (0 : Fin 2)) h.rc j _).trans (contrEquiv1_symm_val d K h.rank h.size k)
  | ⟨1, _⟩ => exact rhsIdx_val_of_free d (a := (1 : Fin 2)) (al := (0 : Fin 2)) h.lb h.ln h.rb h.rn j _ Nat.one_lt_two

/-- A plain product's contraction sum, over the contracted coordinate itself. -/
theorem IsPlain.sum_eq (h : IsPlain d) (l : (⟨2, ![a, K]⟩ : Shape).Idx → EReal) (r : (⟨2, ![K, n]⟩ : Shape).Idx → EReal)
    (j : (⟨2, ![a, n]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K h.rank h.size).symm]
  exact Finset.sum_congr rfl fun k _ => congrArg₂ (· * ·) (congrArg l (h.lhsIdx_eq j k)) (congrArg r (h.rhsIdx_eq j k))

end Plain

/-- A ROW TILE OF A PRODUCT IS THE PRODUCT OF THE ROW TILE: if row (y 0) of the tile lt is row (i 0) of the whole
    left operand l, and y, i name the same column, the two contraction sums are equal. -/
theorem sum_rowTile {m M K n : Nat}
    {dT : DotDims ⟨2, ![m, K]⟩ ⟨2, ![K, n]⟩ ⟨2, ![m, n]⟩} {dW : DotDims ⟨2, ![M, K]⟩ ⟨2, ![K, n]⟩ ⟨2, ![M, n]⟩}
    (hT : IsPlain dT) (hW : IsPlain dW)
    (lt : (⟨2, ![m, K]⟩ : Shape).Idx → EReal) (l : (⟨2, ![M, K]⟩ : Shape).Idx → EReal) (r : (⟨2, ![K, n]⟩ : Shape).Idx → EReal)
    (y : (⟨2, ![m, n]⟩ : Shape).Idx) (i : (⟨2, ![M, n]⟩ : Shape).Idx)
    (hrow : ∀ k : Fin K, lt (ix2 (y 0) k) = l (ix2 (i 0) k)) (hcol : y 1 = i 1) :
    ∑ k : dT.contr.Idx, lt (dT.lhsIdx y k) * r (dT.rhsIdx y k) = ∑ k : dW.contr.Idx, l (dW.lhsIdx i k) * r (dW.rhsIdx i k) := by
  rw [hT.sum_eq lt r y, hW.sum_eq l r i]
  exact Finset.sum_congr rfl fun k _ => by rw [hrow k, hcol]

end Cert.Lib
-- ==== Proof.LibLayoutColumn.lean ====
/-
  Layout operations on a column, read at an index: the forms a "sum the rows, keep the axis" computation meets.

  A vector of length `a` viewed as an `[a, 1]` column, a column broadcast across `b` lanes, a column placed under a
  leading unit axis, an array with two leading unit axes flattened, and the all-unit shapes a reduction to one element
  passes through.  Each reads the operand at the index with the same row-major position (a cast) or at the index with
  the unit axes at zero (a broadcast).  Last, a sum over the indices of a `[1, a, 1]` array is the sum over its one
  free coordinate.  Every statement holds at any extents.
-/
import Idealize.ShloMosaic.Lib.ValueIdx
import Idealize.ShloMosaic.Lib.Pipeline.Value

noncomputable section

open scoped BigOperators

namespace Idealize.ShloMosaic.ValueIdx

open Idealize.ShloMosaic

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to an `[a, 1]` column reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[1, a, 1]` reads, at `(u, p, w)`, the operand at `(p, 0)`. -/
theorem shapeCast_a1_1a1_apply {a : ℕ} (x : (⟨2, ![a, 1]⟩ : Shape).Idx → α)
    (h : (⟨2, ![a, 1]⟩ : Shape).ShapeCasts ⟨3, ![1, a, 1]⟩) (u : Fin 1) (p : Fin a) (w : Fin 1) :
    shapeCast ⟨3, ![1, a, 1]⟩ x h (ix3 u p w) = x (ix2 p (0 : Fin 1)) :=
  shapeCast_apply x h _ _ (by
    have hu : u.val = 0 := by omega
    have hw : w.val = 0 := by omega
    rw [Shape.rowMajor_val_three, Shape.rowMajor_val_two]
    show p.val * 1 + 0 = (u.val * a + p.val) * 1 + w.val
    rw [hu, hw, Nat.zero_mul, Nat.zero_add])

/-- A one-element array cast to `[1, 1, 1]` reads its one element. -/
theorem shapeCast_1_111_apply (x : (⟨1, ![1]⟩ : Shape).Idx → α)
    (h : (⟨1, ![1]⟩ : Shape).ShapeCasts ⟨3, ![1, 1, 1]⟩) (u v w : Fin 1) :
    shapeCast ⟨3, ![1, 1, 1]⟩ x h (ix3 u v w) = x (ix1 (0 : Fin 1)) :=
  shapeCast_apply x h _ _ (by
    have hu : u.val = 0 := by omega
    have hv : v.val = 0 := by omega
    have hw : w.val = 0 := by omega
    rw [Shape.rowMajor_val_three, Shape.rowMajor_val_one]
    show 0 = (u.val * 1 + v.val) * 1 + w.val
    rw [hu, hv, hw])

/-- A `[1, 1]` array cast to `[1, 1, 1]` reads its one element. -/
theorem shapeCast_11_111_apply (x : (⟨2, ![1, 1]⟩ : Shape).Idx → α)
    (h : (⟨2, ![1, 1]⟩ : Shape).ShapeCasts ⟨3, ![1, 1, 1]⟩) (u v w : Fin 1) :
    shapeCast ⟨3, ![1, 1, 1]⟩ x h (ix3 u v w) = x (ix2 (0 : Fin 1) (0 : Fin 1)) :=
  shapeCast_apply x h _ _ (by
    have hu : u.val = 0 := by omega
    have hv : v.val = 0 := by omega
    have hw : w.val = 0 := by omega
    rw [Shape.rowMajor_val_three, Shape.rowMajor_val_two]
    show 0 * 1 + 0 = (u.val * 1 + v.val) * 1 + w.val
    rw [hu, hv, hw])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1]` array broadcast to `[1, 1, b]` reads its one element in every lane. -/
theorem broadcastTo_111_11b_apply {b : ℕ} (v : (⟨3, ![1, 1, 1]⟩ : Shape).Idx → α)
    (h : (⟨3, ![1, 1, 1]⟩ : Shape).Broadcasts ⟨3, ![1, 1, b]⟩) (u w : Fin 1) (l : Fin b) :
    broadcastTo ⟨3, ![1, 1, b]⟩ v h (ix3 u w l) = v (ix3 (0 : Fin 1) (0 : Fin 1) (0 : Fin 1)) := by
  refine broadcastTo_apply v h (ix3 u w l) (ix3 (0 : Fin 1) (0 : Fin 1) (0 : Fin 1)) fun ax => ?_
  match ax with
  | ⟨0, _⟩ => rfl
  | ⟨1, _⟩ => rfl
  | ⟨2, _⟩ => rfl

/-- The indices of a `[1, a, 1]` array are its one free coordinate … -/
def idxEquiv1a1 {a : ℕ} : (⟨3, ![1, a, 1]⟩ : Shape).Idx ≃ Fin a where
  toFun i := i 1
  invFun p := ix3 (0 : Fin 1) p (0 : Fin 1)
  left_inv i := by
    funext ax
    match ax with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over them is the sum over that coordinate. -/
theorem sum_idx_1a1 {M : Type*} [AddCommMonoid M] {a : ℕ} (f : (⟨3, ![1, a, 1]⟩ : Shape).Idx → M) :
    ∑ i, f i = ∑ p : Fin a, f (ix3 (0 : Fin 1) p (0 : Fin 1)) := by
  rw [← Equiv.sum_comp (idxEquiv1a1 (a := a)).symm f]
  rfl

end Idealize.ShloMosaic.ValueIdx

end
-- ==== Proof.LibTrailingAxis.lean ====
/-
  Layout operations around a trailing axis, read at an index: the forms an "unpack each word into its fields" computation
  meets.

  A matrix `[a, b]` is given a trailing unit axis and broadcast along it to `[a, b, c]` (every field of a word sees the
  word); a vector `[c]` is placed under two leading unit axes and broadcast to `[a, b, c]` (every word sees the same
  per-field vector); an `[a, 1]` column is flattened to a vector; and an `[a, 8, 8]` array is flattened to `[a, 64]`, column
  `k` being field `k % 8` of group `k / 8`.  A cast reads the operand at the index with the same row-major position, a
  broadcast at the index with the unit axes at zero.  Every statement but the last holds at any extents.
-/
import Idealize.ShloMosaic.Lib.ValueIdx
import Idealize.ShloMosaic.Lib.Pipeline.Value

noncomputable section

namespace Idealize.ShloMosaic.ValueIdx

open Idealize.ShloMosaic

variable {α : Type}

/-- An `[a, 1]` column cast to `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b]` matrix cast to `[a, b, 1]` reads, at `(p, g, u)`, the matrix at `(p, g)`. -/
theorem shapeCast_ab_ab1_apply {a b : ℕ} (x : (⟨2, ![a, b]⟩ : Shape).Idx → α)
    (h : (⟨2, ![a, b]⟩ : Shape).ShapeCasts ⟨3, ![a, b, 1]⟩) (p : Fin a) (g : Fin b) (u : Fin 1) :
    shapeCast ⟨3, ![a, b, 1]⟩ x h (ix3 p g u) = x (ix2 p g) :=
  shapeCast_apply x h _ _ (by
    have hu : u.val = 0 := by omega
    rw [Shape.rowMajor_val_three, Shape.rowMajor_val_two]
    show p.val * b + g.val = (p.val * b + g.val) * 1 + u.val
    rw [hu, Nat.mul_one, Nat.add_zero])

/-- An `[a, b, 1]` array broadcast to `[a, b, c]` reads, at `(p, g, v)`, the operand at `(p, g, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (g : Fin b) (v : Fin c) :
    broadcastTo ⟨3, ![a, b, c]⟩ x h (ix3 p g v) = x (ix3 p g (0 : Fin 1)) := by
  refine broadcastTo_apply x h (ix3 p g v) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ => rfl

/-- A `[c]` vector cast to `[1, 1, c]` reads, at `(u, w, v)`, the vector at `v`. -/
theorem shapeCast_c_11c_apply {c : ℕ} (x : (⟨1, ![c]⟩ : Shape).Idx → α)
    (h : (⟨1, ![c]⟩ : Shape).ShapeCasts ⟨3, ![1, 1, c]⟩) (u w : Fin 1) (v : Fin c) :
    shapeCast ⟨3, ![1, 1, c]⟩ x h (ix3 u w v) = x (ix1 v) :=
  shapeCast_apply x h _ _ (by
    have hu : u.val = 0 := by omega
    have hw : w.val = 0 := by omega
    rw [Shape.rowMajor_val_three, Shape.rowMajor_val_one]
    show v.val = (u.val * 1 + w.val) * c + v.val
    rw [hu, hw]
    simp only [Nat.zero_mul, Nat.zero_add])

/-- A `[1, 1, c]` array broadcast to `[a, b, c]` reads, at `(p, g, v)`, the operand at `(0, 0, v)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (g : Fin b) (v : Fin c) :
    broadcastTo ⟨3, ![a, b, c]⟩ x h (ix3 p g v) = x (ix3 (0 : Fin 1) (0 : Fin 1) v) := by
  refine broadcastTo_apply x h (ix3 p g v) (ix3 (0 : Fin 1) (0 : Fin 1) v) fun ax => ?_
  match ax with
  | ⟨0, _⟩ => rfl
  | ⟨1, _⟩ => rfl
  | ⟨2, _⟩ =>
    show v.val = if c = 1 then 0 else v.val
    split
    · have := v.isLt; omega
    · rfl

/-- An `[a, 8, 8]` array flattened to `[a, 64]` reads, at `(p, k)`, the operand at group `k / 8`, field `k % 8` of row `p`. -/
theorem shapeCast_a88_a64_apply {a : ℕ} (x : (⟨3, ![a, 8, 8]⟩ : Shape).Idx → α)
    (h : (⟨3, ![a, 8, 8]⟩ : Shape).ShapeCasts ⟨2, ![a, 64]⟩) (p : Fin a) (k : Fin 64) :
    shapeCast ⟨2, ![a, 64]⟩ x h (ix2 p k)
      = x (ix3 p (⟨k.val / 8, by have := k.isLt; omega⟩ : Fin 8) (⟨k.val % 8, by omega⟩ : Fin 8)) :=
  shapeCast_apply x h _ _ (by
    have hk := k.isLt
    rw [Shape.rowMajor_val_three, Shape.rowMajor_val_two]
    show (p.val * 8 + k.val / 8) * 8 + k.val % 8 = p.val * 64 + k.val
    omega)

end Idealize.ShloMosaic.ValueIdx

end
-- ==== Proof.KPayloadDist.lean ====
/-
  The tile's distance block and the reductions over it, read entry by entry over the extended reals.
  For a tile's sample block x0 [512, 512], the transposed prototypes x1 [512, 2048] and the prototypes' squared norms
  x2 [1, 2048]:  D (r, m) = sqrt (max ((sum_k x0 (r,k)^2 + x2 (0,m)) - 2 * sum_k x0 (r,k) * x1 (k,m)) 0).
-/
import proofs.«418528_j74517682585681_2_alg».proof.Proof.Gen.KernelIdeal.Skeleton
import proofs.«418528_j74517682585681_2_alg».proof.Proof.Spec
import Idealize.ShloMosaic.PureOps.Ideal.Laws
import Idealize.ShloMosaic.Lib.ValueIdx
import Idealize.ShloMosaic.Lib.ValueLayout
import Idealize.ShloMosaic.Lib.Pipeline.Value
import proofs.«418528_j74517682585681_2_alg».proof.Proof.LibSoftmaxRows
import proofs.«418528_j74517682585681_2_alg».proof.Proof.LibRowTile
import proofs.«418528_j74517682585681_2_alg».proof.Proof.LibLayoutColumn
import proofs.«418528_j74517682585681_2_alg».proof.Proof.LibTrailingAxis

noncomputable section

open scoped BigOperators

namespace Cert.KernelIdeal.Payload

open Idealize.ShloMosaic Idealize.ShloMosaic.ValueIdx
open Cert.KernelIdeal Cert.KernelIdeal.Gen

namespace Dist

/-! ## Reductions by the minimum, and a reduction over the first axis -/

section Aux

variable {a b : ℕ} {φ : FTy}

/-- A minimum-reduction over one axis is, at each reduced index, the fold of `min` from the accumulator's value over
    that axis's coordinates. -/
theorem multiReduction_minimumf_single {s t : Shape} {ax : Fin s.rank} (src : FVec Ideal s φ) (acc : BitVec φ.bits)
    (h : s.Reduces [ax] t) (hφ : FKind.Formats φ) (hacc : acc = FKind.minimumf.neutral φ hφ) (j : t.Idx) :
    multiReduction .minimumf [ax] t src acc h hφ hacc j
      = (Finset.univ : Finset (Fin (s.size ax))).fold min (Ideal.ofBits φ acc) (src ∘ h.lift j) := by
  rw [multiReduction_minimumf_eq_fold]; exact h.fold_filter_drop_single _ _ src j

/-- Column j's index with the row coordinate i put back is (i, j). -/
theorem lift_col (h : (⟨2, ![a, b]⟩ : Shape).Reduces [0] ⟨1, ![b]⟩) (j : Fin b) (i : Fin a) :
    h.lift (ix1 j) i = ix2 i j :=
  funext fun c => Fin.ext (by match c with | ⟨0, _⟩ => rfl | ⟨1, _⟩ => rfl)

/-- A minimum-reduction over the second axis is, at row i, the fold of `min` over the row's entries. -/
theorem rowMin_apply (s : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (i : Fin a) :
    multiReduction .minimumf [1] ⟨1, ![a]⟩ s acc h hφ hacc (ix1 i)
      = (Finset.univ : Finset (Fin b)).fold min (Ideal.ofBits φ acc) (fun j => s (ix2 i j)) := by
  rw [multiReduction_minimumf_single]
  have e : (s ∘ h.lift (ix1 i)) = fun j : Fin b => s (ix2 i j) :=
    funext fun j => congrArg s (Cert.Lib.SoftmaxRows.lift_row h i j)
  rw [e]
  rfl

/-- A minimum-reduction over the first axis is, at column j, the fold of `min` over the column's entries. -/
theorem colMin_apply (s : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (j : Fin b) :
    multiReduction .minimumf [0] ⟨1, ![b]⟩ s acc h hφ hacc (ix1 j)
      = (Finset.univ : Finset (Fin a)).fold min (Ideal.ofBits φ acc) (fun i => s (ix2 i j)) := by
  rw [multiReduction_minimumf_single]
  have e : (s ∘ h.lift (ix1 j)) = fun i : Fin a => s (ix2 i j) := funext fun i => congrArg s (lift_col h j i)
  rw [e]
  rfl

/-- A sum-reduction over the first axis is, at column j, the sum of the column's entries. -/
theorem colSum_apply (s : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ s acc h hφ hacc (ix1 j) = ∑ i : Fin a, s (ix2 i j) := by
  rw [Ideal.multiReduction_add_single]
  exact Finset.sum_congr rfl fun i _ => congrArg s (lift_col h j i)

end Aux

/-- The tile's product is a plain one: rows by the contracted axis, times the contracted axis by columns. -/
theorem dot_isPlain : Cert.Lib.IsPlain dot_S512x512_S512x2048_S512x2048_1_0_0_1_n_n where
  lc := rfl
  rc := rfl
  ln := rfl
  rn := rfl
  lb := rfl
  rb := rfl
  rank := rfl
  size := rfl

/-! ## The pieces of the distance block -/

/-- The column of the rows' squared norms, broadcast across the lanes, at (r, m). -/
theorem sqCol_apply (x0 : FVec Ideal S512x512 .f32) (r : Fin 512) (m : Fin 2048) :
    broadcastTo S512x2048
        (shapeCast S512x1 (multiReduction .add [1] S512 (mulf x0 x0) 0x00000000#32 reduces_S512x512_S512 (.inl rfl) rfl)
          shapeCasts_S512_S512x1) broadcasts_S512x1_S512x2048 (ix2 r m)
      = ∑ k : Fin 512, x0 (ix2 r k) * x0 (ix2 r k) := by
  refine (Cert.Lib.SoftmaxRows.colBroadcast_apply _ _ r m).trans ?_
  refine (Cert.Lib.SoftmaxRows.colCast_apply _ _ r (0 : Fin 1)).trans ?_
  exact Cert.Lib.SoftmaxRows.rowSum_apply (mulf x0 x0) 0x00000000#32 reduces_S512x512_S512 (.inl rfl) rfl r

/-- The row of the prototypes' squared norms, broadcast down the rows, at (r, m). -/
theorem normRow_apply (x2 : FVec Ideal S1x2048 .f32) (r : Fin 512) (m : Fin 2048) :
    broadcastTo S512x2048 (shapeCast S1x2048 x2 shapeCasts_S1x2048_S1x2048) broadcasts_S1x2048_S512x2048 (ix2 r m)
      = x2 (ix2 (0 : Fin 1) m) := by
  rw [shapeCast_self]
  exact broadcastTo_1b_ab_apply x2 _ r m

/-- The product of the tile with the transposed prototypes, into a zero accumulator, at (r, m). -/
theorem prod_apply (x0 : FVec Ideal S512x512 .f32) (x1 : FVec Ideal S512x2048 .bf16) (r : Fin 512) (m : Fin 2048) :
    matmul dot_S512x512_S512x2048_S512x2048_1_0_0_1_n_n none (truncf .bf16 x0 bitsLt_bf16_f32)
        (shapeCast S512x2048 x1 shapeCasts_S512x2048_S512x2048) (constant (F := Ideal) S512x2048 .f32 0x00000000#32) (ix2 r m)
      = ∑ k : Fin 512, x0 (ix2 r k) * x1 (ix2 k m) := by
  rw [shapeCast_self]
  refine (Ideal.matmul_constant_zero_apply _ none _ _ (ix2 r m)).trans ?_
  exact dot_isPlain.sum_eq (truncf .bf16 x0 bitsLt_bf16_f32) x1 (ix2 r m)

/-- The pointwise tail of the block: sqrt (max ((A + B) - 2 C) 0) entry by entry. -/
theorem distTail_apply {s : Shape} (A B C : FVec Ideal s .f32) (i : s.Idx) :
    sqrt (maximumf (subf (addf A B) (mulf (broadcast s (Scalar.ofBits (F := Ideal) .f32 0x40000000#32)) C))
        (broadcast s (Scalar.ofBits (F := Ideal) .f32 0x00000000#32))) i
      = Ideal.sqrt (max ((A i + B i) - Cert.Spec.two * C i) Cert.Spec.zero) := rfl

end Dist

/-- The neutral values a half's first tile stores. -/
theorem pay1_apply : k0_pay1 (F := Ideal) (ix3 (0 : Fin 1) (0 : Fin 1) (0 : Fin 1)) = Cert.Spec.zero := by
  unfold k0_pay1
  rfl
theorem pay2_apply : k0_pay2 (F := Ideal) (ix3 (0 : Fin 1) (0 : Fin 1) (0 : Fin 1)) = Cert.Spec.zero := by
  unfold k0_pay2
  rfl
theorem pay3_apply (m : Fin 2048) : k0_pay3 (F := Ideal) (ix3 (0 : Fin 1) (0 : Fin 1) m) = Cert.Spec.posInf := by
  unfold k0_pay3
  rfl

/-- The distance block at (r, m). -/
theorem pay4_apply (x0 : FVec Ideal S512x512 .f32) (x1 : FVec Ideal S512x2048 .bf16) (x2 : FVec Ideal S1x2048 .f32)
    (r : Fin 512) (m : Fin 2048) :
    k0_pay4 (F := Ideal) x0 x1 x2 (ix2 r m)
      = Ideal.sqrt (max (((∑ k : Fin 512, x0 (ix2 r k) * x0 (ix2 r k)) + x2 (ix2 (0 : Fin 1) m))
          - Cert.Spec.two * ∑ k : Fin 512, x0 (ix2 r k) * x1 (ix2 k m)) Cert.Spec.zero) := by
  unfold k0_pay4
  refine (Dist.distTail_apply _ _ _ (ix2 r m)).trans ?_
  rw [Dist.sqCol_apply x0 r m, Dist.normRow_apply x2 r m, Dist.prod_apply x0 x1 r m]

/-- The running column minimum at lane m: the value read against the block's minimum over its rows. -/
theorem pay5_apply (x0 : FVec Ideal S512x512 .f32) (x1 : FVec Ideal S512x2048 .bf16) (x2 : FVec Ideal S1x2048 .f32)
    (v24 : FVec Ideal S1x1x2048 .f32) (m : Fin 2048) :
    k0_pay5 (F := Ideal) x0 x1 x2 v24 (ix3 (0 : Fin 1) (0 : Fin 1) m)
      = min (v24 (ix3 (0 : Fin 1) (0 : Fin 1) m))
          ((Finset.univ : Finset (Fin 512)).fold min Cert.Spec.posInf (fun r => k0_pay4 (F := Ideal) x0 x1 x2 (ix2 r m))) := by
  unfold k0_pay5
  rw [shapeCast_self]
  refine congrArg (min (v24 (ix3 (0 : Fin 1) (0 : Fin 1) m))) ?_
  refine (shapeCast_ab_1ab_apply _ _ (0 : Fin 1) (0 : Fin 1) m).trans ?_
  refine (shapeCast_a_1a_apply _ _ (0 : Fin 1) m).trans ?_
  exact Dist.colMin_apply (k0_pay4 (F := Ideal) x0 x1 x2) 0x7F800000#32 reduces_S512x2048_S2048 (.inl rfl) rfl m

/-- Row r's minimum over the prototypes. -/
theorem pay6_apply (x0 : FVec Ideal S512x512 .f32) (x1 : FVec Ideal S512x2048 .bf16) (x2 : FVec Ideal S1x2048 .f32)
    (r : Fin 512) :
    k0_pay6 (F := Ideal) x0 x1 x2 (ix2 r (0 : Fin 1))
      = (Finset.univ : Finset (Fin 2048)).fold min Cert.Spec.posInf (fun m => k0_pay4 (F := Ideal) x0 x1 x2 (ix2 r m)) := by
  unfold k0_pay6
  refine (Cert.Lib.SoftmaxRows.colCast_apply _ _ r (0 : Fin 1)).trans ?_
  exact Dist.rowMin_apply (k0_pay4 (F := Ideal) x0 x1 x2) 0x7F800000#32 reduces_S512x2048_S512 (.inl rfl) rfl r

/-- A cast to the same shape is the identity. -/
theorem pay7_eq (v31 : FVec Ideal S1x1x1 .f32) : k0_pay7 (F := Ideal) v31 = v31 := by
  unfold k0_pay7
  exact shapeCast_self v31 _

/-- The running sum of row minima: the value read plus the sum of the column of row minima. -/
theorem pay8_apply (v30 : FVec Ideal S512x1 .f32) (v32 : FVec Ideal S1x1x1 .f32) :
    k0_pay8 (F := Ideal) v30 v32 (ix3 (0 : Fin 1) (0 : Fin 1) (0 : Fin 1))
      = v32 (ix3 (0 : Fin 1) (0 : Fin 1) (0 : Fin 1)) + ∑ r : Fin 512, v30 (ix2 r (0 : Fin 1)) := by
  unfold k0_pay8
  refine congrArg (v32 (ix3 (0 : Fin 1) (0 : Fin 1) (0 : Fin 1)) + ·) ?_
  refine (shapeCast_11_111_apply _ _ (0 : Fin 1) (0 : Fin 1) (0 : Fin 1)).trans ?_
  refine (shapeCast_a_1a_apply _ _ (0 : Fin 1) (0 : Fin 1)).trans ?_
  exact Dist.colSum_apply v30 0x00000000#32 reduces_S512x1_S1 (.inl rfl) rfl (0 : Fin 1)

end Cert.KernelIdeal.Payload

end
-- ==== Proof.KPayloadClass.lean ====
/-
  The tile's class term, read over the extended reals: for a distance block v21 [512, 2048], the transposed weights
  v39 [2048, 1000] and the tile's labels v52 [512, 1], row r's logits are  l_r c = sum_m v21 (r,m) * v39 (m,c),  its
  log-softmax is taken along c, the label's entry is picked by a one-hot sum, and the running class sum becomes
  the value read + (0 - sum_r picked_r).
-/
import proofs.«418528_j74517682585681_2_alg».proof.Proof.Gen.KernelIdeal.Skeleton
import proofs.«418528_j74517682585681_2_alg».proof.Proof.Spec
import proofs.«418528_j74517682585681_2_alg».proof.Proof.LibSoftmaxRows
import proofs.«418528_j74517682585681_2_alg».proof.Proof.LibRowTile
import proofs.«418528_j74517682585681_2_alg».proof.Proof.LibLayoutColumn
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

open scoped BigOperators

namespace Cert.KernelIdeal.Payload

open Idealize.ShloMosaic Idealize.ShloMosaic.ValueIdx
open Cert.KernelIdeal Cert.KernelIdeal.Gen

/-! ## The logits -/

/-- The logits' product contracts the distance block's second axis with the weights' first: a plain product. -/
theorem isPlain_logits : Cert.Lib.IsPlain dot_S512x2048_S2048x1000_S512x1000_1_0_0_1_n_n where
  lc := rfl
  rc := rfl
  ln := rfl
  rn := rfl
  lb := rfl
  rb := rfl
  rank := rfl
  size := rfl

/-- Entry (r, c) of the logits: the sum over the prototypes of distance times weight. -/
theorem logits_apply (v21 : FVec Ideal S512x2048 .f32) (v39 : FVec Ideal S2048x1000 .bf16) (r : Fin 512) (c : Fin 1000) :
    matmul (F := Ideal) dot_S512x2048_S2048x1000_S512x1000_1_0_0_1_n_n none
        (truncf .bf16 v21 bitsLt_bf16_f32) (shapeCast S2048x1000 v39 shapeCasts_S2048x1000_S2048x1000)
        (constant S512x1000 .f32 0x00000000#32) (ix2 r c)
      = ∑ m : Fin 2048, v21 (ix2 r m) * v39 (ix2 m c) := by
  rw [shapeCast_self]
  refine (Ideal.matmul_constant_zero_apply dot_S512x2048_S2048x1000_S512x1000_1_0_0_1_n_n none
    (truncf .bf16 v21 bitsLt_bf16_f32) v39 (ix2 r c)).trans ?_
  exact isPlain_logits.sum_eq (truncf .bf16 v21 bitsLt_bf16_f32) v39 (ix2 r c)

/-! ## The row log-softmax -/

section Rows
variable (L : FVec Ideal S512x1000 .f32)

/-- The row maxima, cast to a column and broadcast across the rows, read at (r, c) row r's maximum. -/
theorem rowTop_apply (r : Fin 512) (c : Fin 1000) :
    broadcastTo S512x1000 (shapeCast S512x1
        (multiReduction .maximumf [1] S512 L 0xFF800000#32 reduces_S512x1000_S512 (.inl rfl) rfl)
        shapeCasts_S512_S512x1) broadcasts_S512x1_S512x1000 (ix2 r c)
      = Cert.Spec.rowTop fun c' => L (ix2 r c') := by
  rw [Cert.Lib.SoftmaxRows.colBroadcast_apply, Cert.Lib.SoftmaxRows.colCast_apply]
  exact Cert.Lib.SoftmaxRows.rowMax_apply L 0xFF800000#32 reduces_S512x1000_S512 (.inl rfl) rfl r

/-- The entries less their row's maximum, in the program's operations. -/
def shiftRows : FVec Ideal S512x1000 .f32 :=
  subf L (broadcastTo S512x1000 (shapeCast S512x1
    (multiReduction .maximumf [1] S512 L 0xFF800000#32 reduces_S512x1000_S512 (.inl rfl) rfl)
    shapeCasts_S512_S512x1) broadcasts_S512x1_S512x1000)

theorem shiftRows_apply (r : Fin 512) (c : Fin 1000) :
    shiftRows L (ix2 r c) = L (ix2 r c) - Cert.Spec.rowTop fun c' => L (ix2 r c') := by
  unfold shiftRows
  rw [subf_apply, rowTop_apply]

/-- The row log-softmax, in the program's operations. -/
def logpRows : FVec Ideal S512x1000 .f32 :=
  subf (shiftRows L) (broadcastTo S512x1000 (log (shapeCast S512x1
    (multiReduction .add [1] S512 (exp (shiftRows L)) 0x00000000#32 reduces_S512x1000_S512 (.inl rfl) rfl)
    shapeCasts_S512_S512x1)) broadcasts_S512x1_S512x1000)

/-- Entry (r, c) of the program's log-softmax is row r's log-probability of class c. -/
theorem logpRows_apply (r : Fin 512) (c : Fin 1000) :
    logpRows L (ix2 r c) = Cert.Spec.rowLogp (fun c' => L (ix2 r c')) c := by
  unfold logpRows Cert.Spec.rowLogp
  rw [subf_apply, shiftRows_apply, Cert.Lib.SoftmaxRows.colBroadcast_apply]
  show _ - Ideal.log (shapeCast S512x1 _ shapeCasts_S512_S512x1 (ix2 r (0 : Fin 1))) = _
  rw [Cert.Lib.SoftmaxRows.colCast_apply]
  refine congrArg (fun t => (L (ix2 r c) - Cert.Spec.rowTop fun c' => L (ix2 r c')) - Ideal.log t) ?_
  refine (Cert.Lib.SoftmaxRows.rowSum_apply (exp (shiftRows L)) 0x00000000#32 reduces_S512x1000_S512
    (.inl rfl) rfl r).trans ?_
  exact Finset.sum_congr rfl fun c' _ => by
    show Ideal.exp (shiftRows L (ix2 r c')) = _
    rw [shiftRows_apply]

end Rows

/-! ## The one-hot pick -/

/-- The entries of P kept where the column's number is the row's label, zero elsewhere, in the program's operations. -/
def pickRows (P : FVec Ideal S512x1000 .f32) (v52 : IVec S512x1 32) : FVec Ideal S512x1000 .f32 :=
  select (cmpi .eq (iota .tc S512x1000 32 [1] iota_S512x1000_d1_w32)
      (broadcastTo S512x1000 (shapeCast S512x1 v52 shapeCasts_S512x1_S512x1) broadcasts_S512x1_S512x1000))
    P (broadcast S512x1000 (Scalar.ofBits .f32 0x00000000#32))

theorem pickRows_apply (P : FVec Ideal S512x1000 .f32) (v52 : IVec S512x1 32) (r : Fin 512) (c : Fin 1000) :
    pickRows P v52 (ix2 r c)
      = if BitVec.ofNat 32 c.val = v52 (ix2 r (0 : Fin 1)) then P (ix2 r c) else Cert.Spec.zero := by
  unfold pickRows
  rw [select_apply, shapeCast_self]
  show Scalar.select (IntOp.cmpi .eq (iota .tc S512x1000 32 [1] iota_S512x1000_d1_w32 (ix2 r c))
    (broadcastTo S512x1000 v52 broadcasts_S512x1_S512x1000 (ix2 r c))) (P (ix2 r c)) Cert.Spec.zero = _
  rw [iota_single_apply, Cert.Lib.SoftmaxRows.colBroadcast_apply]
  show Scalar.select (IntOp.cmpi .eq (BitVec.ofNat 32 c.val) (v52 (ix2 r (0 : Fin 1)))) _ _ = _
  by_cases h : BitVec.ofNat 32 c.val = v52 (ix2 r (0 : Fin 1))
  · rw [if_pos h, StableHlo.Predicate.cmpi_eq_iff.mpr h, select_one]
  · rw [if_neg h, eq_zero_of_ne_one (mt StableHlo.Predicate.cmpi_eq_iff.mp h), select_zero]

/-! ## The two sums and the unit-axis casts -/

/-- A column's index with the row coordinate k put back is (k, u). -/
theorem lift_col {a : ℕ} (h : (⟨2, ![a, 1]⟩ : Shape).Reduces [0] ⟨1, ![1]⟩) (u : Fin 1) (k : Fin a) :
    h.lift (ix1 u) k = ix2 k u :=
  funext fun c => Fin.ext (by match c with | ⟨0, _⟩ => rfl | ⟨1, _⟩ => rfl)

/-- A column summed over its rows is the sum of its entries. -/
theorem colSum_apply (X : FVec Ideal S512x1 .f32) :
    multiReduction .add [0] S1 X 0x00000000#32 reduces_S512x1_S1 (.inl rfl) rfl (ix1 (0 : Fin 1))
      = ∑ r : Fin 512, X (ix2 r (0 : Fin 1)) := by
  refine (Ideal.multiReduction_add_single X 0x00000000#32 reduces_S512x1_S1 (.inl rfl) rfl (ix1 (0 : Fin 1))).trans ?_
  exact Finset.sum_congr rfl fun r _ => congrArg X (lift_col reduces_S512x1_S1 (0 : Fin 1) r)

/-- The rows of Q summed, the column of sums summed over the rows, taken from zero and added to the value read. -/
theorem accumulate_apply (Q : FVec Ideal S512x1000 .f32) (v61 : FVec Ideal S1x1x1 .f32) :
    addf (shapeCast S1x1x1 v61 shapeCasts_S1x1x1_S1x1x1)
        (shapeCast S1x1x1 (subf (broadcast S1x1 (Scalar.ofBits .f32 0x00000000#32))
          (shapeCast S1x1 (multiReduction .add [0] S1 (shapeCast S512x1
              (multiReduction .add [1] S512 Q 0x00000000#32 reduces_S512x1000_S512 (.inl rfl) rfl)
              shapeCasts_S512_S512x1) 0x00000000#32 reduces_S512x1_S1 (.inl rfl) rfl) shapeCasts_S1_S1x1))
          shapeCasts_S1x1_S1x1x1) (ix3 (0 : Fin 1) (0 : Fin 1) (0 : Fin 1))
      = v61 (ix3 (0 : Fin 1) (0 : Fin 1) (0 : Fin 1))
        + (Cert.Spec.zero - ∑ r : Fin 512, ∑ c : Fin 1000, Q (ix2 r c)) := by
  rw [addf_apply, shapeCast_self, shapeCast_11_111_apply, subf_apply, broadcast_apply]
  show v61 _ + (Cert.Spec.zero - shapeCast S1x1 _ shapeCasts_S1_S1x1 (ix2 (0 : Fin 1) (0 : Fin 1))) = _
  rw [Cert.Lib.SoftmaxRows.colCast_apply]
  refine congrArg (fun t => v61 (ix3 (0 : Fin 1) (0 : Fin 1) (0 : Fin 1)) + (Cert.Spec.zero - t)) ?_
  refine (colSum_apply _).trans ?_
  refine Finset.sum_congr rfl fun r _ => ?_
  rw [Cert.Lib.SoftmaxRows.colCast_apply]
  exact Cert.Lib.SoftmaxRows.rowSum_apply Q 0x00000000#32 reduces_S512x1000_S512 (.inl rfl) rfl r

/-- The running class sum: the value read plus zero less the sum over the tile's rows of the label's log-probability. -/
theorem pay9_apply (v21 : FVec Ideal S512x2048 .f32) (v39 : FVec Ideal S2048x1000 .bf16) (v52 : IVec S512x1 32)
    (v61 : FVec Ideal S1x1x1 .f32) :
    k0_pay9 (F := Ideal) v21 v39 v52 v61 (ix3 (0 : Fin 1) (0 : Fin 1) (0 : Fin 1))
      = v61 (ix3 (0 : Fin 1) (0 : Fin 1) (0 : Fin 1))
        + (Cert.Spec.zero - ∑ r : Fin 512,
            Cert.Spec.rowPick (fun c => ∑ m : Fin 2048, v21 (ix2 r m) * v39 (ix2 m c)) (v52 (ix2 r (0 : Fin 1)))) := by
  have hprog : k0_pay9 (F := Ideal) v21 v39 v52 v61
      = addf (shapeCast S1x1x1 v61 shapeCasts_S1x1x1_S1x1x1)
        (shapeCast S1x1x1 (subf (broadcast S1x1 (Scalar.ofBits .f32 0x00000000#32))
          (shapeCast S1x1 (multiReduction .add [0] S1 (shapeCast S512x1
              (multiReduction .add [1] S512
                (pickRows (logpRows (matmul (F := Ideal) dot_S512x2048_S2048x1000_S512x1000_1_0_0_1_n_n none
                  (truncf .bf16 v21 bitsLt_bf16_f32) (shapeCast S2048x1000 v39 shapeCasts_S2048x1000_S2048x1000)
                  (constant S512x1000 .f32 0x00000000#32))) v52)
                0x00000000#32 reduces_S512x1000_S512 (.inl rfl) rfl)
              shapeCasts_S512_S512x1) 0x00000000#32 reduces_S512x1_S1 (.inl rfl) rfl) shapeCasts_S1_S1x1))
          shapeCasts_S1x1_S1x1x1) := rfl
  rw [hprog, accumulate_apply]
  refine congrArg (fun t => v61 (ix3 (0 : Fin 1) (0 : Fin 1) (0 : Fin 1)) + (Cert.Spec.zero - t)) ?_
  refine Finset.sum_congr rfl fun r _ => ?_
  unfold Cert.Spec.rowPick
  refine Finset.sum_congr rfl fun c _ => ?_
  rw [pickRows_apply, logpRows_apply]
  have hrow : (fun c' : Fin 1000 => matmul (F := Ideal) dot_S512x2048_S2048x1000_S512x1000_1_0_0_1_n_n none
        (truncf .bf16 v21 bitsLt_bf16_f32) (shapeCast S2048x1000 v39 shapeCasts_S2048x1000_S2048x1000)
        (constant S512x1000 .f32 0x00000000#32) (ix2 r c'))
      = fun c' => ∑ m : Fin 2048, v21 (ix2 r m) * v39 (ix2 m c') := funext fun c' => logits_apply v21 v39 r c'
  rw [hrow]

end Cert.KernelIdeal.Payload

end
-- ==== Proof.KBlocks.lean ====
/-
  What the kernel's input windows hold at tile t, entry by entry, in terms of the argument arrays:
    samples      : block t of enc_output, rows 512 t .. 512 t + 511
    prototypes^T : the whole transposed prototype table (through bf16, the identity over the extended reals)
    |p|^2        : the prototypes' squared norms, summed on the host from zero
    W^T          : the whole transposed weight table
    labels       : block t of y, as a column.
-/
import proofs.«418528_j74517682585681_2_alg».proof.Proof.Gen.KernelIdeal.Frame
import proofs.«418528_j74517682585681_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import proofs.«418528_j74517682585681_2_alg».proof.Proof.LibSoftmaxRows

noncomputable section

open scoped BigOperators

namespace Cert.KernelIdeal.Blocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- A grid point as a tile number below 64. -/
abbrev t64 (t : Fin cfg0.N) : Fin 64 := ⟨t.val, lt_of_lt_of_eq t.isLt N_0⟩

/-- The five input blocks at tile t, each at its literal type. -/
abbrev xblk (c : Dev nD) (t : Fin cfg0.N) : Vec Ideal S512x512 .f32 := iblk m c 0 t
abbrev pblk (c : Dev nD) (t : Fin cfg0.N) : Vec Ideal S512x2048 .bf16 := iblk m c 1 t
abbrev p2blk (c : Dev nD) (t : Fin cfg0.N) : Vec Ideal S1x2048 .f32 := iblk m c 2 t
abbrev wblk (c : Dev nD) (t : Fin cfg0.N) : Vec Ideal S2048x1000 .bf16 := iblk m c 3 t
abbrev yblk (c : Dev nD) (t : Fin cfg0.N) : Vec Ideal S512x1 .i32 := iblk m c 4 t

/-! ## Where each window's block sits: the index maps, decided once over the grid -/

theorem idx0 : ∀ t : Fin cfg0.N, win0_0.index t (0 : Fin 2) = t.val ∧ win0_0.index t 1 = 0 :=
  (by decide +kernel : ∀ t : Fin grid0.N, _)
theorem idx1 : ∀ t : Fin cfg0.N, win0_1.index t (0 : Fin 2) = 0 ∧ win0_1.index t 1 = 0 :=
  (by decide +kernel : ∀ t : Fin grid0.N, _)
theorem idx2 : ∀ t : Fin cfg0.N, win0_2.index t (0 : Fin 2) = 0 ∧ win0_2.index t 1 = 0 :=
  (by decide +kernel : ∀ t : Fin grid0.N, _)
theorem idx3 : ∀ t : Fin cfg0.N, win0_3.index t (0 : Fin 2) = 0 ∧ win0_3.index t 1 = 0 :=
  (by decide +kernel : ∀ t : Fin grid0.N, _)
theorem idx4 : ∀ t : Fin cfg0.N, win0_4.index t (0 : Fin 2) = t.val ∧ win0_4.index t 1 = 0 :=
  (by decide +kernel : ∀ t : Fin grid0.N, _)

/-! ## What the host operations before the region leave in the windows' arrays -/

/-- The prototype window's array: the prototypes transposed, then narrowed. -/
theorem V_v1 (c : Dev nD) : (V m c main_v1 : S512x2048.Idx → EReal) =
    (truncf .bf16 (transpose S512x2048 [1, 0] (m ((c.tc : Thread nD τ).loc main_arg1) : FVec Ideal S2048x512 .f32) Facts₀.transposes_S2048x512_S512x2048_1_0) Facts₀.bitsLt_bf16_f32 : FVec Ideal S512x2048 .bf16) := by
  show StableHlo.after hostOps0 (fun b => m (c, b)) (Proc.devRef .tc main_v1) = _
  after_results

/-- The weight window's array: the weights transposed, then narrowed. -/
theorem V_v3 (c : Dev nD) : (V m c main_v3 : S2048x1000.Idx → EReal) =
    (truncf .bf16 (transpose S2048x1000 [1, 0] (m ((c.tc : Thread nD τ).loc main_arg2) : FVec Ideal S1000x2048 .f32) Facts₀.transposes_S1000x2048_S2048x1000_1_0) Facts₀.bitsLt_bf16_f32 : FVec Ideal S2048x1000 .bf16) := by
  show StableHlo.after hostOps0 (fun b => m (c, b)) (Proc.devRef .tc main_v3) = _
  after_results

/-- The squared-norm window's array: the row sums of the prototypes' squares from zero, viewed as one row. -/
theorem V_v6 (c : Dev nD) : (V m c main_v6 : S1x2048.Idx → EReal) =
    shapeCast S1x2048 (Host.reduceAdd (F := Ideal) (mulf (m ((c.tc : Thread nD τ).loc main_arg1)) (m ((c.tc : Thread nD τ).loc main_arg1)))
      (constant (F := Ideal) S_ .f32 0x00000000#32) Facts₀.reducesTo_S2048x512_S2048_d1 Facts₀.h_S_) Facts₀.shapeCasts_S2048_S1x2048 := by
  show StableHlo.after hostOps0 (fun b => m (c, b)) (Proc.devRef .tc main_v6) = _
  after_results
  rfl

/-- The label window's array: the labels viewed as one column. -/
theorem V_v7 (c : Dev nD) : (V m c main_v7 : S32768x1.Idx → BitVec 32) =
    shapeCast S32768x1 (m ((c.tc : Thread nD τ).loc main_arg3)) Facts₀.shapeCasts_S32768_S32768x1 := by
  show StableHlo.after hostOps0 (fun b => m (c, b)) (Proc.devRef .tc main_v7) = _
  after_results
  rfl

/-! ## The blocks read off their arrays -/

/-- The prototype block is the whole array. -/
theorem pblk_read (c : Dev nD) (t : Fin cfg0.N) (k : Fin 512) (p : Fin 2048) :
    pblk m c t (ix2 k p) = (V m c main_v1 : S512x2048.Idx → EReal) (ix2 k p) := by
  have hi := idx1 t
  unfold pblk iblk
  rw [View.read_apply]
  show V m c main_v1 _ = V m c main_v1 _
  congr 1
  funext a
  apply Fin.ext
  match a with
  | ⟨0, _⟩ => show win0_1.index t 0 * 512 + 1 * k.val = k.val; rw [hi.1]; omega
  | ⟨1, _⟩ => show win0_1.index t 1 * 2048 + 1 * p.val = p.val; rw [hi.2]; omega

/-- The squared-norm block is the whole array. -/
theorem p2blk_read (c : Dev nD) (t : Fin cfg0.N) (u : Fin 1) (p : Fin 2048) :
    p2blk m c t (ix2 u p) = (V m c main_v6 : S1x2048.Idx → EReal) (ix2 u p) := by
  have hi := idx2 t
  unfold p2blk iblk
  rw [View.read_apply]
  show V m c main_v6 _ = V m c main_v6 _
  congr 1
  funext a
  apply Fin.ext
  match a with
  | ⟨0, _⟩ => show win0_2.index t 0 * 1 + 1 * u.val = u.val; rw [hi.1]; omega
  | ⟨1, _⟩ => show win0_2.index t 1 * 2048 + 1 * p.val = p.val; rw [hi.2]; omega

/-- The weight block is the whole array. -/
theorem wblk_read (c : Dev nD) (t : Fin cfg0.N) (p : Fin 2048) (k : Fin 1000) :
    wblk m c t (ix2 p k) = (V m c main_v3 : S2048x1000.Idx → EReal) (ix2 p k) := by
  have hi := idx3 t
  unfold wblk iblk
  rw [View.read_apply]
  show V m c main_v3 _ = V m c main_v3 _
  congr 1
  funext a
  apply Fin.ext
  match a with
  | ⟨0, _⟩ => show win0_3.index t 0 * 2048 + 1 * p.val = p.val; rw [hi.1]; omega
  | ⟨1, _⟩ => show win0_3.index t 1 * 1000 + 1 * k.val = k.val; rw [hi.2]; omega

/-- The label block at (r, u) is the column array at row 512 t + r. -/
theorem yblk_read (c : Dev nD) (t : Fin cfg0.N) (r : Fin 512) (u : Fin 1) :
    yblk m c t (ix2 r u) = (V m c main_v7 : S32768x1.Idx → BitVec 32) (ix2 (Cert.Spec.rowOf (t64 t) r) u) := by
  have hi := idx4 t
  unfold yblk iblk
  rw [View.read_apply]
  show V m c main_v7 _ = V m c main_v7 _
  congr 1
  funext a
  apply Fin.ext
  match a with
  | ⟨0, _⟩ => show win0_4.index t 0 * 512 + 1 * r.val = t.val * 512 + r.val; rw [hi.1]; omega
  | ⟨1, _⟩ => show win0_4.index t 1 * 1 + 1 * u.val = u.val; rw [hi.2]; omega

/-- The sample block at (r, k) is enc_output at (512 t + r, k). -/
theorem xblk_apply (c : Dev nD) (t : Fin cfg0.N) (r : Fin 512) (k : Fin 512) :
    xblk m c t (ix2 r k) = m ((c.tc : Thread nD τ).loc main_arg0) (ix2 (Cert.Spec.rowOf (t64 t) r) k) := by
  have hi := idx0 t
  unfold xblk iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val * 512 + r.val; rw [hi.1]; omega
  | ⟨1, _⟩ => show win0_0.index t 1 * 512 + 1 * k.val = k.val; rw [hi.2]; omega

/-- The transposed prototype block at (k, p) is prototypes at (p, k). -/
theorem pblk_apply (c : Dev nD) (t : Fin cfg0.N) (k : Fin 512) (p : Fin 2048) :
    pblk m c t (ix2 k p) = m ((c.tc : Thread nD τ).loc main_arg1) (ix2 p k) := by
  rw [pblk_read, V_v1, truncf_apply, transpose_ix2_apply]

/-- The sum over the second axis puts the summed coordinate back beside the row. -/
theorem lift_sq (h : S2048x512.Reduces [1] S2048) (p : Fin 2048) (k : Fin 512) : h.lift (ix1 p) k = ix2 p k :=
  funext fun a => Fin.ext (by match a with | ⟨0, _⟩ => rfl | ⟨1, _⟩ => rfl)

/-- The squared-norm block at (0, p) is prototype p's squared norm. -/
theorem p2blk_apply (c : Dev nD) (t : Fin cfg0.N) (p : Fin 2048) :
    p2blk m c t (ix2 (0 : Fin 1) p) = Cert.Spec.sqP (m ((c.tc : Thread nD τ).loc main_arg1)) p := by
  have hr : S2048x512.Reduces [1] S2048 := by decide
  rw [p2blk_read, V_v6, shapeCast_a_1a_apply, hostReduceAdd_apply,
    Ideal.hostReduceAdd_single Facts₀.reducesTo_S2048x512_S2048_d1 hr, constant_apply, Ideal.ofBits_zero_f32, zero_add]
  unfold Cert.Spec.sqP
  show ∑ k : Fin 512, _ = _
  refine Finset.sum_congr rfl fun k _ => ?_
  rw [lift_sq hr p k, mulf_apply]

/-- The transposed weight block at (p, k) is W at (k, p). -/
theorem wblk_apply (c : Dev nD) (t : Fin cfg0.N) (p : Fin 2048) (k : Fin 1000) :
    wblk m c t (ix2 p k) = m ((c.tc : Thread nD τ).loc main_arg2) (ix2 k p) := by
  rw [wblk_read, V_v3, truncf_apply, transpose_ix2_apply]

/-- The label block at (r, 0) is y at 512 t + r. -/
theorem yblk_apply (c : Dev nD) (t : Fin cfg0.N) (r : Fin 512) :
    yblk m c t (ix2 r (0 : Fin 1)) = m ((c.tc : Thread nD τ).loc main_arg3) (ix1 (Cert.Spec.rowOf (t64 t) r)) := by
  rw [yblk_read, V_v7, Cert.Lib.SoftmaxRows.colCast_apply]

end Cert.KernelIdeal.Blocks

end
-- ==== Proof.KTail.lean ====
/-
  The host operations after the region, as one function of the three result arrays and the two weights: the two
  halves' class sums are added, divided by 32768; the two halves' column minima are joined lane by lane, summed over the
  2048 prototypes, divided by 2048 and weighted by l1; the two halves' sums of row minima are added, divided by 32768 and
  weighted by l2; the three are added.
-/
import proofs.«418528_j74517682585681_2_alg».proof.Proof.Gen.KernelIdeal
import proofs.«418528_j74517682585681_2_alg».proof.Proof.Spec
import Idealize.ShloMosaic.PureOps.Ideal.Laws
import Idealize.ShloMosaic.PureOps.Reduce
import Idealize.ShloMosaic.Lib.ValueIdx

noncomputable section

open scoped BigOperators

namespace Cert.KernelIdeal.Tail

open Idealize.ShloMosaic Idealize.ShloMosaic.ValueIdx
open Cert.KernelIdeal Cert.KernelIdeal.Gen

/-- The host operations after the region, composed. -/
def tail (A5 A6 : FVec Ideal S2x1x1 .f32) (A7 : FVec Ideal S2x1x2048 .f32) (l1 l2 : FVec Ideal S_ .f32) : FVec Ideal S_ .f32 :=
  addf
    (addf
      (Host.divf (Host.reduceAdd A5 (constant (F := Ideal) S_ .f32 0x00000000#32) reducesTo_S2x1x1_S_d0_1_2 h_S_)
        (constant (F := Ideal) S_ .f32 0x47000000#32))
      (mulf l1
        (Host.divf
          (Host.reduceAdd
            (Host.reduce FloatOps.minimumf A7 (constant (F := Ideal) S_ .f32 0x7F800000#32) reducesTo_S2x1x2048_S1x2048_d0 h_S_)
            (constant (F := Ideal) S_ .f32 0x00000000#32) reducesTo_S1x2048_S_d0_1 h_S_)
          (constant (F := Ideal) S_ .f32 0x45000000#32))))
    (mulf l2
      (Host.divf (Host.reduceAdd A6 (constant (F := Ideal) S_ .f32 0x00000000#32) reducesTo_S2x1x1_S_d0_1_2 h_S_)
        (constant (F := Ideal) S_ .f32 0x47000000#32)))

/-- The indices of an [a, 1, 1] array are its one free coordinate … -/
def idxEquiv_a11 {a : ℕ} : (⟨3, ![a, 1, 1]⟩ : Shape).Idx ≃ Fin a where
  toFun i := i 0
  invFun c := ix3 c (0 : Fin 1) (0 : Fin 1)
  left_inv i := by
    funext ax
    match ax with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
  right_inv _ := rfl

/-- … so a sum over them is the sum over that coordinate. -/
theorem sum_idx_a11 {M : Type*} [AddCommMonoid M] {a : ℕ} (f : (⟨3, ![a, 1, 1]⟩ : Shape).Idx → M) :
    ∑ i, f i = ∑ c : Fin a, f (ix3 c (0 : Fin 1) (0 : Fin 1)) := by
  rw [← Equiv.sum_comp (idxEquiv_a11 (a := a)).symm f]
  rfl

/-- A sum over the indices of a [1, n] array is the sum over its columns. -/
theorem sum_idx_1n {M : Type*} [AddCommMonoid M] {n : ℕ} (f : (⟨2, ![1, n]⟩ : Shape).Idx → M) :
    ∑ i, f i = ∑ p : Fin n, f (ix2 (0 : Fin 1) p) := by
  rw [sum_idx2, Fin.sum_univ_one]

/-- A host sum over all axes, from a constant: the constant's value plus the sum of all entries. -/
theorem reduceAdd_scalar {s : Shape} {axes : List (Fin s.rank)} (x : FVec Ideal s .f32) (b : BitVec 32)
    (h : s.ReducesTo axes S_) (hu : 0 < S_.numel) :
    Host.reduceAdd x (constant (F := Ideal) S_ .f32 b) h hu ix0 = Ideal.ofBits .f32 b + ∑ j : s.Idx, x j := by
  simp only [Host.reduceAdd, Ideal.hostReduceAdd_def]
  exact Ideal.hostReduceAdd_total h (fun b => b.elim0) x _ ix0

/-- The source index of the [2, 1, 2048] array over column p of the [1, 2048] result, at half cc. -/
theorem lift_halves (h : S2x1x2048.Reduces [0] S1x2048) (p : Fin 2048) (cc : Fin 2) :
    h.lift (ix2 (0 : Fin 1) p) cc = ix3 cc (0 : Fin 1) p := by
  funext ax
  match ax with
  | ⟨0, _⟩ => rfl
  | ⟨1, _⟩ => rfl
  | ⟨2, _⟩ => rfl

/-- The minimum over the two halves, from +∞, at column p: the fold of min over the halves. -/
theorem min_halves (A7 : FVec Ideal S2x1x2048 .f32) (h' : S2x1x2048.ReducesTo [0] S1x2048) (hu : 0 < S_.numel) (p : Fin 2048) :
    Host.reduce FloatOps.minimumf A7 (constant (F := Ideal) S_ .f32 0x7F800000#32) h' hu (ix2 (0 : Fin 1) p)
      = (Finset.univ : Finset (Fin 2)).fold min Cert.Spec.posInf (fun cc => A7 (ix3 cc (0 : Fin 1) p)) := by
  have h : S2x1x2048.Reduces [0] S1x2048 := by decide
  rw [Host.reduce_eq_fold_single FloatOps.minimumf A7 _ h' h hu]
  have e : (A7 ∘ h.lift (ix2 (0 : Fin 1) p)) = fun cc : Fin 2 => A7 (ix3 cc (0 : Fin 1) p) := by
    funext cc
    exact congrArg A7 (lift_halves h p cc)
  rw [e]
  rfl

/-- Its one entry, in sums over the halves and the prototypes. -/
theorem tail_apply (A5 A6 : FVec Ideal S2x1x1 .f32) (A7 : FVec Ideal S2x1x2048 .f32) (l1 l2 : FVec Ideal S_ .f32) :
    tail A5 A6 A7 l1 l2 ix0
      = (Ideal.div (Cert.Spec.zero + ∑ cc : Fin 2, A5 (ix3 cc (0 : Fin 1) (0 : Fin 1))) Cert.Spec.n32768
          + l1 ix0 * Ideal.div (Cert.Spec.zero + ∑ p : Fin 2048,
              (Finset.univ : Finset (Fin 2)).fold min Cert.Spec.posInf (fun cc => A7 (ix3 cc (0 : Fin 1) p))) Cert.Spec.n2048)
        + l2 ix0 * Ideal.div (Cert.Spec.zero + ∑ cc : Fin 2, A6 (ix3 cc (0 : Fin 1) (0 : Fin 1))) Cert.Spec.n32768 := by
  show (Ideal.div (Host.reduceAdd A5 (constant (F := Ideal) S_ .f32 0x00000000#32) reducesTo_S2x1x1_S_d0_1_2 h_S_ ix0)
          (Ideal.ofBits .f32 0x47000000#32)
        + l1 ix0 * Ideal.div
            (Host.reduceAdd
              (Host.reduce FloatOps.minimumf A7 (constant (F := Ideal) S_ .f32 0x7F800000#32) reducesTo_S2x1x2048_S1x2048_d0 h_S_)
              (constant (F := Ideal) S_ .f32 0x00000000#32) reducesTo_S1x2048_S_d0_1 h_S_ ix0)
            (Ideal.ofBits .f32 0x45000000#32))
      + l2 ix0 * Ideal.div (Host.reduceAdd A6 (constant (F := Ideal) S_ .f32 0x00000000#32) reducesTo_S2x1x1_S_d0_1_2 h_S_ ix0)
          (Ideal.ofBits .f32 0x47000000#32) = _
  rw [reduceAdd_scalar, reduceAdd_scalar, reduceAdd_scalar, sum_idx_a11, sum_idx_a11, sum_idx_1n]
  simp only [min_halves]

end Cert.KernelIdeal.Tail

end
-- ==== Proof.KValue.lean ====
/-
  The kernel's result as a value. Tile by tile the three carried blocks hold the running class sum, the running sum of
  row minima and the running column minimum of the half the tile belongs to (an induction over the grid points, the two
  control cases being "first tile of a half" and "any other tile"); the blocks written back after the tiles 31 and 63
  make the three result arrays; the host operations after the region join the two halves, divide and weight.
-/
import proofs.«418528_j74517682585681_2_alg».proof.Proof.KPieces
import proofs.«418528_j74517682585681_2_alg».proof.Proof.KPayloadDist
import proofs.«418528_j74517682585681_2_alg».proof.Proof.KPayloadClass
import proofs.«418528_j74517682585681_2_alg».proof.Proof.KBlocks
import proofs.«418528_j74517682585681_2_alg».proof.Proof.KTail
import Idealize.ShloMosaic.Lib.Pipeline.Value
import Idealize.ShloMosaic.Lib.StableHlo.Run
import Idealize.ShloMosaic.Lib.Tactic

noncomputable section

open scoped BigOperators

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Payload

variable (m : (ℓ : Loc nD τ sig) → Buf (Elt Ideal) ℓ) (ρ : Dev nD → PrngReg)

/-- The four argument arrays the value depends on, on core c. -/
abbrev aX (c : Dev nD) : S32768x512.Idx → EReal := m ((c.tc : Thread nD τ).loc main_arg0)
abbrev aP (c : Dev nD) : S2048x512.Idx → EReal := m ((c.tc : Thread nD τ).loc main_arg1)
abbrev aW (c : Dev nD) : S1000x2048.Idx → EReal := m ((c.tc : Thread nD τ).loc main_arg2)
abbrev aY (c : Dev nD) : S32768.Idx → BitVec 32 := m ((c.tc : Thread nD τ).loc main_arg3)

/-! ## One tile -/

/-- The tile's distance block at (r, p) is the distance of the tile's row r to prototype p. -/
theorem dblock_apply (c : Dev nD) (t : Fin cfg0.N) (r : Fin 512) (p : Fin 2048) :
    k0_pay4 (F := Ideal) (xblk m c t) (pblk m c t) (p2blk m c t) (ix2 r p)
      = Cert.Spec.dist (aX m c) (aP m c) (Cert.Spec.rowOf (t64 t) r) p := by
  rw [pay4_apply]
  simp only [xblk_apply, pblk_apply, p2blk_apply]
  rfl

/-- The column minimum's update at lane p: the value read against the tile's column minimum. -/
theorem tile_r1 (c : Dev nD) (t : Fin cfg0.N) (v24 : FVec Ideal S1x1x2048 .f32) (p : Fin 2048) :
    k0_pay5 (F := Ideal) (xblk m c t) (pblk m c t) (p2blk m c t) v24 (ix3 (0 : Fin 1) (0 : Fin 1) p)
      = min (v24 (ix3 (0 : Fin 1) (0 : Fin 1) p)) (Cert.Spec.tileR1 (aX m c) (aP m c) (t64 t) p) := by
  rw [pay5_apply]
  simp only [dblock_apply]
  rfl

/-- The sum of row minima's update: the value read plus the tile's sum. -/
theorem tile_r2 (c : Dev nD) (t : Fin cfg0.N) (v32 : FVec Ideal S1x1x1 .f32) :
    k0_pay8 (F := Ideal) (k0_pay6 (F := Ideal) (xblk m c t) (pblk m c t) (p2blk m c t)) v32 (ix3 (0 : Fin 1) (0 : Fin 1) (0 : Fin 1))
      = v32 (ix3 (0 : Fin 1) (0 : Fin 1) (0 : Fin 1)) + Cert.Spec.tileR2 (aX m c) (aP m c) (t64 t) := by
  rw [pay8_apply]
  simp only [pay6_apply, dblock_apply]
  rfl

/-- The class sum's update: the value read plus the tile's term. -/
theorem tile_class (c : Dev nD) (t : Fin cfg0.N) (v61 : FVec Ideal S1x1x1 .f32) :
    k0_pay9 (F := Ideal) (k0_pay4 (F := Ideal) (xblk m c t) (pblk m c t) (p2blk m c t)) (wblk m c t) (yblk m c t) v61 (ix3 (0 : Fin 1) (0 : Fin 1) (0 : Fin 1))
      = v61 (ix3 (0 : Fin 1) (0 : Fin 1) (0 : Fin 1)) + Cert.Spec.tileClass (aX m c) (aP m c) (aW m c) (aY m c) (t64 t) := by
  rw [pay9_apply]
  simp only [dblock_apply, wblk_apply, yblk_apply]
  rfl

/-! ## The two control cases at a grid point -/

/-- At the first tile of a half the three blocks are the updates of the neutral values. -/
theorem step_A (c : Dev nD) (t : Fin cfg0.N) (h0 : t.val % 32 = 0) :
    (outsAt0 m c t.val t.isLt).1 = k0_pay9 (k0_pay4 (xblk m c t) (pblk m c t) (p2blk m c t)) (wblk m c t) (yblk m c t) (k0_pay1 (F := Ideal))
    ∧ (outsAt0 m c t.val t.isLt).2.1 = k0_pay8 (k0_pay6 (xblk m c t) (pblk m c t) (p2blk m c t)) (k0_pay7 (k0_pay2 (F := Ideal)))
    ∧ (outsAt0 m c t.val t.isLt).2.2 = k0_pay5 (xblk m c t) (pblk m c t) (p2blk m c t) (k0_pay3 (F := Ideal)) := by
  rw [outsAt0_A m c t h0]
  dsimp only
  exact ⟨Pieces.out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t),
    Pieces.out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t),
    Pieces.out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t)⟩

/-- At any other tile they are the updates of what the tile before left. -/
theorem step_B (c : Dev nD) (t : Fin cfg0.N) (h0 : ¬t.val % 32 = 0) :
    (outsAt0 m c t.val t.isLt).1 = k0_pay9 (k0_pay4 (xblk m c t) (pblk m c t) (p2blk m c t)) (wblk m c t) (yblk m c t) (outsAt0 m c (t.val - 1) (Nat.lt_of_le_of_lt (Nat.sub_le _ _) t.isLt)).1
    ∧ (outsAt0 m c t.val t.isLt).2.1 = k0_pay8 (k0_pay6 (xblk m c t) (pblk m c t) (p2blk m c t)) (k0_pay7 (outsAt0 m c (t.val - 1) (Nat.lt_of_le_of_lt (Nat.sub_le _ _) t.isLt)).2.1)
    ∧ (outsAt0 m c t.val t.isLt).2.2 = k0_pay5 (xblk m c t) (pblk m c t) (p2blk m c t) (outsAt0 m c (t.val - 1) (Nat.lt_of_le_of_lt (Nat.sub_le _ _) t.isLt)).2.2 := by
  rw [outsAt0_B m c t h0]
  dsimp only
  exact ⟨Pieces.out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
    Pieces.out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
    Pieces.out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2⟩

/-! ## The running values after each tile -/

/-- After tile n the three carried blocks hold the running class sum, the running sum of row minima and, lane by
    lane, the running column minimum: by induction on the tile, the first tile of a half starting over. -/
theorem outsAt_eq (c : Dev nD) : ∀ (n : ℕ) (h : n < cfg0.N),
    (outsAt0 m c n h).1 (ix3 (0 : Fin 1) (0 : Fin 1) (0 : Fin 1)) = Cert.Spec.accClass (aX m c) (aP m c) (aW m c) (aY m c) n
    ∧ (outsAt0 m c n h).2.1 (ix3 (0 : Fin 1) (0 : Fin 1) (0 : Fin 1)) = Cert.Spec.accR2 (aX m c) (aP m c) n
    ∧ ∀ p : Fin 2048, (outsAt0 m c n h).2.2 (ix3 (0 : Fin 1) (0 : Fin 1) p) = Cert.Spec.accR1 (aX m c) (aP m c) p n
  | 0, h => by
    obtain ⟨e1, e2, e3⟩ := step_A m c ⟨0, h⟩ rfl
    have hN : (0 : ℕ) < 64 := by omega
    refine ⟨(congrFun e1 _).trans ?_, (congrFun e2 _).trans ?_, fun p => (congrFun e3 _).trans ?_⟩
    · rw [tile_class, pay1_apply]
      simp only [Cert.Spec.accClass, Cert.Spec.tileClassN, dif_pos hN]
    · rw [tile_r2, pay7_eq, pay2_apply]
      simp only [Cert.Spec.accR2, Cert.Spec.tileR2N, dif_pos hN]
    · rw [tile_r1, pay3_apply]
      simp only [Cert.Spec.accR1, Cert.Spec.tileR1N, dif_pos hN]
  | n + 1, h => by
    have hN64 : cfg0.N = 64 := N_0
    have hN : n + 1 < 64 := by omega
    obtain ⟨i1, i2, i3⟩ := outsAt_eq c n (Nat.lt_of_succ_lt h)
    by_cases h0 : (n + 1) % 32 = 0
    · obtain ⟨e1, e2, e3⟩ := step_A m c ⟨n + 1, h⟩ h0
      refine ⟨(congrFun e1 _).trans ?_, (congrFun e2 _).trans ?_, fun p => (congrFun e3 _).trans ?_⟩
      · rw [tile_class, pay1_apply]
        simp only [Cert.Spec.accClass, if_pos h0, Cert.Spec.tileClassN, dif_pos hN]
      · rw [tile_r2, pay7_eq, pay2_apply]
        simp only [Cert.Spec.accR2, if_pos h0, Cert.Spec.tileR2N, dif_pos hN]
      · rw [tile_r1, pay3_apply]
        simp only [Cert.Spec.accR1, if_pos h0, Cert.Spec.tileR1N, dif_pos hN]
    · obtain ⟨e1, e2, e3⟩ := step_B m c ⟨n + 1, h⟩ h0
      refine ⟨(congrFun e1 _).trans ?_, (congrFun e2 _).trans ?_, fun p => (congrFun e3 _).trans ?_⟩
      · rw [tile_class]
        simp only [Cert.Spec.accClass, if_neg h0, Cert.Spec.tileClassN, dif_pos hN]
        exact congrArg (· + _) i1
      · rw [tile_r2, pay7_eq]
        simp only [Cert.Spec.accR2, if_neg h0, Cert.Spec.tileR2N, dif_pos hN]
        exact congrArg (· + _) i2
      · rw [tile_r1]
        simp only [Cert.Spec.accR1, if_neg h0, Cert.Spec.tileR1N, dif_pos hN]
        exact congrArg (min · _) (i3 p)

/-! ## The three result arrays after the run

Each carried block is written back twice, after the tiles 31 and 63, to block 0 and block 1 of its array: entry (h, 0, ·)
of an array is the running value after the last tile of half h. -/

/-- The class sums of the two halves. -/
abbrev G5 (c : Dev nD) : S2x1x1.Idx → EReal := fun i =>
  Cert.Spec.accClass (aX m c) (aP m c) (aW m c) (aY m c) (32 * (i 0).val + 31)
/-- The sums of row minima of the two halves. -/
abbrev G6 (c : Dev nD) : S2x1x1.Idx → EReal := fun i =>
  Cert.Spec.accR2 (aX m c) (aP m c) (32 * (i 0).val + 31)
/-- The column minima of the two halves. -/
abbrev G7 (c : Dev nD) : S2x1x2048.Idx → EReal := fun i =>
  Cert.Spec.accR1 (aX m c) (aP m c) ⟨(i 2).val, (i 2).isLt⟩ (32 * (i 0).val + 31)

/-- Window 5's block index at a grid point: the half (t / 32) on the first axis, nothing else moves. -/
theorem idx5 : ∀ t : Fin cfg0.N, win0_5.index t (0 : Fin 3) = t.val / 32 ∧ win0_5.index t (1 : Fin 3) = 0 ∧ win0_5.index t (2 : Fin 3) = 0 :=
  (by decide +kernel : ∀ t : Fin grid0.N, win0_5.index t (0 : Fin 3) = t.val / 32 ∧ win0_5.index t (1 : Fin 3) = 0 ∧ win0_5.index t (2 : Fin 3) = 0)

/-- An index of the array is in point t's block iff each coordinate is in the block's range on its axis. -/
theorem mem_blk5 (t : Fin cfg0.N) (i : S2x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v8_0).slice (win0_5.rect t)).set ↔ _
  rw [View.set_slice_whole, Rect.mem_set_unit]
  exact Iff.rfl

/-- Window 6's block index at a grid point: the half (t / 32) on the first axis, nothing else moves. -/
theorem idx6 : ∀ t : Fin cfg0.N, win0_6.index t (0 : Fin 3) = t.val / 32 ∧ win0_6.index t (1 : Fin 3) = 0 ∧ win0_6.index t (2 : Fin 3) = 0 :=
  (by decide +kernel : ∀ t : Fin grid0.N, win0_6.index t (0 : Fin 3) = t.val / 32 ∧ win0_6.index t (1 : Fin 3) = 0 ∧ win0_6.index t (2 : Fin 3) = 0)

/-- An index of the array is in point t's block iff each coordinate is in the block's range on its axis. -/
theorem mem_blk6 (t : Fin cfg0.N) (i : S2x1x1.Idx) :
    i ∈ ((cfg0.win 6).blk t).view.set ↔ ∀ a : Fin 3, win0_6.index t a * S1x1x1.size a ≤ (i a).val ∧ (i a).val < win0_6.index t a * S1x1x1.size a + S1x1x1.size a := by
  show i ∈ ((View.whole main_v8_1).slice (win0_6.rect t)).set ↔ _
  rw [View.set_slice_whole, Rect.mem_set_unit]
  exact Iff.rfl

/-- Window 7's block index at a grid point: the half (t / 32) on the first axis, nothing else moves. -/
theorem idx7 : ∀ t : Fin cfg0.N, win0_7.index t (0 : Fin 3) = t.val / 32 ∧ win0_7.index t (1 : Fin 3) = 0 ∧ win0_7.index t (2 : Fin 3) = 0 :=
  (by decide +kernel : ∀ t : Fin grid0.N, win0_7.index t (0 : Fin 3) = t.val / 32 ∧ win0_7.index t (1 : Fin 3) = 0 ∧ win0_7.index t (2 : Fin 3) = 0)

/-- An index of the array is in point t's block iff each coordinate is in the block's range on its axis. -/
theorem mem_blk7 (t : Fin cfg0.N) (i : S2x1x2048.Idx) :
    i ∈ ((cfg0.win 7).blk t).view.set ↔ ∀ a : Fin 3, win0_7.index t a * S1x1x2048.size a ≤ (i a).val ∧ (i a).val < win0_7.index t a * S1x1x2048.size a + S1x1x2048.size a := by
  show i ∈ ((View.whole main_v8_2).slice (win0_7.rect t)).set ↔ _
  rw [View.set_slice_whole, Rect.mem_set_unit]
  exact Iff.rfl

/-- What a write-back of the class sum writes is the block of G5 at the point. -/
theorem flushed5_eq (c : Dev nD) (t : Fin cfg0.N) (hf : (cfg0.win 5).flush t = true) :
    (dats m 0 c).flushed 5 t = ((cfg0.win 5).blk t).view.read (Elt Ideal) (G5 m c) := by
  have h31 : t.val % 32 = 31 := (flush0_5 t).mp hf
  obtain ⟨a0, a1, a2⟩ := idx5 t
  show (cfg0.win 5).cut (grid0.coords t) ((dats m 0 c).after 5 t) = _
  rw [after0_5]
  funext y
  show (outsAt0 m c t.val t.isLt).1 y = G5 m c (((cfg0.win 5).blk t).view.emb y)
  have hy0 : (y 0).val = 0 := Fin.val_eq_zero (y 0)
  have hy : y = ix3 (0 : Fin 1) (0 : Fin 1) (0 : Fin 1) := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
  have he : ((((cfg0.win 5).blk t).view.emb y) 0).val = win0_5.index t (0 : Fin 3) * 1 + 1 * (y 0).val := rfl
  show _ = Cert.Spec.accClass (aX m c) (aP m c) (aW m c) (aY m c) (32 * ((((cfg0.win 5).blk t).view.emb y) 0).val + 31)
  rw [he, a0, hy0, hy, (outsAt_eq m c t.val t.isLt).1]
  congr 1
  omega

/-- What a write-back of the sum of row minima writes is the block of G6 at the point. -/
theorem flushed6_eq (c : Dev nD) (t : Fin cfg0.N) (hf : (cfg0.win 6).flush t = true) :
    (dats m 0 c).flushed 6 t = ((cfg0.win 6).blk t).view.read (Elt Ideal) (G6 m c) := by
  have h31 : t.val % 32 = 31 := (flush0_6 t).mp hf
  obtain ⟨a0, a1, a2⟩ := idx6 t
  show (cfg0.win 6).cut (grid0.coords t) ((dats m 0 c).after 6 t) = _
  rw [after0_6]
  funext y
  show (outsAt0 m c t.val t.isLt).2.1 y = G6 m c (((cfg0.win 6).blk t).view.emb y)
  have hy0 : (y 0).val = 0 := Fin.val_eq_zero (y 0)
  have hy : y = ix3 (0 : Fin 1) (0 : Fin 1) (0 : Fin 1) := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
  have he : ((((cfg0.win 6).blk t).view.emb y) 0).val = win0_6.index t (0 : Fin 3) * 1 + 1 * (y 0).val := rfl
  show _ = Cert.Spec.accR2 (aX m c) (aP m c) (32 * ((((cfg0.win 6).blk t).view.emb y) 0).val + 31)
  rw [he, a0, hy0, hy, (outsAt_eq m c t.val t.isLt).2.1]
  congr 1
  omega

/-- What a write-back of the column minimum writes is the block of G7 at the point. -/
theorem flushed7_eq (c : Dev nD) (t : Fin cfg0.N) (hf : (cfg0.win 7).flush t = true) :
    (dats m 0 c).flushed 7 t = ((cfg0.win 7).blk t).view.read (Elt Ideal) (G7 m c) := by
  have h31 : t.val % 32 = 31 := (flush0_7 t).mp hf
  obtain ⟨a0, a1, a2⟩ := idx7 t
  show (cfg0.win 7).cut (grid0.coords t) ((dats m 0 c).after 7 t) = _
  rw [after0_7]
  funext y
  show (outsAt0 m c t.val t.isLt).2.2 y = G7 m c (((cfg0.win 7).blk t).view.emb y)
  have hy0 : (y 0).val = 0 := Fin.val_eq_zero (y 0)
  have hy : y = ix3 (0 : Fin 1) (0 : Fin 1) (⟨(y 2).val, (y 2).isLt⟩ : Fin 2048) := by
    funext a
    match a with
    | ⟨0, _⟩ => exact Subsingleton.elim (α := Fin 1) _ _
    | ⟨1, _⟩ => exact Subsingleton.elim (α := Fin 1) _ _
    | ⟨2, _⟩ => rfl
  have he0 : ((((cfg0.win 7).blk t).view.emb y) 0).val = win0_7.index t (0 : Fin 3) * 1 + 1 * (y 0).val := rfl
  have he2 : ((((cfg0.win 7).blk t).view.emb y) 2).val = win0_7.index t (2 : Fin 3) * 2048 + 1 * (y 2).val := rfl
  have hp : (⟨((((cfg0.win 7).blk t).view.emb y) 2).val, ((((cfg0.win 7).blk t).view.emb y) 2).isLt⟩ : Fin 2048) = ⟨(y 2).val, (y 2).isLt⟩ :=
    Fin.ext (by show ((((cfg0.win 7).blk t).view.emb y) 2).val = (y 2).val; rw [he2, a2]; omega)
  show _ = Cert.Spec.accR1 (aX m c) (aP m c) ⟨((((cfg0.win 7).blk t).view.emb y) 2).val, ((((cfg0.win 7).blk t).view.emb y) 2).isLt⟩ (32 * ((((cfg0.win 7).blk t).view.emb y) 0).val + 31)
  rw [hp, he0, a0, hy0]
  have hL : (outsAt0 m c t.val t.isLt).2.2 y = (outsAt0 m c t.val t.isLt).2.2 (ix3 (0 : Fin 1) (0 : Fin 1) (⟨(y 2).val, (y 2).isLt⟩ : Fin 2048)) :=
    congrArg _ hy
  rw [hL, (outsAt_eq m c t.val t.isLt).2.2]
  congr 1
  omega

/-- The array of window 5 after the run: block h was written back after the last tile of half h. -/
theorem final5 (c : Dev nD) : (dats m 0 c).arrAt 5 cfg0.N = G5 m c :=
  (dats m 0 c).arrAt_eq_of_cover 5 (G5 m c) (flushed5_eq m c) fun i => by
    have hN : cfg0.N = 64 := N_0
    have hi0 : (i 0).val < 2 := (i 0).isLt
    have hi1 : (i 1).val < 1 := (i 1).isLt
    have hi2 : (i 2).val < 1 := (i 2).isLt
    have hlt : 32 * (i 0).val + 31 < cfg0.N := by omega
    obtain ⟨a0, a1, a2⟩ := idx5 ⟨32 * (i 0).val + 31, hlt⟩
    have hv : (⟨32 * (i 0).val + 31, hlt⟩ : Fin cfg0.N).val = 32 * (i 0).val + 31 := rfl
    refine ⟨⟨32 * (i 0).val + 31, hlt⟩, (flush0_5 _).mpr (by rw [hv]; omega), ?_⟩
    rw [mem_blk5]
    intro a
    match a with
    | ⟨0, _⟩ =>
      show win0_5.index ⟨32 * (i 0).val + 31, hlt⟩ (0 : Fin 3) * 1 ≤ (i 0).val ∧ (i 0).val < win0_5.index ⟨32 * (i 0).val + 31, hlt⟩ (0 : Fin 3) * 1 + 1
      rw [a0, hv]; omega
    | ⟨1, _⟩ =>
      show win0_5.index ⟨32 * (i 0).val + 31, hlt⟩ (1 : Fin 3) * 1 ≤ (i 1).val ∧ (i 1).val < win0_5.index ⟨32 * (i 0).val + 31, hlt⟩ (1 : Fin 3) * 1 + 1
      rw [a1]; omega
    | ⟨2, _⟩ =>
      show win0_5.index ⟨32 * (i 0).val + 31, hlt⟩ (2 : Fin 3) * 1 ≤ (i 2).val ∧ (i 2).val < win0_5.index ⟨32 * (i 0).val + 31, hlt⟩ (2 : Fin 3) * 1 + 1
      rw [a2]; omega

/-- The array of window 6 after the run: block h was written back after the last tile of half h. -/
theorem final6 (c : Dev nD) : (dats m 0 c).arrAt 6 cfg0.N = G6 m c :=
  (dats m 0 c).arrAt_eq_of_cover 6 (G6 m c) (flushed6_eq m c) fun i => by
    have hN : cfg0.N = 64 := N_0
    have hi0 : (i 0).val < 2 := (i 0).isLt
    have hi1 : (i 1).val < 1 := (i 1).isLt
    have hi2 : (i 2).val < 1 := (i 2).isLt
    have hlt : 32 * (i 0).val + 31 < cfg0.N := by omega
    obtain ⟨a0, a1, a2⟩ := idx6 ⟨32 * (i 0).val + 31, hlt⟩
    have hv : (⟨32 * (i 0).val + 31, hlt⟩ : Fin cfg0.N).val = 32 * (i 0).val + 31 := rfl
    refine ⟨⟨32 * (i 0).val + 31, hlt⟩, (flush0_6 _).mpr (by rw [hv]; omega), ?_⟩
    rw [mem_blk6]
    intro a
    match a with
    | ⟨0, _⟩ =>
      show win0_6.index ⟨32 * (i 0).val + 31, hlt⟩ (0 : Fin 3) * 1 ≤ (i 0).val ∧ (i 0).val < win0_6.index ⟨32 * (i 0).val + 31, hlt⟩ (0 : Fin 3) * 1 + 1
      rw [a0, hv]; omega
    | ⟨1, _⟩ =>
      show win0_6.index ⟨32 * (i 0).val + 31, hlt⟩ (1 : Fin 3) * 1 ≤ (i 1).val ∧ (i 1).val < win0_6.index ⟨32 * (i 0).val + 31, hlt⟩ (1 : Fin 3) * 1 + 1
      rw [a1]; omega
    | ⟨2, _⟩ =>
      show win0_6.index ⟨32 * (i 0).val + 31, hlt⟩ (2 : Fin 3) * 1 ≤ (i 2).val ∧ (i 2).val < win0_6.index ⟨32 * (i 0).val + 31, hlt⟩ (2 : Fin 3) * 1 + 1
      rw [a2]; omega

/-- The array of window 7 after the run: block h was written back after the last tile of half h. -/
theorem final7 (c : Dev nD) : (dats m 0 c).arrAt 7 cfg0.N = G7 m c :=
  (dats m 0 c).arrAt_eq_of_cover 7 (G7 m c) (flushed7_eq m c) fun i => by
    have hN : cfg0.N = 64 := N_0
    have hi0 : (i 0).val < 2 := (i 0).isLt
    have hi1 : (i 1).val < 1 := (i 1).isLt
    have hi2 : (i 2).val < 2048 := (i 2).isLt
    have hlt : 32 * (i 0).val + 31 < cfg0.N := by omega
    obtain ⟨a0, a1, a2⟩ := idx7 ⟨32 * (i 0).val + 31, hlt⟩
    have hv : (⟨32 * (i 0).val + 31, hlt⟩ : Fin cfg0.N).val = 32 * (i 0).val + 31 := rfl
    refine ⟨⟨32 * (i 0).val + 31, hlt⟩, (flush0_7 _).mpr (by rw [hv]; omega), ?_⟩
    rw [mem_blk7]
    intro a
    match a with
    | ⟨0, _⟩ =>
      show win0_7.index ⟨32 * (i 0).val + 31, hlt⟩ (0 : Fin 3) * 1 ≤ (i 0).val ∧ (i 0).val < win0_7.index ⟨32 * (i 0).val + 31, hlt⟩ (0 : Fin 3) * 1 + 1
      rw [a0, hv]; omega
    | ⟨1, _⟩ =>
      show win0_7.index ⟨32 * (i 0).val + 31, hlt⟩ (1 : Fin 3) * 1 ≤ (i 1).val ∧ (i 1).val < win0_7.index ⟨32 * (i 0).val + 31, hlt⟩ (1 : Fin 3) * 1 + 1
      rw [a1]; omega
    | ⟨2, _⟩ =>
      show win0_7.index ⟨32 * (i 0).val + 31, hlt⟩ (2 : Fin 3) * 2048 ≤ (i 2).val ∧ (i 2).val < win0_7.index ⟨32 * (i 0).val + 31, hlt⟩ (2 : Fin 3) * 2048 + 2048
      rw [a2]; omega

/-! ## The host operations after the region, and the run -/

/-- The result: the loss as the kernel's program computes it, of the argument arrays. -/
abbrev result (c : Dev nD) : Buf (Elt Ideal) ((c.tc : Thread nD τ).loc main_v19) := fun _ =>
  Cert.Spec.kernelResult (aX m c) (aP m c) (aW m c) (aY m c)
    (m ((c.tc : Thread nD τ).loc main_arg4) ix0) (m ((c.tc : Thread nD τ).loc main_arg5) ix0)

/-- What the lines after the region leave in the result buffer: the tail's operations applied to the three result arrays
    and the two weights, which is the loss as the kernel's program computes it. -/
theorem tail_eq (c : Dev nD) :
    Pipeline.afterTail₀ cfgs (dats m) 0 (V0 m) [hostOps1] c main_v19 = result m c := by
  have h5 : Pipeline.withArrays spec0 c (V0 m c) (fun w => (dats m 0 c).arrAt w cfg0.N) (Proc.devRef .tc main_v8_0) = G5 m c :=
    (Pipeline.withArrays_arr spec0 launch0.win.arr_inj c (V0 m c) (fun w => (dats m 0 c).arrAt w cfg0.N) 5).trans (final5 m c)
  have h6 : Pipeline.withArrays spec0 c (V0 m c) (fun w => (dats m 0 c).arrAt w cfg0.N) (Proc.devRef .tc main_v8_1) = G6 m c :=
    (Pipeline.withArrays_arr spec0 launch0.win.arr_inj c (V0 m c) (fun w => (dats m 0 c).arrAt w cfg0.N) 6).trans (final6 m c)
  have h7 : Pipeline.withArrays spec0 c (V0 m c) (fun w => (dats m 0 c).arrAt w cfg0.N) (Proc.devRef .tc main_v8_2) = G7 m c :=
    (Pipeline.withArrays_arr spec0 launch0.win.arr_inj c (V0 m c) (fun w => (dats m 0 c).arrAt w cfg0.N) 7).trans (final7 m c)
  have hl1 : Pipeline.withArrays spec0 c (V0 m c) (fun w => (dats m 0 c).arrAt w cfg0.N) (Proc.devRef .tc main_arg4) = m ((c.tc : Thread nD τ).loc main_arg4) :=
    (Pipeline.withArrays_of_ne _ c (V0 m c) _ main_arg4 (by exact (by decide : ∀ w, Pipeline.arrRef spec0 w ≠ main_arg4))).trans (V_main_arg4 m c)
  have hl2 : Pipeline.withArrays spec0 c (V0 m c) (fun w => (dats m 0 c).arrAt w cfg0.N) (Proc.devRef .tc main_arg5) = m ((c.tc : Thread nD τ).loc main_arg5) :=
    (Pipeline.withArrays_of_ne _ c (V0 m c) _ main_arg5 (by exact (by decide : ∀ w, Pipeline.arrRef spec0 w ≠ main_arg5))).trans (V_main_arg5 m c)
  unfold Pipeline.afterTail₀
  show StableHlo.after hostOps1 (Pipeline.withArrays spec0 c (V0 m c) (fun w => (dats m 0 c).arrAt w cfg0.N)) (Proc.devRef .tc main_v19) = _
  generalize Pipeline.withArrays spec0 c (V0 m c) (fun w => (dats m 0 c).arrAt w cfg0.N) = Wv at h5 h6 h7 hl1 hl2 ⊢
  after_results
  rw [h5, h6, h7, hl1, hl2]
  show Cert.KernelIdeal.Tail.tail (G5 m c) (G6 m c) (G7 m c) (m ((c.tc : Thread nD τ).loc main_arg4)) (m ((c.tc : Thread nD τ).loc main_arg5)) = _
  funext i
  rw [eq_ix0 i, Cert.KernelIdeal.Tail.tail_apply]
  rfl

/-- The run, read: the result buffer at the loss as the kernel's program computes it, the arguments unchanged. -/
theorem run : θ_run defs (onTc (τ := τ) (main (F := Ideal))) ⟨m, fun _ => 0, ρ⟩ fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨((h c).2 main_v19 (Pipeline.mem_restRefs_of main_v19 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c),
        ((h c).2 main_arg5 (Pipeline.mem_restRefs_of main_arg5 (by decide) (by decide))).trans (W_main_arg5 m (dats m) c)⟩)
    (run_main m ρ)

end Cert.KernelIdeal.KValue

end
-- ==== Proof.RefDist.lean ====
/-
  The reference's distance matrix and log-softmax, stage by stage, read at an entry: they are the specification's
  dist and the row log-softmax of its logits.
-/
import proofs.«418528_j74517682585681_2_alg».proof.Proof.RefRead
import proofs.«418528_j74517682585681_2_alg».proof.Proof.Spec
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.ReferenceIdeal.RefValue

open Idealize.ShloMosaic Idealize.ShloMosaic.ValueIdx
open Cert.ReferenceIdeal Cert.ReferenceIdeal.Gen Cert.ReferenceIdeal.ReadP

/-! ## The distance matrix

The composed index maps of the chain's layout stages, at (i, p), are the coordinates the specification reads. -/
private theorem e_sqx (i : Fin 32768) (p : Fin 2048) (k : Fin 512) :
    idx_main_v1 (idx_main_v2 (idx_main_v6 (ix2 i p))) k = ix2 i k :=
  funext fun a => Fin.ext (by match a with | ⟨0, _⟩ => rfl | ⟨1, _⟩ => rfl)

private theorem e_sqp (i : Fin 32768) (p : Fin 2048) (k : Fin 512) :
    idx_main_v4 (idx_main_v5 (idx_main_v7 (ix2 i p))) k = ix2 p k :=
  funext fun a => Fin.ext (by match a with | ⟨0, _⟩ => rfl | ⟨1, _⟩ => rfl)

private theorem e_dotl (i : Fin 32768) (p : Fin 2048) (k : Fin 512) :
    lidx_main_v10 (ix2 i p) k = ix2 i k :=
  funext fun a => Fin.ext (by match a with | ⟨0, _⟩ => rfl | ⟨1, _⟩ => rfl)

private theorem e_dotr (i : Fin 32768) (p : Fin 2048) (k : Fin 512) :
    idx_main_v9 (ridx_main_v10 (ix2 i p) k) = ix2 p k :=
  funext fun a => Fin.ext (by match a with | ⟨0, _⟩ => rfl | ⟨1, _⟩ => rfl)

/-- The reference's distance matrix at (i, p). -/
theorem v16_apply (x0 : (⟨S32768x512, .f32⟩ : BufTy).Contents (Elt Ideal)) (x1 : (⟨S2048x512, .f32⟩ : BufTy).Contents (Elt Ideal))
    (i : Fin 32768) (p : Fin 2048) :
    val_main_v16 (F := Ideal) x0 x1 (ix2 i p) = Cert.Spec.dist x0 x1 i p := by
  rw [val_main_v16_apply, val_main_v15_apply, val_main_v14_apply, val_main_cst_2_apply, val_main_v13_apply,
    val_main_v12_apply, val_main_v11_apply, val_main_cst_1_apply, val_main_v10_apply, val_main_v8_apply,
    val_main_v7_apply, val_main_v5_apply, val_main_v4_apply, val_main_cst_0_apply,
    val_main_v6_apply, val_main_v2_apply, val_main_v1_apply, val_main_cst_apply]
  simp only [val_main_v0_apply, val_main_v3_apply, val_main_v9_apply, e_sqx, e_sqp, e_dotl, e_dotr,
    Ideal.mulf_def, Ideal.addf_def, Ideal.subf_def, Ideal.maximumf_def, Ideal.hostUnary_sqrt_def, Ideal.ofBits_def,
    Ideal.ofBits_zero_f32, zero_add]
  unfold Cert.Spec.dist Cert.Spec.sqX Cert.Spec.sqP Cert.Spec.dotXP
  simp only [Cert.Spec.zero, Cert.Spec.two, Ideal.ofBits_zero_f32]

/-! ## The logits and their row log-softmax -/

private theorem e_logl (i : Fin 32768) (c : Fin 1000) (k : Fin 2048) :
    lidx_main_v18 (ix2 i c) k = ix2 i k :=
  funext fun a => Fin.ext (by match a with | ⟨0, _⟩ => rfl | ⟨1, _⟩ => rfl)

private theorem e_logr (i : Fin 32768) (c : Fin 1000) (k : Fin 2048) :
    idx_main_v17 (ridx_main_v18 (ix2 i c) k) = ix2 c k :=
  funext fun a => Fin.ext (by match a with | ⟨0, _⟩ => rfl | ⟨1, _⟩ => rfl)

private theorem e_top (i : Fin 32768) (c : Fin 1000) :
    idx_main_call0_v3 (idx_main_call0_v4 (ix2 i c)) = ix1 i :=
  funext fun a => Fin.ext (by match a with | ⟨0, _⟩ => rfl)

private theorem e_sum (i : Fin 32768) (c : Fin 1000) (k : Fin 1000) :
    idx_main_call0_v7 (idx_main_call0_v8 (idx_main_call0_v10 (ix2 i c))) k = ix2 i k :=
  funext fun a => Fin.ext (by match a with | ⟨0, _⟩ => rfl | ⟨1, _⟩ => rfl)

/-- The reference's logits at (i, c). -/
private theorem v18_apply (x0 : (⟨S32768x512, .f32⟩ : BufTy).Contents (Elt Ideal)) (x1 : (⟨S2048x512, .f32⟩ : BufTy).Contents (Elt Ideal)) (x2 : (⟨S1000x2048, .f32⟩ : BufTy).Contents (Elt Ideal))
    (i : Fin 32768) (c : Fin 1000) :
    val_main_v18 (F := Ideal) x0 x1 x2 (ix2 i c) = Cert.Spec.logit x0 x1 x2 i c := by
  rw [val_main_v18_apply]
  unfold Cert.Spec.logit
  refine Finset.sum_congr rfl fun k _ => ?_
  rw [e_logl, v16_apply, val_main_v17_apply, e_logr]

/-- Row i's index with the class coordinate put back. -/
private theorem lift_cls (h : S32768x1000.Reduces [1] S32768) (i : Fin 32768) (c : Fin 1000) :
    h.lift (ix1 i) c = ix2 i c :=
  funext fun a => Fin.ext (by match a with | ⟨0, _⟩ => rfl | ⟨1, _⟩ => rfl)

/-- The row maximum the reference subtracts: the fold of max from -∞ over the row's logits (joining it with -∞ once
    more changes nothing). -/
private theorem top_apply (x0 : (⟨S32768x512, .f32⟩ : BufTy).Contents (Elt Ideal)) (x1 : (⟨S2048x512, .f32⟩ : BufTy).Contents (Elt Ideal)) (x2 : (⟨S1000x2048, .f32⟩ : BufTy).Contents (Elt Ideal))
    (i : Fin 32768) :
    val_main_call0_v2 (F := Ideal) x0 x1 x2 (ix1 i) = Cert.Spec.rowTop (Cert.Spec.logit x0 x1 x2 i) := by
  have h : S32768x1000.Reduces [1] S32768 := by decide
  have e0 : val_main_call0_v0 (F := Ideal) x0 x1 x2 (ix1 i) = Cert.Spec.rowTop (Cert.Spec.logit x0 x1 x2 i) := by
    unfold val_main_call0_v0
    refine (Host.reduce_eq_fold_single (FloatOps.maximumf (F := Ideal) (φ := .f32)) (val_main_v18 (F := Ideal) x0 x1 x2)
      (val_main_call0_cst (F := Ideal)) reducesTo_S32768x1000_S32768_d1 h h_S_ (ix1 i)).trans ?_
    have e : (val_main_v18 (F := Ideal) x0 x1 x2 ∘ h.lift (ix1 i)) = fun c : Fin 1000 => Cert.Spec.logit x0 x1 x2 i c :=
      funext fun c => (congrArg (val_main_v18 (F := Ideal) x0 x1 x2) (lift_cls h i c)).trans (v18_apply x0 x1 x2 i c)
    rw [e]
    rfl
  rw [val_main_call0_v2_apply, e0]
  exact max_eq_right ((Finset.le_fold_max _).mpr (Or.inl le_rfl))

/-- An entry of the logits less its row's maximum. -/
private theorem shifted_apply (x0 : (⟨S32768x512, .f32⟩ : BufTy).Contents (Elt Ideal)) (x1 : (⟨S2048x512, .f32⟩ : BufTy).Contents (Elt Ideal)) (x2 : (⟨S1000x2048, .f32⟩ : BufTy).Contents (Elt Ideal))
    (i : Fin 32768) (c : Fin 1000) :
    val_main_call0_v5 (F := Ideal) x0 x1 x2 (ix2 i c)
      = Cert.Spec.logit x0 x1 x2 i c - Cert.Spec.rowTop (Cert.Spec.logit x0 x1 x2 i) := by
  rw [val_main_call0_v5_apply, val_main_call0_v4_apply, val_main_call0_v3_apply, e_top, top_apply, v18_apply]
  rfl

/-- The logarithm of the row's sum of exponentials. -/
private theorem logsum_apply (x0 : (⟨S32768x512, .f32⟩ : BufTy).Contents (Elt Ideal)) (x1 : (⟨S2048x512, .f32⟩ : BufTy).Contents (Elt Ideal)) (x2 : (⟨S1000x2048, .f32⟩ : BufTy).Contents (Elt Ideal))
    (i : Fin 32768) (c : Fin 1000) :
    val_main_call0_v10 (F := Ideal) x0 x1 x2 (ix2 i c)
      = Ideal.log (∑ c' : Fin 1000, Ideal.exp (Cert.Spec.logit x0 x1 x2 i c' - Cert.Spec.rowTop (Cert.Spec.logit x0 x1 x2 i))) := by
  rw [val_main_call0_v10_apply, val_main_call0_v9_apply, val_main_call0_v8_apply, val_main_call0_v7_apply,
    val_main_call0_cst_1_apply]
  simp only [val_main_call0_v6_apply, e_sum, shifted_apply, Ideal.hostUnary_exp_def, Ideal.hostUnary_log_def,
    Ideal.ofBits_def, Ideal.ofBits_zero_f32, zero_add]

/-- The reference's log-softmax at (i, c). -/
theorem v19_apply (x0 : (⟨S32768x512, .f32⟩ : BufTy).Contents (Elt Ideal)) (x1 : (⟨S2048x512, .f32⟩ : BufTy).Contents (Elt Ideal)) (x2 : (⟨S1000x2048, .f32⟩ : BufTy).Contents (Elt Ideal))
    (i : Fin 32768) (c : Fin 1000) :
    val_main_v19 (F := Ideal) x0 x1 x2 (ix2 i c) = Cert.Spec.rowLogp (Cert.Spec.logit x0 x1 x2 i) c := by
  rw [val_main_v19_apply, shifted_apply, logsum_apply]
  rfl

end Cert.ReferenceIdeal.RefValue

end
-- ==== Proof.RefValue.lean ====
/-
  The reference's result is the loss over all rows at once: the label's log-probability gathered along the class axis
  (for a label in range the index is kept as it is and the in-range test passes), the two minima as folds from +∞,
  then the sums, the quotients and the weighted sum.
-/
import proofs.«418528_j74517682585681_2_alg».proof.Proof.RefDist
import Idealize.ShloMosaic.Lib.StableHlo.Predicate

noncomputable section

open scoped BigOperators

namespace Cert.ReferenceIdeal.RefValue

open Idealize.ShloMosaic Idealize.ShloMosaic.ValueIdx
open Cert.ReferenceIdeal Cert.ReferenceIdeal.Gen Cert.ReferenceIdeal.ReadP

/-! ## The label column -/

/-- The label column [32768, 1] at (i, 0) is the label of row i. -/
theorem v20_at (x3 : (⟨S32768, .i32⟩ : BufTy).Contents (Elt Ideal)) (i : Fin 32768) :
    val_main_v20 (F := Ideal) x3 (ix2 i (0 : Fin 1)) = x3 (ix1 i) := by
  rw [val_main_v20_apply]
  refine congrArg x3 (funext fun a => ?_)
  match a with
  | ⟨0, _⟩ => rfl

/-- A word that is the number of a class is not negative: the comparison with zero fails. -/
theorem slt_zero_of_class (c : Fin 1000) : IntOp.cmpi .slt (BitVec.ofNat 32 c.val) 0#32 = 0#1 := by
  apply eq_zero_of_ne_one
  intro hh
  have hc := c.isLt
  have := (StableHlo.Predicate.slt_iff_toNat (a := BitVec.ofNat 32 c.val) (b := 0#32)
    (by rw [BitVec.toNat_ofNat]; omega) (by decide)).1 hh
  rw [BitVec.toNat_ofNat] at this
  simp at this

/-- The index after the replacement of negative labels: a class's number is kept. -/
theorem v4_at (x3 : (⟨S32768, .i32⟩ : BufTy).Contents (Elt Ideal)) (i : Fin 32768) (c : Fin 1000)
    (h : x3 (ix1 i) = BitVec.ofNat 32 c.val) :
    val_main_call1_v4 (F := Ideal) x3 (ix2 i (0 : Fin 1)) = BitVec.ofNat 32 c.val := by
  rw [val_main_call1_v4_apply, val_main_call1_v1_apply, v20_at, val_main_call1_v0_apply, val_main_call1_c_apply, h,
    slt_zero_of_class, select_zero]

/-- The reshaped index [32768, 1, 1] at (i, 0, 0). -/
theorem v5_at (x3 : (⟨S32768, .i32⟩ : BufTy).Contents (Elt Ideal)) (i : Fin 32768) (c : Fin 1000)
    (h : x3 (ix1 i) = BitVec.ofNat 32 c.val) :
    val_main_call1_v5 (F := Ideal) x3 (ix3 i (0 : Fin 1) (0 : Fin 1)) = BitVec.ofNat 32 c.val := by
  rw [val_main_call1_v5_apply, ← v4_at x3 i c h]
  refine congrArg _ (funext fun a => ?_)
  match a with
  | ⟨0, _⟩ => exact Fin.ext (by show ((i.val * 1 + 0) * 1 + 0) / 1 = i.val; omega)
  | ⟨1, _⟩ => rfl

/-! ## The in-range test -/

/-- A left fold by `and` from 1 over words that are all 1 is 1. -/
private theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    have e : IntOp.andi 1#1 1#1 = 1#1 := by decide
    rw [e]
    exact foldl_andi_ones f l (fun n hn => h n (List.mem_cons_of_mem _ hn))

/-- Every index of [32768, 1, 1] is (i, 0, 0). -/
private theorem idx3_eq (j : S32768x1x1.Idx) : ∃ i : Fin 32768, j = ix3 i (0 : Fin 1) (0 : Fin 1) := by
  have h1 : (j 1).val < 1 := (j 1).isLt
  have h2 : (j 2).val < 1 := (j 2).isLt
  refine ⟨j 0, funext fun a => ?_⟩
  match a with
  | ⟨0, _⟩ => rfl
  | ⟨1, _⟩ => exact Fin.ext (by show (j 1).val = 0; omega)
  | ⟨2, _⟩ => exact Fin.ext (by show (j 2).val = 0; omega)

/-- A class's number lies between 0 and 999: both comparisons hold. -/
theorem in_range_of_class (c : Fin 1000) :
    IntOp.andi (IntOp.cmpi .sge (BitVec.ofNat 32 c.val) 0#32) (IntOp.cmpi .sle (BitVec.ofNat 32 c.val) 999#32) = 1#1 := by
  have hc := c.isLt
  have hn : (BitVec.ofNat 32 c.val).toNat = c.val := by rw [BitVec.toNat_ofNat]; omega
  have h1 : IntOp.cmpi .sge (BitVec.ofNat 32 c.val) 0#32 = 1#1 :=
    (StableHlo.Predicate.sge_iff_toNat (a := BitVec.ofNat 32 c.val) (b := 0#32) (by rw [hn]; omega) (by decide)).2 (by simp)
  have h2 : IntOp.cmpi .sle (BitVec.ofNat 32 c.val) 999#32 = 1#1 :=
    (StableHlo.Predicate.sle_iff_toNat (a := BitVec.ofNat 32 c.val) (b := 999#32) (by rw [hn]; omega) (by decide)).2
      (by rw [hn]; show c.val ≤ 999; omega)
  rw [h1, h2]; decide

/-- The in-range test is 1 at every index. -/
theorem v11_at (x3 : (⟨S32768, .i32⟩ : BufTy).Contents (Elt Ideal))
    (hy : ∀ i : Fin 32768, ∃ c : Fin 1000, x3 (ix1 i) = BitVec.ofNat 32 c.val) (j : S32768x1x1.Idx) :
    val_main_call1_v11 (F := Ideal) x3 j = 1#1 := by
  obtain ⟨i, rfl⟩ := idx3_eq j
  obtain ⟨c, hc⟩ := hy i
  rw [val_main_call1_v11_apply, val_main_call1_v7_apply, val_main_call1_v10_apply, v5_at x3 i c hc,
    val_main_call1_v6_apply, val_main_call1_c_2_apply, val_main_call1_v9_apply, val_main_call1_v8_apply,
    val_main_call1_c_1_apply]
  exact in_range_of_class c

/-- The test and-reduced over the unit axis is 1 everywhere. -/
theorem v12_at (x3 : (⟨S32768, .i32⟩ : BufTy).Contents (Elt Ideal))
    (hy : ∀ i : Fin 32768, ∃ c : Fin 1000, x3 (ix1 i) = BitVec.ofNat 32 c.val) (j : S32768x1.Idx) :
    val_main_call1_v12 (F := Ideal) x3 j = 1#1 := by
  unfold val_main_call1_v12
  rw [Host.reduce_eq_foldl, val_main_call1_c_3_apply]
  exact foldl_andi_ones _ _ (fun n _ => v11_at x3 hy n)

/-! ## The gather along the class axis -/

private theorem ax0_mem (h : 0 < 2) : (⟨0, h⟩ : Fin 2) ∈ ([0] : List (Fin 2)) := by revert h; decide
private theorem ax1_mem (h : 1 < 2) : (⟨1, h⟩ : Fin 2) ∈ ([1] : List (Fin 2)) := by revert h; decide
private theorem ax1_not_mem (h : 1 < 2) : (⟨1, h⟩ : Fin 2) ∉ ([0] : List (Fin 2)) := by revert h; decide

/-- The gather read at (i, 0): the operand's row i at the start index `idx[i, 0, 0]`, read signed and clamped into
    [0, 999]. -/
theorem gather_at {α : Type} (x : S32768x1000.Idx → α) (idx : IVec S32768x1x1 32) (i : Fin 32768) :
    Host.gather gather_S32768x1000_S32768x1x1_S32768x1_n_1_0_0_1_2_11 x idx (ix2 i (0 : Fin 1))
      = x (ix2 i (⟨min (idx (ix3 i (0 : Fin 1) (0 : Fin 1))).toInt.toNat 999, by omega⟩ : Fin 1000)) := by
  unfold Host.gather
  congr 1
  funext a
  refine Fin.ext ?_
  show gather_S32768x1000_S32768x1x1_S32768x1_n_1_0_0_1_2_11.start (ix2 i (0 : Fin 1)) idx a
      + gather_S32768x1000_S32768x1x1_S32768x1_n_1_0_0_1_2_11.batchCoord (ix2 i (0 : Fin 1)) a
      + gather_S32768x1000_S32768x1x1_S32768x1_n_1_0_0_1_2_11.offCoord (ix2 i (0 : Fin 1)) a = _
  -- no offset axes: axis 0 is batching, axis 1 collapsed
  have hoff : gather_S32768x1000_S32768x1x1_S32768x1_n_1_0_0_1_2_11.offCoord (ix2 i (0 : Fin 1)) a = 0 := by
    refine GatherDims.offCoord_eq_zero _ _ _ (fun h => ?_)
    have hk := (GatherDims.mem_sKept _ _).mp h
    match a, hk with
    | ⟨0, h0⟩, hk => exact hk.2 (ax0_mem h0)
    | ⟨1, h1⟩, hk => exact hk.1 (ax1_mem h1)
  rw [hoff, Nat.add_zero]
  match a with
  | ⟨0, h0⟩ =>
    -- the batching axis: start 0, the result's own row
    rw [GatherDims.start_batching _ _ _ _ (ax0_mem h0), Nat.zero_add]
    unfold GatherDims.batchCoord
    rw [dif_pos (show (⟨0, h0⟩ : Fin S32768x1000.rank) ∈ gather_S32768x1000_S32768x1x1_S32768x1_n_1_0_0_1_2_11.operandBatchingDims
      from ax0_mem h0)]
    rfl
  | ⟨1, h1⟩ =>
    -- the collapsed axis: the clamped start index, nothing added
    rw [GatherDims.batchCoord_eq_zero _ _ _ (ax1_not_mem h1), Nat.add_zero]
    unfold GatherDims.start
    rw [dif_pos (show (⟨1, h1⟩ : Fin S32768x1000.rank) ∈ gather_S32768x1000_S32768x1x1_S32768x1_n_1_0_0_1_2_11.startIndexMap
      from ax1_mem h1)]
    have hsi : gather_S32768x1000_S32768x1x1_S32768x1_n_1_0_0_1_2_11.siIdx (ix2 i (0 : Fin 1))
        ⟨List.idxOf (⟨1, h1⟩ : Fin 2) gather_S32768x1000_S32768x1x1_S32768x1_n_1_0_0_1_2_11.startIndexMap,
          List.idxOf_lt_length_iff.2 (ax1_mem h1)⟩ = ix3 i (0 : Fin 1) (0 : Fin 1) := by
      funext c; refine Fin.ext ?_
      match c with
      | ⟨0, _⟩ => rfl
      | ⟨1, _⟩ => rfl
      | ⟨2, _⟩ => rfl
    rw [hsi]
    rfl

/-- The gather at (i, 0) when the clamped start index is the class k. -/
theorem gather_at_class {α : Type} (x : S32768x1000.Idx → α) (idx : IVec S32768x1x1 32) (i : Fin 32768) (k : Fin 1000)
    (hk : min (idx (ix3 i (0 : Fin 1) (0 : Fin 1))).toInt.toNat 999 = k.val) :
    Host.gather gather_S32768x1000_S32768x1x1_S32768x1_n_1_0_0_1_2_11 x idx (ix2 i (0 : Fin 1)) = x (ix2 i k) :=
  (gather_at x idx i).trans (congrArg (fun k' : Fin 1000 => x (ix2 i k')) (Fin.ext hk))

/-! ## The picked log-probability -/

/-- Two classes with the same 32-bit number are the same class. -/
private theorem ofNat_class_inj (c c' : Fin 1000) (h : BitVec.ofNat 32 c'.val = BitVec.ofNat 32 c.val) : c' = c := by
  have e := congrArg BitVec.toNat h
  rw [BitVec.toNat_ofNat, BitVec.toNat_ofNat] at e
  have h1 := c.isLt
  have h2 := c'.isLt
  exact Fin.ext (by omega)

/-- The sum that picks the label's log-probability has one term that is not zero: the label's own. -/
theorem rowPick_class (r : Fin 1000 → EReal) (c : Fin 1000) :
    Cert.Spec.rowPick r (BitVec.ofNat 32 c.val) = Cert.Spec.rowLogp r c := by
  unfold Cert.Spec.rowPick
  rw [Finset.sum_eq_single c]
  · rw [if_pos rfl]
  · intro c' _ hne
    rw [if_neg (fun h => hne (ofNat_class_inj c c' h))]
    exact Ideal.ofBits_zero_f32
  · intro h
    exact absurd (Finset.mem_univ c) h

/-- The reference's gathered column at (i, 0) is the log-probability of row i's label. -/
theorem v21_at (x0 : (⟨S32768x512, .f32⟩ : BufTy).Contents (Elt Ideal)) (x1 : (⟨S2048x512, .f32⟩ : BufTy).Contents (Elt Ideal))
    (x2 : (⟨S1000x2048, .f32⟩ : BufTy).Contents (Elt Ideal)) (x3 : (⟨S32768, .i32⟩ : BufTy).Contents (Elt Ideal))
    (hy : ∀ i : Fin 32768, ∃ c : Fin 1000, x3 (ix1 i) = BitVec.ofNat 32 c.val) (i : Fin 32768) :
    val_main_v21 (F := Ideal) x0 x1 x2 x3 (ix2 i (0 : Fin 1)) = Cert.Spec.picked x0 x1 x2 x3 i := by
  obtain ⟨c, hc⟩ := hy i
  have hcl := c.isLt
  rw [val_main_v21_apply, v12_at x3 hy, select_one]
  unfold val_main_call1_v13
  rw [gather_at_class _ _ i c (by
    rw [v5_at x3 i c hc, StableHlo.Predicate.toInt_ofNat_small c.val (by omega)]
    omega), v19_apply]
  unfold Cert.Spec.picked
  rw [hc, rowPick_class]

/-! ## The two minima -/

private theorem red_d0 : S32768x2048.Reduces [0] S2048 := by decide
private theorem red_d1 : S32768x2048.Reduces [1] S32768 := by decide

/-- Column p's index with the row coordinate i put back is (i, p). -/
private theorem lift_col (p : Fin 2048) (i : Fin 32768) : red_d0.lift (ix1 p) i = ix2 i p :=
  funext fun c => Fin.ext (by match c with | ⟨0, _⟩ => rfl | ⟨1, _⟩ => rfl)

/-- Row i's index with the column coordinate p put back is (i, p). -/
private theorem lift_row (i : Fin 32768) (p : Fin 2048) : red_d1.lift (ix1 i) p = ix2 i p :=
  funext fun c => Fin.ext (by match c with | ⟨0, _⟩ => rfl | ⟨1, _⟩ => rfl)

/-- The minimum over the rows, at prototype p. -/
theorem v25_at (x0 : (⟨S32768x512, .f32⟩ : BufTy).Contents (Elt Ideal)) (x1 : (⟨S2048x512, .f32⟩ : BufTy).Contents (Elt Ideal))
    (p : Fin 2048) : val_main_v25 (F := Ideal) x0 x1 (ix1 p) = Cert.Spec.colMin x0 x1 p := by
  unfold val_main_v25
  refine (Host.reduce_eq_fold_single (FloatOps.minimumf (F := Ideal) (φ := .f32)) _ _ reducesTo_S32768x2048_S2048_d0
    red_d0 h_S_ (ix1 p)).trans ?_
  have e : (val_main_v16 (F := Ideal) x0 x1 ∘ red_d0.lift (ix1 p)) = fun i : Fin 32768 => Cert.Spec.dist x0 x1 i p :=
    funext fun i => (congrArg (val_main_v16 (F := Ideal) x0 x1) (lift_col p i)).trans (v16_apply x0 x1 i p)
  rw [e]
  rfl

/-- The minimum over the prototypes, at row i. -/
theorem v28_at (x0 : (⟨S32768x512, .f32⟩ : BufTy).Contents (Elt Ideal)) (x1 : (⟨S2048x512, .f32⟩ : BufTy).Contents (Elt Ideal))
    (i : Fin 32768) : val_main_v28 (F := Ideal) x0 x1 (ix1 i) = Cert.Spec.rowMin x0 x1 i := by
  unfold val_main_v28
  refine (Host.reduce_eq_fold_single (FloatOps.minimumf (F := Ideal) (φ := .f32)) _ _ reducesTo_S32768x2048_S32768_d1
    red_d1 h_S_ (ix1 i)).trans ?_
  have e : (val_main_v16 (F := Ideal) x0 x1 ∘ red_d1.lift (ix1 i)) = fun p : Fin 2048 => Cert.Spec.dist x0 x1 i p :=
    funext fun p => (congrArg (val_main_v16 (F := Ideal) x0 x1) (lift_row i p)).trans (v16_apply x0 x1 i p)
  rw [e]
  rfl

/-! ## The sums, the quotients and the weighted sum -/

/-- A rank-1 index set is its one coordinate range. -/
private def idxEquiv1 {n : Nat} : (⟨1, ![n]⟩ : Shape).Idx ≃ Fin n where
  toFun j := j 0
  invFun := ix1
  left_inv j := (eq_ix1 j).symm
  right_inv _ := rfl

/-- A sum over a rank-1 index set is the sum over its coordinate. -/
private theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- A sum over the index set of an [n, 1] column is the sum over its rows. -/
private theorem sum_col {M : Type*} [AddCommMonoid M] {n : Nat} (f : (⟨2, ![n, 1]⟩ : Shape).Idx → M) :
    ∑ j, f j = ∑ a : Fin n, f (ix2 a (0 : Fin 1)) := by
  rw [sum_idx2]
  exact Finset.sum_congr rfl fun a _ => Fin.sum_univ_one _

theorem sum_v21 (x0 : (⟨S32768x512, .f32⟩ : BufTy).Contents (Elt Ideal)) (x1 : (⟨S2048x512, .f32⟩ : BufTy).Contents (Elt Ideal))
    (x2 : (⟨S1000x2048, .f32⟩ : BufTy).Contents (Elt Ideal)) (x3 : (⟨S32768, .i32⟩ : BufTy).Contents (Elt Ideal))
    (hy : ∀ i : Fin 32768, ∃ c : Fin 1000, x3 (ix1 i) = BitVec.ofNat 32 c.val) :
    ∑ j : S32768x1.Idx, val_main_v21 (F := Ideal) x0 x1 x2 x3 j = ∑ i : Fin 32768, Cert.Spec.picked x0 x1 x2 x3 i := by
  rw [sum_col]
  exact Finset.sum_congr rfl fun i _ => v21_at x0 x1 x2 x3 hy i

theorem sum_v25 (x0 : (⟨S32768x512, .f32⟩ : BufTy).Contents (Elt Ideal)) (x1 : (⟨S2048x512, .f32⟩ : BufTy).Contents (Elt Ideal)) :
    ∑ j : S2048.Idx, val_main_v25 (F := Ideal) x0 x1 j = ∑ m : Fin 2048, Cert.Spec.colMin x0 x1 m := by
  rw [sum_idx1]
  exact Finset.sum_congr rfl fun p _ => v25_at x0 x1 p

theorem sum_v28 (x0 : (⟨S32768x512, .f32⟩ : BufTy).Contents (Elt Ideal)) (x1 : (⟨S2048x512, .f32⟩ : BufTy).Contents (Elt Ideal)) :
    ∑ j : S32768.Idx, val_main_v28 (F := Ideal) x0 x1 j = ∑ i : Fin 32768, Cert.Spec.rowMin x0 x1 i := by
  rw [sum_idx1]
  exact Finset.sum_congr rfl fun i _ => v28_at x0 x1 i

/-- With every label the number of a class, the reference's result is the specification's. -/
theorem ref_eq (x0 : (⟨S32768x512, .f32⟩ : BufTy).Contents (Elt Ideal)) (x1 : (⟨S2048x512, .f32⟩ : BufTy).Contents (Elt Ideal)) (x2 : (⟨S1000x2048, .f32⟩ : BufTy).Contents (Elt Ideal))
    (x3 : (⟨S32768, .i32⟩ : BufTy).Contents (Elt Ideal)) (x4 x5 : (⟨S_, .f32⟩ : BufTy).Contents (Elt Ideal))
    (hy : ∀ i : Fin 32768, ∃ c : Fin 1000, x3 (ix1 i) = BitVec.ofNat 32 c.val) :
    val_main_v34 (F := Ideal) x0 x1 x2 x3 x4 x5 = fun _ => Cert.Spec.refResult x0 x1 x2 x3 (x4 ix0) (x5 ix0) := by
  funext j
  rw [val_main_v34_apply, val_main_v32_apply, val_main_v33_apply, val_main_v24_apply, val_main_v31_apply,
    val_main_v23_apply, val_main_v27_apply, val_main_v30_apply, val_main_v22_apply, val_main_v26_apply,
    val_main_v29_apply, sum_v21 x0 x1 x2 x3 hy, sum_v25, sum_v28, eq_ix0 j]
  rfl

end Cert.ReferenceIdeal.RefValue

end
-- ==== Proof.PreFacts.lean ====
/-
  What the precondition says of the argument arrays: every entry of the three float arrays is a real number, and every
  label is the number of one of the 1000 classes.
-/
import proofs.«418528_j74517682585681_2_alg».proof.Pre_finite_inputs
import proofs.«418528_j74517682585681_2_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx
open Cert.Pre_finite_inputs

attribute [local instance] Cert.Pre_finite_inputs.Gen.facts

/-- The scalar shape has one index. -/
instance subsingleton_scalar_idx : Subsingleton S_.Idx := ⟨fun a b => funext fun d => d.elim0⟩

/-- The f32 word 0x7F800000 denotes +∞. -/
theorem ofBits_posInf : Ideal.ofBits .f32 0x7F800000#32 = (⊤ : EReal) := by simp [Ideal.ofBits, Ideal.ieee]

/-- An extended real whose absolute value max x (-x) is below +∞ is a real number. -/
theorem real_of_abs_lt (x : EReal) (h : Ideal.cmp .olt (max x (-x)) (Ideal.ofBits .f32 0x7F800000#32) = 1#1) :
    ∃ r : ℝ, x = (r : EReal) := by
  rw [ofBits_posInf] at h
  induction x using EReal.rec with
  | bot => simp [Ideal.cmp] at h
  | coe r => exact ⟨r, rfl⟩
  | top => simp [Ideal.cmp] at h

/-- jnp.all(|x| < +∞), read back at one entry: the entry is a real number. -/
theorem all_real {s : Shape} {axes : List (Fin s.rank)} (x : FVec Ideal s .f32)
    (hb : S_.BroadcastsInDim s (![] : Fin 0 → Fin s.rank)) (hr : s.ReducesTo axes S_) (hu : 0 < S_.numel) (init : IVec S_ 1)
    (h : Host.reduce IntOp.andi
        (cmpf .olt (Host.absf x) (broadcastInDim s ![] hb (constant (F := Ideal) S_ .f32 0x7F800000#32))) init hr hu ix0 = 1#1)
    (i : s.Idx) : ∃ r : ℝ, x i = (r : EReal) :=
  real_of_abs_lt (x i) (Host.reduce_andi_all _ init hr hu ix0 h i)

/-- A 32-bit word that is at least 0 and below 1000, both read signed, is the number of one of the 1000 classes. -/
theorem label_of (y : BitVec 32) (h0 : IntOp.cmpi .sge y 0#32 = 1#1) (h1 : IntOp.cmpi .slt y 1000#32 = 1#1) :
    ∃ c : Fin 1000, y = BitVec.ofNat 32 c.val := by
  unfold IntOp.cmpi at h0 h1
  rw [StableHlo.Predicate.ofBool_eq_one_iff] at h0 h1
  simp only [BitVec.slt, BitVec.sle, decide_eq_true_eq] at h0 h1
  have h32 := y.isLt
  have hy : y.toNat < 1000 := by
    unfold BitVec.toInt at h0 h1
    split at h1 <;> simp at h0 h1 <;> omega
  exact ⟨⟨y.toNat, hy⟩, BitVec.eq_of_toNat_eq (by rw [BitVec.toNat_ofNat]; exact (Nat.mod_eq_of_lt h32).symm)⟩

/-- From the precondition: real entries, labels in range. -/
theorem of_pre (x0 : FVec Ideal S32768x512 .f32) (x1 : FVec Ideal S2048x512 .f32) (x2 : FVec Ideal S1000x2048 .f32)
    (x3 : IVec S32768 32) (x4 x5 : FVec Ideal S_ .f32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ ∀ i : Fin 32768, ∃ c : Fin 1000, x3 (ix1 i) = BitVec.ofNat 32 c.val := by
  have e := congrFun h ix0
  dsimp only [Cert.Pre_finite_inputs.fn, Cert.Pre_finite_inputs.fn_part1] at e
  simp only [andi, IntOp.andi_eq_one] at e
  obtain ⟨⟨⟨⟨⟨h0, h1⟩, h2⟩, -⟩, -⟩, h3⟩ := e
  refine ⟨all_real x0 _ _ _ _ h0, all_real x1 _ _ _ _ h1, all_real x2 _ _ _ _ h2, fun i => ?_⟩
  obtain ⟨a, b⟩ := IntOp.andi_eq_one.1 (Host.reduce_andi_all _ _ _ _ ix0 h3 (ix1 i))
  exact label_of _ a b

end Cert.PreFacts

end
-- ==== Proof.LibPropagate.lean ====
/-
  Two finite contractions in either order, over the extended reals.

  Let H be a family indexed by N × E, d and Y families over N and ide a family over E, all with real entries.  Contracting H with
  the scaled family Y·d over N, scaling by ide, contracting with H over E and scaling by d gives, at i,

      (∑ e, H i e * ((∑ j, H j e * (Y j * d j)) * ide e)) * d i,

  and forming the kernel G i j = ∑ e, ((d i * H i e) * ide e) * (d j * H j e) first and then contracting it with Y gives

      ∑ j, G i j * Y j.

  The two are one number: distribute the outer factors into the inner sum, exchange the two finite sums, and compare the
  summands as products of the same six reals.  Distributivity of * over + fails at the infinities of the extended reals, so
  every entry is asked to be a real number; the identity is then the image of the identity over ℝ under the coercion, which
  commutes with *, + and finite sums.

  The file also regroups a sum of a·b terms into a blocks of b terms.
-/
import Mathlib.Data.EReal.Operations
import Mathlib.Algebra.BigOperators.Ring.Finset
import Mathlib.Algebra.BigOperators.Fin
import Mathlib.Logic.Equiv.Fin.Basic
import Mathlib.Tactic.Ring

open scoped BigOperators

namespace Cert.Lib.Propagate

/-! ### Real entries are closed under +, * and finite sums -/

/-- The sum of two extended reals that are real numbers is a real number. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two extended reals that are real numbers is a real number. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The coercion from ℝ commutes with a finite sum: by induction on the index set, one term at a time. -/
theorem coe_finsetSum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a finite set of extended reals that are all real numbers is a real number. -/
theorem finsetSum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finsetSum]; exact Finset.sum_congr rfl fun i _ => hg i⟩

/-- A sum over a finite type of extended reals that are all real numbers is a real number. -/
theorem sum_real {ι : Type} [Fintype ι] (f : ι → EReal) (hf : ∀ i, ∃ r : ℝ, f i = (r : EReal)) :
    ∃ r : ℝ, ∑ i, f i = (r : EReal) :=
  finsetSum_real Finset.univ f hf

/-! ### The two orders of contraction -/

section Propagate

variable {N E : Type} [Fintype N] [Fintype E]

/-- Over ℝ: scaling and contracting over N first and over E second equals contracting the kernel
    `∑ e, ((d i * H i e) * ide e) * (d j * H j e)` with `Y`.  Both sides are the double sum over (j, e) of the product
    of the six factors `d i, H i e, ide e, d j, H j e, Y j`. -/
theorem propagate_eq_real (h : N → E → ℝ) (δ : N → ℝ) (ε : E → ℝ) (y : N → ℝ) (i : N) :
    (∑ e, h i e * ((∑ j, h j e * (y j * δ j)) * ε e)) * δ i
      = ∑ j, (∑ e, ((δ i * h i e) * ε e) * (δ j * h j e)) * y j := by
  have hl : (∑ e, h i e * ((∑ j, h j e * (y j * δ j)) * ε e)) * δ i
      = ∑ e, ∑ j, δ i * h i e * ε e * (δ j * h j e) * y j := by
    rw [Finset.sum_mul]
    refine Finset.sum_congr rfl fun e _ => ?_
    rw [Finset.sum_mul, Finset.mul_sum, Finset.sum_mul]
    refine Finset.sum_congr rfl fun j _ => ?_
    ring
  have hr : (∑ j, (∑ e, ((δ i * h i e) * ε e) * (δ j * h j e)) * y j)
      = ∑ j, ∑ e, δ i * h i e * ε e * (δ j * h j e) * y j :=
    Finset.sum_congr rfl fun j _ => Finset.sum_mul _ _ _
  rw [hl, hr, Finset.sum_comm]

/-- Over the extended reals, with every entry a real number: the contraction over N first and E second, scaled by `ide`
    between and by `d` at both ends, equals the kernel `∑ e, ((d i * H i e) * ide e) * (d j * H j e)` contracted with `Y`.
    The real witnesses are chosen, the coercion is moved outside both sides, and the identity over ℝ closes it. -/
theorem propagate_eq (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    (∑ e, H i e * ((∑ j, H j e * (Y j * d j)) * ide e)) * d i
      = ∑ j, (∑ e, ((d i * H i e) * ide e) * (d j * H j e)) * Y j := by
  choose h hh using hH
  choose δ hδ using hd
  choose ε hε using hide
  choose y hy using hY
  have hl : (∑ e, H i e * ((∑ j, H j e * (Y j * d j)) * ide e)) * d i
      = (((∑ e, h i e * ((∑ j, h j e * (y j * δ j)) * ε e)) * δ i : ℝ) : EReal) := by
    simp only [hh, hδ, hε, hy, EReal.coe_mul, coe_finsetSum]
  have hr : (∑ j, (∑ e, ((d i * H i e) * ide e) * (d j * H j e)) * Y j)
      = ((∑ j, (∑ e, ((δ i * h i e) * ε e) * (δ j * h j e)) * y j : ℝ) : EReal) := by
    simp only [hh, hδ, hε, hy, EReal.coe_mul, coe_finsetSum]
  rw [hl, hr, propagate_eq_real]

/-- With every entry a real number, the propagated value is a real number: it is built from the entries by products and
    finite sums only. -/
theorem propagate_real (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    ∃ r : ℝ, (∑ e, H i e * ((∑ j, H j e * (Y j * d j)) * ide e)) * d i = (r : EReal) :=
  mul_real
    (sum_real _ fun e =>
      mul_real (hH i e) (mul_real (sum_real _ fun j => mul_real (hH j e) (mul_real (hY j) (hd j))) (hide e)))
    (hd i)

end Propagate

/-! ### A sum of a·b terms as a blocks of b -/

/-- Regrouping: the sum of `g` over the first `a * b` naturals is the sum over `a` consecutive blocks of `b` terms, block
    `t` holding the arguments `t * b + r` for `r < b`.  The pairs (t, r) and the naturals below `a * b` correspond by
    `(t, r) ↦ r + b * t`. -/
theorem sum_blocks {M : Type} [AddCommMonoid M] (a b : ℕ) (g : ℕ → M) :
    ∑ t : Fin a, ∑ r : Fin b, g (t.val * b + r.val) = ∑ j : Fin (a * b), g j.val := by
  rw [← Fintype.sum_prod_type', ← (finProdFinEquiv (m := a) (n := b)).sum_comp]
  refine Fintype.sum_congr _ _ fun p => ?_
  rw [finProdFinEquiv_apply_val, Nat.add_comm, Nat.mul_comm]

/-- The regrouping at 10000 = 25 · 400: 25 blocks of 400 consecutive terms. -/
theorem sum_blocks_25_400 {M : Type} [AddCommMonoid M] (g : ℕ → M) :
    (∑ t : Fin 25, ∑ r : Fin 400, g (t.val * 400 + r.val)) = ∑ j : Fin 10000, g j.val :=
  sum_blocks 25 400 g

end Cert.Lib.Propagate
-- ==== Proof.LibTileSum.lean ====
/-
  Sums over consecutive tiles, and a 0/1 factor in a product of extended reals.

  A kernel that sweeps an axis of T·S elements in S tiles of T produces a sum grouped by tile; a reference sums the
  axis in one go.  `sum_range_tiles` and `sum_fin_tiles` join the two groupings, in any commutative monoid (for the
  extended reals no finiteness is needed).  `indicator_mul` turns the product of a 0/1 factor with an extended real
  into a choice between that real and 0: what a one-hot matrix product contributes term by term.
-/
import Idealize.ShloMosaic.Lib.ValueIdx

noncomputable section

namespace Cert.Lib

/-- A 0/1 factor times an extended real x is x where the factor is 1 and 0 where it is 0 (0 · x = 0 also at ±∞). The
    two conditions may be spelt differently (`hpq`). -/
theorem indicator_mul {p q : Prop} [Decidable p] [Decidable q] (hpq : p ↔ q) (x : EReal) :
    (if p then (1 : EReal) else 0) * x = if q then x else 0 := by
  by_cases h : p
  · rw [if_pos h, if_pos (hpq.mp h), one_mul]
  · rw [if_neg h, if_neg (fun hq => h (hpq.mpr hq)), zero_mul]

/-- A sum over S consecutive stretches of T naturals each is the sum over the first T·S naturals. -/
theorem sum_range_tiles {M : Type*} [AddCommMonoid M] (T : ℕ) (H : ℕ → M) :
    ∀ S : ℕ, ∑ s ∈ Finset.range S, ∑ k ∈ Finset.range T, H (T * s + k) = ∑ e ∈ Finset.range (T * S), H e
  | 0 => by simp
  | S + 1 => by
    rw [Finset.sum_range_succ, sum_range_tiles T H S, Nat.mul_succ, Finset.sum_range_add]

/-- The same with the position inside a tile, and the position on the whole axis, as `Fin` indices: S tiles of T
    elements are the T·S elements. -/
theorem sum_fin_tiles {M : Type*} [AddCommMonoid M] (T S : ℕ) (H : ℕ → M) :
    ∑ s ∈ Finset.range S, ∑ k : Fin T, H (T * s + k.val) = ∑ e : Fin (T * S), H e.val := by
  rw [Fin.sum_univ_eq_sum_range H (T * S), ← sum_range_tiles T H S]
  refine Finset.sum_congr rfl fun s _ => ?_
  exact Fin.sum_univ_eq_sum_range (fun x => H (T * s + x)) T

end Cert.Lib

end
-- ==== Proof.Algebra.lean ====
/-
  The two ways of computing the loss agree when the float arrays hold real numbers: the running values over the two
  halves' tiles regroup into the sums and minima over all rows (addition and min on the extended reals are commutative
  and associative, and zero and +∞ are their neutral elements), and the class sum's sign moves across the sum because no
  picked log-probability is -∞ (each is built from real logits: a real less a real, less the log of a finite sum).
-/
import proofs.«418528_j74517682585681_2_alg».proof.Proof.Spec
import proofs.«418528_j74517682585681_2_alg».proof.Proof.LibPropagate
import proofs.«418528_j74517682585681_2_alg».proof.Proof.LibTileSum
import Idealize.ShloMosaic.PureOps.Ideal.Laws
import Mathlib.Data.EReal.Operations
import Mathlib.Data.Finset.Fold
import Mathlib.Algebra.BigOperators.Fin

noncomputable section

open scoped BigOperators

namespace Cert.Spec

open Idealize.ShloMosaic Idealize.ShloMosaic.ValueIdx

/-! ## The shared words as extended reals -/

theorem zero_eq : zero = 0 := by simp [Ideal.ofBits, Ideal.ieee]
theorem posInf_eq : posInf = ⊤ := by simp [Ideal.ofBits, Ideal.ieee]
theorem negInf_eq : negInf = ⊥ := by simp [Ideal.ofBits, Ideal.ieee]
theorem two_eq : two = ((2 : ℝ) : EReal) := by
  simp [Ideal.ofBits, Ideal.ieee]
  rw [← EReal.coe_mul]
  norm_num
theorem n32768_eq : n32768 = ((32768 : ℝ) : EReal) := by
  simp [Ideal.ofBits, Ideal.ieee]
  rw [← EReal.coe_mul]
  norm_num

/-! ## Real numbers among the extended reals -/

open Cert.Lib.Propagate in
/-- The difference of two real numbers is a real number. -/
theorem sub_real {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- An extended real that is neither infinity is a real number. -/
theorem real_of_ne {x : EReal} (h1 : x ≠ ⊥) (h2 : x ≠ ⊤) : ∃ r : ℝ, x = (r : EReal) :=
  ⟨x.toReal, (EReal.coe_toReal h2 h1).symm⟩

/-- A finite sum with no term -∞ is not -∞. -/
theorem sum_ne_bot {ι : Type} (s : Finset ι) (f : ι → EReal) (hf : ∀ i ∈ s, f i ≠ ⊥) : ∑ i ∈ s, f i ≠ ⊥ := by
  classical
  induction s using Finset.induction_on with
  | empty => simp
  | insert a s ha ih =>
    rw [Finset.sum_insert ha]
    exact EReal.add_ne_bot_iff.mpr
      ⟨hf a (Finset.mem_insert_self a s), ih fun i hi => hf i (Finset.mem_insert_of_mem hi)⟩

/-- The sign moves across a finite sum with no term -∞. -/
theorem neg_sum {ι : Type} (s : Finset ι) (f : ι → EReal) (hf : ∀ i ∈ s, f i ≠ ⊥) :
    -(∑ i ∈ s, f i) = ∑ i ∈ s, -(f i) := by
  classical
  induction s using Finset.induction_on with
  | empty => simp
  | insert a s ha ih =>
    have h1 := hf a (Finset.mem_insert_self a s)
    have h2 := sum_ne_bot s f fun i hi => hf i (Finset.mem_insert_of_mem hi)
    rw [Finset.sum_insert ha, Finset.sum_insert ha, EReal.neg_add (Or.inl h1) (Or.inr h2), sub_eq_add_neg,
      ih fun i hi => hf i (Finset.mem_insert_of_mem hi)]

/-! ## Running values that restart every 32 steps -/

/-- A running sum that restarts from zero every 32 steps holds, after step 32 k + j (j < 32), the terms
    32 k … 32 k + j. -/
theorem acc_sum (f g : ℕ → EReal) (h0 : f 0 = zero + g 0)
    (hs : ∀ n, f (n + 1) = if (n + 1) % 32 = 0 then zero + g (n + 1) else f n + g (n + 1)) (k : ℕ) :
    ∀ j n, j < 32 → n = 32 * k + j → f n = ∑ u ∈ Finset.range (j + 1), g (32 * k + u) := by
  intro j
  induction j with
  | zero =>
    intro n _ hn
    rw [Finset.sum_range_one, ← hn]
    cases n with
    | zero => rw [h0, zero_eq, zero_add]
    | succ n => rw [hs, if_pos (by omega), zero_eq, zero_add]
  | succ j ih =>
    intro n hj hn
    cases n with
    | zero => omega
    | succ n =>
      rw [hs, if_neg (by omega), ih n (by omega) (by omega), Finset.sum_range_succ _ (j + 1), hn]

/-- The two halves' sums of 32 terms are the sum of the 64 terms. -/
theorem two_halves (g : ℕ → EReal) :
    ∑ cc : Fin 2, ∑ u ∈ Finset.range 32, g (32 * cc.val + u) = ∑ t : Fin 64, g t.val := by
  have h : ∑ x ∈ Finset.range 64, g x = ∑ x ∈ Finset.range 32, g x + ∑ x ∈ Finset.range 32, g (32 + x) :=
    Finset.sum_range_add g 32 32
  rw [Fin.sum_univ_two, Fin.sum_univ_eq_sum_range g 64, h]
  simp

/-- Joined, the two halves' running sums hold all 64 terms. -/
theorem halves_sum (f g : ℕ → EReal) (h0 : f 0 = zero + g 0)
    (hs : ∀ n, f (n + 1) = if (n + 1) % 32 = 0 then zero + g (n + 1) else f n + g (n + 1)) :
    ∑ cc : Fin 2, f (32 * cc.val + 31) = ∑ t : Fin 64, g t.val := by
  rw [← two_halves]
  refine Fintype.sum_congr _ _ fun cc => ?_
  exact acc_sum f g h0 hs cc.val 31 _ (by omega) rfl

/-- A running minimum that restarts from +∞ every 32 steps lies, after step 32 k + j (j < 32), above exactly the lower
    bounds of the terms 32 k … 32 k + j. -/
theorem le_acc_min (f g : ℕ → EReal) (h0 : f 0 = min posInf (g 0))
    (hs : ∀ n, f (n + 1) = if (n + 1) % 32 = 0 then min posInf (g (n + 1)) else min (f n) (g (n + 1)))
    (c : EReal) (k : ℕ) :
    ∀ j n, j < 32 → n = 32 * k + j → (c ≤ f n ↔ ∀ u, u < j + 1 → c ≤ g (32 * k + u)) := by
  intro j
  induction j with
  | zero =>
    intro n _ hn
    have key : (∀ u, u < 0 + 1 → c ≤ g (32 * k + u)) ↔ c ≤ g n := by
      rw [hn]
      constructor
      · intro h; exact h 0 (by omega)
      · intro h u hu; obtain rfl : u = 0 := by omega
        exact h
    rw [key]
    cases n with
    | zero => rw [h0, le_min_iff, posInf_eq]; exact ⟨fun h => h.2, fun h => ⟨le_top, h⟩⟩
    | succ n => rw [hs, if_pos (by omega), le_min_iff, posInf_eq]; exact ⟨fun h => h.2, fun h => ⟨le_top, h⟩⟩
  | succ j ih =>
    intro n hj hn
    cases n with
    | zero => omega
    | succ n =>
      rw [hs, if_neg (by omega), le_min_iff, ih n (by omega) (by omega), Nat.forall_lt_succ_right (n := j + 1), hn]

/-- The 64 tiles of 512 rows are the 32768 rows. -/
theorem sum_tiles_rows (F : Fin 32768 → EReal) :
    ∑ t : Fin 64, ∑ r : Fin 512, F (rowOf t r) = ∑ i : Fin 32768, F i := by
  obtain ⟨G, hG⟩ : ∃ G : ℕ → EReal, ∀ n (h : n < 32768), G n = F ⟨n, h⟩ :=
    ⟨fun n => if h : n < 32768 then F ⟨n, h⟩ else 0, fun n h => dif_pos h⟩
  have e1 : ∀ (t : Fin 64) (r : Fin 512), F (rowOf t r) = G (t.val * 512 + r.val) := fun t r => (hG _ _).symm
  have e2 : ∀ j : Fin 32768, G j.val = F j := fun j => hG _ j.isLt
  calc ∑ t : Fin 64, ∑ r : Fin 512, F (rowOf t r)
      = ∑ t : Fin 64, ∑ r : Fin 512, G (t.val * 512 + r.val) :=
        Fintype.sum_congr _ _ fun t => Fintype.sum_congr _ _ fun r => e1 t r
    _ = ∑ j : Fin 32768, G j.val := Cert.Lib.Propagate.sum_blocks 64 512 G
    _ = ∑ i : Fin 32768, F i := Fintype.sum_congr _ _ e2

/-! ## Every picked log-probability is above -∞ -/

section Arrays

variable (X : (⟨2, ![32768, 512]⟩ : Shape).Idx → EReal) (P : (⟨2, ![2048, 512]⟩ : Shape).Idx → EReal)
  (W : (⟨2, ![1000, 2048]⟩ : Shape).Idx → EReal) (Y : (⟨1, ![32768]⟩ : Shape).Idx → BitVec 32)

open Cert.Lib.Propagate in
/-- With real entries a distance is a real number: the square root of the larger of a real number and zero. -/
theorem dist_real (hX : ∀ i, ∃ r : ℝ, X i = (r : EReal)) (hP : ∀ i, ∃ r : ℝ, P i = (r : EReal))
    (i : Fin 32768) (m : Fin 2048) : ∃ r : ℝ, dist X P i m = (r : EReal) := by
  have h1 : ∃ r : ℝ, (sqX X i + sqP P m) - two * dotXP X P i m = (r : EReal) :=
    sub_real
      (add_real (sum_real _ fun k => mul_real (hX _) (hX _)) (sum_real _ fun k => mul_real (hP _) (hP _)))
      (mul_real ⟨2, two_eq⟩ (sum_real _ fun k => mul_real (hX _) (hP _)))
  obtain ⟨a, ha⟩ := h1
  refine ⟨Real.sqrt (max a 0), ?_⟩
  have hmax : max (a : EReal) ((0 : ℝ) : EReal) = ((max a 0 : ℝ) : EReal) :=
    (EReal.coe_strictMono.monotone.map_max).symm
  rw [dist, ha, zero_eq, ← EReal.coe_zero, hmax, Ideal.sqrt_coe, if_neg (not_lt.mpr (le_max_right a 0))]

open Cert.Lib.Propagate in
/-- With real entries a logit is a real number. -/
theorem logit_real (hX : ∀ i, ∃ r : ℝ, X i = (r : EReal)) (hP : ∀ i, ∃ r : ℝ, P i = (r : EReal))
    (hW : ∀ i, ∃ r : ℝ, W i = (r : EReal)) (i : Fin 32768) (c : Fin 1000) :
    ∃ r : ℝ, logit X P W i c = (r : EReal) :=
  sum_real _ fun m => mul_real (dist_real X P hX hP i m) (hW _)

end Arrays

/-- The maximum of a row of real numbers is a real number: it is at least the first entry and below +∞. -/
theorem rowTop_real (r : Fin 1000 → EReal) (hr : ∀ c, ∃ a : ℝ, r c = (a : EReal)) :
    ∃ a : ℝ, rowTop r = (a : EReal) := by
  refine real_of_ne ?_ ?_
  · obtain ⟨a, ha⟩ := hr 0
    have h : r 0 ≤ rowTop r := by
      rw [rowTop]
      exact (Finset.le_fold_max _).mpr (Or.inr ⟨0, Finset.mem_univ _, le_rfl⟩)
    intro hb
    rw [hb, ha] at h
    exact EReal.coe_ne_bot a (le_bot_iff.mp h)
  · have h : rowTop r < ⊤ := by
      rw [rowTop, Finset.fold_max_lt, negInf_eq]
      refine ⟨bot_lt_top, fun c _ => ?_⟩
      obtain ⟨a, ha⟩ := hr c
      rw [ha]
      exact EReal.coe_lt_top a
    exact h.ne

open Cert.Lib.Propagate in
/-- The log-softmax of a row of real numbers is above -∞: a real number less the logarithm of a real number, and that
    logarithm is a real number or -∞. -/
theorem rowLogp_ne_bot (r : Fin 1000 → EReal) (hr : ∀ c, ∃ a : ℝ, r c = (a : EReal)) (c : Fin 1000) :
    rowLogp r c ≠ ⊥ := by
  obtain ⟨t, ht⟩ := rowTop_real r hr
  have hs : ∃ s : ℝ, ∑ c' : Fin 1000, Ideal.exp (r c' - rowTop r) = (s : EReal) :=
    sum_real _ fun c' => by
      obtain ⟨a, ha⟩ := hr c'
      exact ⟨Real.exp (a - t), by rw [ha, ht, ← EReal.coe_sub, Ideal.exp_coe]⟩
  obtain ⟨s, hs⟩ := hs
  obtain ⟨a, ha⟩ := hr c
  rw [rowLogp, hs, ha, ht, ← EReal.coe_sub, Ideal.log_coe]
  split
  · rw [EReal.coe_sub_bot]
    exact top_ne_bot
  · rw [← EReal.coe_sub]
    exact EReal.coe_ne_bot _

/-- The picked entry of the log-softmax of a row of real numbers is above -∞. -/
theorem rowPick_ne_bot (r : Fin 1000 → EReal) (hr : ∀ c, ∃ a : ℝ, r c = (a : EReal)) (y : BitVec 32) :
    rowPick r y ≠ ⊥ := by
  rw [rowPick]
  refine sum_ne_bot _ _ fun c _ => ?_
  split
  · exact rowLogp_ne_bot r hr c
  · rw [zero_eq]
    exact EReal.coe_ne_bot 0

/-! ## The three components, and the result -/

section Arrays

variable (X : (⟨2, ![32768, 512]⟩ : Shape).Idx → EReal) (P : (⟨2, ![2048, 512]⟩ : Shape).Idx → EReal)
  (W : (⟨2, ![1000, 2048]⟩ : Shape).Idx → EReal) (Y : (⟨1, ![32768]⟩ : Shape).Idx → BitVec 32)

/-- The two halves' running sums of row minima, joined, are the sum of all rows' minima. -/
theorem r2_eq : ∑ cc : Fin 2, accR2 X P (32 * cc.val + 31) = ∑ i : Fin 32768, rowMin X P i := by
  rw [halves_sum (accR2 X P) (tileR2N X P) rfl (fun n => rfl)]
  refine Eq.trans ?_ (sum_tiles_rows (rowMin X P))
  exact Fintype.sum_congr _ _ fun t => dif_pos t.isLt

/-- The two halves' running class sums, joined, are the sum of all rows' picked log-probabilities with the sign
    changed: each tile adds the negative of its rows' sum, and the sign moves across the sums because no term is -∞. -/
theorem class_sum_eq (hpick : ∀ i, picked X P W Y i ≠ ⊥) :
    ∑ cc : Fin 2, accClass X P W Y (32 * cc.val + 31) = -(∑ i : Fin 32768, picked X P W Y i) := by
  rw [halves_sum (accClass X P W Y) (tileClassN X P W Y) rfl (fun n => rfl), ← sum_tiles_rows (picked X P W Y),
    neg_sum _ _ fun t _ => sum_ne_bot _ _ fun r _ => hpick _]
  refine Fintype.sum_congr _ _ fun t => ?_
  rw [tileClassN, dif_pos t.isLt, tileClass, zero_eq, sub_eq_add_neg, zero_add]

/-- The two halves' running column minima, joined, are the minimum over all rows: both sides have the same lower
    bounds, those of every row's distance. -/
theorem r1_eq (m : Fin 2048) :
    (Finset.univ : Finset (Fin 2)).fold min posInf (fun cc => accR1 X P m (32 * cc.val + 31)) = colMin X P m := by
  refine eq_of_forall_le_iff fun c => ?_
  have hacc : ∀ cc : Fin 2, (c ≤ accR1 X P m (32 * cc.val + 31)
      ↔ ∀ u, u < 31 + 1 → c ≤ tileR1N X P (32 * cc.val + u) m) :=
    fun cc => le_acc_min (accR1 X P m) (fun t => tileR1N X P t m) rfl (fun n => rfl) c cc.val 31 _ (by omega) rfl
  have htile : ∀ t, (c ≤ tileR1N X P t m ↔ ∀ (h : t < 64) (r : Fin 512), c ≤ dist X P (rowOf ⟨t, h⟩ r) m) := by
    intro t
    unfold tileR1N
    split
    · rename_i h
      rw [tileR1, Finset.le_fold_min, posInf_eq]
      exact ⟨fun hh _ r => hh.2 r (Finset.mem_univ r), fun hh => ⟨le_top, fun r _ => hh h r⟩⟩
    · rename_i h
      exact ⟨fun _ h' => absurd h' h, fun _ => le_top⟩
  have hL : c ≤ (Finset.univ : Finset (Fin 2)).fold min posInf (fun cc => accR1 X P m (32 * cc.val + 31))
      ↔ ∀ cc : Fin 2, c ≤ accR1 X P m (32 * cc.val + 31) := by
    rw [Finset.le_fold_min, posInf_eq]
    exact ⟨fun hh cc => hh.2 cc (Finset.mem_univ cc), fun hh => ⟨le_top, fun cc _ => hh cc⟩⟩
  have hR : c ≤ colMin X P m ↔ ∀ i : Fin 32768, c ≤ dist X P i m := by
    rw [colMin, Finset.le_fold_min, posInf_eq]
    exact ⟨fun hh i => hh.2 i (Finset.mem_univ i), fun hh => ⟨le_top, fun i _ => hh i⟩⟩
  rw [hL, hR]
  constructor
  · intro h i
    have hi := i.isLt
    have h1 := (hacc ⟨i.val / 512 / 32, by omega⟩).mp (h _) (i.val / 512 % 32) (by omega)
    have h2 := (htile _).mp h1 (by show 32 * (i.val / 512 / 32) + i.val / 512 % 32 < 64; omega)
      ⟨i.val % 512, by omega⟩
    have e : rowOf ⟨32 * (i.val / 512 / 32) + i.val / 512 % 32,
        by show 32 * (i.val / 512 / 32) + i.val / 512 % 32 < 64; omega⟩ ⟨i.val % 512, by omega⟩ = i := by
      apply Fin.ext
      show (32 * (i.val / 512 / 32) + i.val / 512 % 32) * 512 + i.val % 512 = i.val
      omega
    rw [← e]
    exact h2
  · intro h cc
    rw [hacc]
    intro u _
    rw [htile]
    intro _ r
    exact h _

end Arrays

/-- With real entries the kernel's way of computing the loss gives the reference's value. -/
theorem result_eq (X : (⟨2, ![32768, 512]⟩ : Shape).Idx → EReal) (P : (⟨2, ![2048, 512]⟩ : Shape).Idx → EReal)
    (W : (⟨2, ![1000, 2048]⟩ : Shape).Idx → EReal) (Y : (⟨1, ![32768]⟩ : Shape).Idx → BitVec 32) (l1 l2 : EReal)
    (hX : ∀ i, ∃ r : ℝ, X i = (r : EReal)) (hP : ∀ i, ∃ r : ℝ, P i = (r : EReal)) (hW : ∀ i, ∃ r : ℝ, W i = (r : EReal)) :
    kernelResult X P W Y l1 l2 = refResult X P W Y l1 l2 := by
  have hpick : ∀ i, picked X P W Y i ≠ ⊥ :=
    fun i => rowPick_ne_bot _ (fun c => logit_real X P W hX hP hW i c) _
  have hA : Ideal.div (zero + ∑ cc : Fin 2, accClass X P W Y (32 * cc.val + 31)) n32768
      = -(Ideal.div (zero + ∑ i : Fin 32768, picked X P W Y i) n32768) := by
    rw [class_sum_eq X P W Y hpick, zero_eq, zero_add, zero_add, n32768_eq, Ideal.div_coe (by norm_num),
      Ideal.div_coe (by norm_num), EReal.neg_mul]
  have hB : ∑ m : Fin 2048, (Finset.univ : Finset (Fin 2)).fold min posInf (fun cc => accR1 X P m (32 * cc.val + 31))
      = ∑ m : Fin 2048, colMin X P m := Fintype.sum_congr _ _ (r1_eq X P)
  rw [kernelResult, refResult, hA, hB, r2_eq X P]

end Cert.Spec

end
-- ==== Proof.lean ====
/-
  The certificate of the prototype classifier's loss kernel against its jnp reference, over the extended reals, under
  the precondition that the float inputs are finite and every label is the number of one of the 1000 classes.

  Both programs compute  -(sum_i logp_i,y_i) / 32768 + l1 * (sum_m min_i d_i,m) / 2048 + l2 * (sum_i min_m d_i,m) / 32768,
  d the matrix of Euclidean distances between the 32768 samples and the 2048 prototypes and logp the row log-softmax
  of d · W^T. The kernel walks the samples in 64 tiles of 512 rows, the first 32 and the last 32 accumulating into two
  triples of running values that the host operations after the region join; the reference works on all rows at once.
  The kernel picks the label's log-probability by a one-hot sum, the reference by a gather: they agree for labels in
  range. The running values regroup into the sums and minima over all rows because addition and min on the extended
  reals are commutative and associative; the one law that needs finiteness is moving the sign of the class term across
  its sum, and with finite inputs no picked log-probability is -∞.

  Frames: the kernel's two frames are the generated ones; the reference's is its run with the result dropped.
-/
import proofs.«418528_j74517682585681_2_alg».proof.Defs
import proofs.«418528_j74517682585681_2_alg».proof.Proof.Gen.Kernel
import proofs.«418528_j74517682585681_2_alg».proof.Proof.Gen.Kernel.Skeleton
import proofs.«418528_j74517682585681_2_alg».proof.Proof.Gen.Kernel.Launch
import proofs.«418528_j74517682585681_2_alg».proof.Proof.Gen.Kernel.Points
import proofs.«418528_j74517682585681_2_alg».proof.Proof.Gen.Kernel.Frame
import proofs.«418528_j74517682585681_2_alg».proof.Proof.Gen.KernelIdeal
import proofs.«418528_j74517682585681_2_alg».proof.Proof.Gen.KernelIdeal.Skeleton
import proofs.«418528_j74517682585681_2_alg».proof.Proof.Gen.KernelIdeal.Launch
import proofs.«418528_j74517682585681_2_alg».proof.Proof.Gen.KernelIdeal.Points
import proofs.«418528_j74517682585681_2_alg».proof.Proof.Gen.KernelIdeal.Frame
import proofs.«418528_j74517682585681_2_alg».proof.Proof.Gen.ReferenceIdeal
import proofs.«418528_j74517682585681_2_alg».proof.Proof.Gen.Pre_finite_inputs
import proofs.«418528_j74517682585681_2_alg».proof.Proof.KValue
import proofs.«418528_j74517682585681_2_alg».proof.Proof.RefValue
import proofs.«418528_j74517682585681_2_alg».proof.Proof.PreFacts
import proofs.«418528_j74517682585681_2_alg».proof.Proof.Algebra
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From arguments that agree and satisfy the precondition both programs end with the same loss: the kernel's result
    is the loss computed half by half and tile by tile, the reference's the loss over all rows, and the two are equal
    for real inputs and labels in range. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5⟩ := hagree c
  obtain ⟨hX, hP, hW, hY⟩ := Cert.PreFacts.of_pre _ _ _ _ _ _ (hpre c)
  rw [Cert.ReferenceIdeal.ReadP.val_main_v34_eq, a0, a1, a2, a3, a4, a5,
    Cert.ReferenceIdeal.RefValue.ref_eq _ _ _ _ _ _ hY]
  funext i
  exact (Cert.Spec.result_eq _ _ _ _ _ _ hX hP hW).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
